-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v24)) (v4 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v24) = v3 c
          ∧ r.2.mem ((c.tc : Thread Cert.KernelIdeal.nD Cert.KernelIdeal.τ).loc Cert.KernelIdeal.main_arg1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v106) = v3 c
          ∧ r.2.mem ((c.tc : Thread Cert.ReferenceIdeal.nD Cert.ReferenceIdeal.τ).loc Cert.ReferenceIdeal.main_v108) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512x512 : Shape := ⟨4, ![8, 128, 512, 512]⟩
abbrev S8x4x512x512 : Shape := ⟨4, ![8, 4, 512, 512]⟩
abbrev S1x128 : Shape := ⟨2, ![1, 128]⟩
abbrev S192x128 : Shape := ⟨2, ![192, 128]⟩
abbrev S192 : Shape := ⟨1, ![192]⟩
abbrev S_ : Shape := ⟨0, ![]⟩

class Facts : Prop where
  bcast_S_S8x128x512x512 : S_.BroadcastsInDim S8x128x512x512 (![] : Fin 0 → Fin S8x128x512x512.rank)
  reducesTo_S8x128x512x512_S_d0_1_2_3 : S8x128x512x512.ReducesTo [0, 1, 2, 3] S_
  h_S_ : 0 < S_.numel
  bcast_S_S1x128 : S_.BroadcastsInDim S1x128 (![] : Fin 0 → Fin S1x128.rank)
  reducesTo_S1x128_S_d0_1 : S1x128.ReducesTo [0, 1] S_
  bcast_S_S192x128 : S_.BroadcastsInDim S192x128 (![] : Fin 0 → Fin S192x128.rank)
  reducesTo_S192x128_S_d0_1 : S192x128.ReducesTo [0, 1] S_
  bcast_S_S192 : S_.BroadcastsInDim S192 (![] : Fin 0 → Fin S192.rank)
  reducesTo_S192_S_d0 : S192.ReducesTo [0] S_
  bcast_S_S8x4x512x512 : S_.BroadcastsInDim S8x4x512x512 (![] : Fin 0 → Fin S8x4x512x512.rank)
  reducesTo_S8x4x512x512_S_d0_1_2_3 : S8x4x512x512.ReducesTo [0, 1, 2, 3] S_

variable [Facts]

def fn_part1 {F : FTy → Type} [FloatOps F] (main_arg1 : IVec S8x4x512x512 32) (main_arg5 : FVec F S192 .f32) (main_v13 : IVec S_ 1) (main_v16 : IVec S192x128 1) : IVec S_ 1 :=
  let main_c_5 : IVec S_ 1 := constantI S_ 1 1#1
  let main_v17 : IVec S_ 1 := (fun x v => Host.reduce IntOp.andi x v reducesTo_S192x128_S_d0_1 h_S_) main_v16 main_c_5
  let main_v18 : IVec S_ 1 := andi main_v13 main_v17
  let main_v19 : FVec F S192 .f32 := Host.absf main_arg5
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_c_8 : IVec S_ 32 := constantI S_ 32 0#32
  let main_v24 : IVec S8x4x512x512 32 := broadcastInDim S8x4x512x512 ![] bcast_S_S8x4x512x512 main_c_8
  let main_v25 : IVec S8x4x512x512 1 := cmpi .sge main_arg1 main_v24
  let main_c_9 : IVec S_ 1 := constantI S_ 1 1#1
  let main_v26 : IVec S_ 1 := (fun x v => Host.reduce IntOp.andi x v reducesTo_S8x4x512x512_S_d0_1_2_3 h_S_) main_v25 main_c_9
  let main_v27 : IVec S_ 1 := andi main_v23 main_v26
  let main_c_10 : IVec S_ 32 := constantI S_ 32 1024#32
  let main_v28 : IVec S8x4x512x512 32 := broadcastInDim S8x4x512x512 ![] bcast_S_S8x4x512x512 main_c_10
  let main_v29 : IVec S8x4x512x512 1 := cmpi .slt main_arg1 main_v28
  let main_c_11 : IVec S_ 1 := constantI S_ 1 1#1
  let main_v30 : IVec S_ 1 := (fun x v => Host.reduce IntOp.andi x v reducesTo_S8x4x512x512_S_d0_1_2_3 h_S_) main_v29 main_c_11
  let main_v31 : IVec S_ 1 := andi main_v27 main_v30
  main_v31

def fn {F : FTy → Type} [FloatOps F] (main_arg0 : FVec F S8x128x512x512 .f32) (main_arg1 : IVec S8x4x512x512 32) (main_arg2 : FVec F S1x128 .f32) (main_arg3 : FVec F S1x128 .f32) (main_arg4 : FVec F S192x128 .f32) (main_arg5 : FVec F S192 .f32) : IVec S_ 1 :=
  let main_v0 : FVec F S8x128x512x512 .f32 := Host.absf main_arg0
  let main_cst : FVec F S_ .f32 := constant S_ .f32 0x7F800000#32
  let main_v1 : FVec F S8x128x512x512 .f32 := broadcastInDim S8x128x512x512 ![] bcast_S_S8x128x512x512 main_cst
  let main_v2 : IVec S8x128x512x512 1 := cmpf .olt main_v0 main_v1
  let main_c : IVec S_ 1 := constantI S_ 1 1#1
  let main_v3 : IVec S_ 1 := (fun x v => Host.reduce IntOp.andi x v reducesTo_S8x128x512x512_S_d0_1_2_3 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S192x128 .f32 := Host.absf main_arg4
  let main_cst_4 : FVec F S_ .f32 := constant S_ .f32 0x7F800000#32
  let main_v15 : FVec F S192x128 .f32 := broadcastInDim S192x128 ![] bcast_S_S192x128 main_cst_4
  let main_v16 : IVec S192x128 1 := cmpf .olt main_v14 main_v15
  fn_part1 (F := F) main_arg1 main_arg5 main_v13 main_v16
-- ==== Kernel.lean ====
abbrev S8x128x512x512 : Shape := ⟨4, ![8, 128, 512, 512]⟩
abbrev S8x4x512x512 : Shape := ⟨4, ![8, 4, 512, 512]⟩
abbrev S1x128 : Shape := ⟨2, ![1, 128]⟩
abbrev S192x128 : Shape := ⟨2, ![192, 128]⟩
abbrev S192 : Shape := ⟨1, ![192]⟩
abbrev S8x128x262144 : Shape := ⟨3, ![8, 128, 262144]⟩
abbrev S8x4x262144 : Shape := ⟨3, ![8, 4, 262144]⟩
abbrev S8x262144x4 : Shape := ⟨3, ![8, 262144, 4]⟩
abbrev S4x8x1024x192 : Shape := ⟨4, ![4, 8, 1024, 192]⟩
abbrev S1x128x4096 : Shape := ⟨3, ![1, 128, 4096]⟩
abbrev S1x4096x4 : Shape := ⟨3, ![1, 4096, 4]⟩
abbrev S4x1x1024x192 : Shape := ⟨4, ![4, 1, 1024, 192]⟩
abbrev S4x128x1024 : Shape := ⟨3, ![4, 128, 1024]⟩
abbrev S4x8x1024 : Shape := ⟨3, ![4, 8, 1024]⟩
abbrev S136x4096 : Shape := ⟨2, ![136, 4096]⟩
abbrev S8x4096 : Shape := ⟨2, ![8, 4096]⟩
abbrev S128x4096 : Shape := ⟨2, ![128, 4096]⟩
abbrev S4096x4 : Shape := ⟨2, ![4096, 4]⟩
abbrev S1x1024 : Shape := ⟨2, ![1, 1024]⟩
abbrev S4096x1 : Shape := ⟨2, ![4096, 1]⟩
abbrev S4096x1024 : Shape := ⟨2, ![4096, 1024]⟩
abbrev S136x1024 : Shape := ⟨2, ![136, 1024]⟩
abbrev S1x128x1024 : Shape := ⟨3, ![1, 128, 1024]⟩
abbrev S128x1024 : Shape := ⟨2, ![128, 1024]⟩
abbrev S1x8x1024 : Shape := ⟨3, ![1, 8, 1024]⟩
abbrev S8x1024 : Shape := ⟨2, ![8, 1024]⟩
abbrev S192x1024 : Shape := ⟨2, ![192, 1024]⟩
abbrev S192x1 : Shape := ⟨2, ![192, 1]⟩
abbrev S1024x192 : Shape := ⟨2, ![1024, 192]⟩
abbrev S1x1x1024x192 : Shape := ⟨4, ![1, 1, 1024, 192]⟩
abbrev S128x192 : Shape := ⟨2, ![128, 192]⟩
abbrev S1x192 : Shape := ⟨2, ![1, 192]⟩
abbrev S1x1x192 : Shape := ⟨3, ![1, 1, 192]⟩
abbrev S8x1x192 : Shape := ⟨3, ![8, 1, 192]⟩
abbrev S1x8x1024x192 : Shape := ⟨4, ![1, 8, 1024, 192]⟩
abbrev S8x1024x192 : Shape := ⟨3, ![8, 1024, 192]⟩
abbrev S8x1025x192 : Shape := ⟨3, ![8, 1025, 192]⟩

abbrev nBuf : Space → Nat
  | .hbm => 31
  | .vmem => 11
  | .smem => 0
  | _ => 0

abbrev bufTy : (tb : Table) → Fin (tcTables nBuf tb) → BufTy
  | .hbm, ⟨0, _⟩ => ⟨S8x128x512x512, .f32⟩
  | .hbm, ⟨1, _⟩ => ⟨S8x4x512x512, .i32⟩
  | .hbm, ⟨2, _⟩ => ⟨S1x128, .f32⟩
  | .hbm, ⟨3, _⟩ => ⟨S1x128, .f32⟩
  | .hbm, ⟨4, _⟩ => ⟨S192x128, .f32⟩
  | .hbm, ⟨5, _⟩ => ⟨S192, .f32⟩
  | .hbm, ⟨6, _⟩ => ⟨S8x128x262144, .f32⟩
  | .hbm, ⟨7, _⟩ => ⟨S8x4x262144, .i32⟩
  | .hbm, ⟨8, _⟩ => ⟨S8x262144x4, .i32⟩
  | .hbm, ⟨9, _⟩ => ⟨S4x8x1024x192, .f32⟩
  | .hbm, ⟨10, _⟩ => ⟨S1x128, .f32⟩
  | .hbm, ⟨11, _⟩ => ⟨S1x128, .bf16⟩
  | .hbm, ⟨12, _⟩ => ⟨S128x192, .f32⟩
  | .hbm, ⟨13, _⟩ => ⟨S128x192, .bf16⟩
  | .hbm, ⟨14, _⟩ => ⟨S1x192, .f32⟩
  | .hbm, ⟨15, _⟩ => ⟨S1x192, .f32⟩
  | .hbm, ⟨16, _⟩ => ⟨S1x192, .f32⟩
  | .hbm, ⟨17, _⟩ => ⟨S1x1x192, .f32⟩
  | .hbm, ⟨18, _⟩ => ⟨S8x1x192, .f32⟩
  | .hbm, ⟨19, _⟩ => ⟨S1x8x1024x192, .f32⟩
  | .hbm, ⟨20, _⟩ => ⟨S8x1024x192, .f32⟩
  | .hbm, ⟨21, _⟩ => ⟨S8x1025x192, .f32⟩
  | .hbm, ⟨22, _⟩ => ⟨S1x8x1024x192, .f32⟩
  | .hbm, ⟨23, _⟩ => ⟨S8x1024x192, .f32⟩
  | .hbm, ⟨24, _⟩ => ⟨S8x1025x192, .f32⟩
  | .hbm, ⟨25, _⟩ => ⟨S1x8x1024x192, .f32⟩
  | .hbm, ⟨26, _⟩ => ⟨S8x1024x192, .f32⟩
  | .hbm, ⟨27, _⟩ => ⟨S8x1025x192, .f32⟩
  | .hbm, ⟨28, _⟩ => ⟨S1x8x1024x192, .f32⟩
  | .hbm, ⟨29, _⟩ => ⟨S8x1024x192, .f32⟩
  | .hbm, ⟨30, _⟩ => ⟨S8x1025x192, .f32⟩
  | .local _ .vmem, ⟨0, _⟩ => ⟨S1x128x4096, .f32⟩
  | .local _ .vmem, ⟨1, _⟩ => ⟨S1x128x4096, .f32⟩
  | .local _ .vmem, ⟨2, _⟩ => ⟨S1x4096x4, .i32⟩
  | .local _ .vmem, ⟨3, _⟩ => ⟨S1x4096x4, .i32⟩
  | .local _ .vmem, ⟨4, _⟩ => ⟨S192x128, .f32⟩
  | .local _ .vmem, ⟨5, _⟩ => ⟨S192, .f32⟩
  | .local _ .vmem, ⟨6, _⟩ => ⟨S4x1x1024x192, .f32⟩
  | .local _ .vmem, ⟨7, _⟩ => ⟨S4x1x1024x192, .f32⟩
  | .local _ .vmem, ⟨8, _⟩ => ⟨S4x128x1024, .f32⟩
  | .local _ .vmem, ⟨9, _⟩ => ⟨S4x8x1024, .f32⟩
  | .local _ .vmem, ⟨10, _⟩ => ⟨S136x4096, .bf16⟩
  | _, _ => ⟨S8x128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 64], ![false, false]⟩

def k0_cond2 (i : grid0.Coords) : BitVec 1 :=
  let arg1 : BitVec 32 := BitVec.ofNat 32 (i 1).val
  let c63_i32 : BitVec 32 := 63#32
  let v104 : BitVec 1 := Scalar.cmpi .eq arg1 c63_i32
  let v105 : BitVec 32 := Scalar.extui v104
  let c0_i32_64 : BitVec 32 := 0#32
  let v106 : BitVec 1 := Scalar.cmpi .ne v105 c0_i32_64
  v106

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x1x1024x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8x128x512x512_S8x128x262144 : S8x128x512x512.ShapeCasts S8x128x262144
  shapeCasts_S8x4x512x512_S8x4x262144 : S8x4x512x512.ShapeCasts S8x4x262144
  transposes_S8x4x262144_S8x262144x4_0_2_1 : S8x4x262144.Transposes [0, 2, 1] S8x262144x4
  inb_S4x128x1024_S4x128x1024_0_0_0 : ∀ a, (![0, 0, 0] : Fin 3 → Nat) a + S4x128x1024.size a ≤ S4x128x1024.size a
  h_S4x128x1024 : 0 < S4x128x1024.numel
  shapeCasts_S4x128x1024_S4x128x1024 : S4x128x1024.ShapeCasts S4x128x1024
  inb_S4x8x1024_S4x8x1024_0_0_0 : ∀ a, (![0, 0, 0] : Fin 3 → Nat) a + S4x8x1024.size a ≤ S4x8x1024.size a
  h_S4x8x1024 : 0 < S4x8x1024.numel
  shapeCasts_S4x8x1024_S4x8x1024 : S4x8x1024.ShapeCasts S4x8x1024
  inb_S136x4096_S8x4096_128_0 : ∀ a, (![128, 0] : Fin 2 → Nat) a + S8x4096.size a ≤ S136x4096.size a
  h_S8x4096 : 0 < S8x4096.numel
  shapeCasts_S8x4096_S8x4096 : S8x4096.ShapeCasts S8x4096
  packedbf16_S136x4096_S8x4096_128_0 : (Rect.unit (s := S136x4096) ![128, 0] S8x4096.size inb_S136x4096_S8x4096_128_0).PackedRows (EltTy.packing .bf16)
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  bitsLt_bf16_f32 : FTy.bits .bf16 < FTy.bits .f32
  inb_S136x4096_S128x4096_0_0 : ∀ a, (![0, 0] : Fin 2 → Nat) a + S128x4096.size a ≤ S136x4096.size a
  h_S128x4096 : 0 < S128x4096.numel
  shapeCasts_S128x4096_S128x4096 : S128x4096.ShapeCasts S128x4096
  packedbf16_S136x4096_S128x4096_0_0 : (Rect.unit (s := S136x4096) ![0, 0] S128x4096.size inb_S136x4096_S128x4096_0_0).PackedRows (EltTy.packing .bf16)
  inb_S1x4096x4_S1x4096x4_0_0_0 : ∀ a, (![0, 0, 0] : Fin 3 → Nat) a + S1x4096x4.size a ≤ S1x4096x4.size a
  h_S1x4096x4 : 0 < S1x4096x4.numel
  shapeCasts_S1x4096x4_S4096x4 : S1x4096x4.ShapeCasts S4096x4
  iota_S1x1024_d1_w32 : S1x1024.Iotas .tc 32 [1]
  slices_S4096x4_o0_0_S4096x1 : S4096x4.Slices ![0, 0] S4096x1
  broadcasts_S1x1024_S4096x1024 : S1x1024.Broadcasts S4096x1024
  broadcasts_S4096x1_S4096x1024 : S4096x1.Broadcasts S4096x1024
  natLt_1_32 : 1 < 32
  inb_S136x4096_S136x4096_0_0 : ∀ a, (![0, 0] : Fin 2 → Nat) a + S136x4096.size a ≤ S136x4096.size a
  h_S136x4096 : 0 < S136x4096.numel
  inb_S4x128x1024_S1x128x1024_0_0_0 : ∀ a, (![0, 0, 0] : Fin 3 → Nat) a + S1x128x1024.size a ≤ S4x128x1024.size a
  h_S1x128x1024 : 0 < S1x128x1024.numel
  shapeCasts_S1x128x1024_S128x1024 : S1x128x1024.ShapeCasts S128x1024
  slices_S136x1024_o0_0_S128x1024 : S136x1024.Slices ![0, 0] S128x1024
  shapeCasts_S128x1024_S1x128x1024 : S128x1024.ShapeCasts S1x128x1024
  inb_S4x8x1024_S1x8x1024_0_0_0 : ∀ a, (![0, 0, 0] : Fin 3 → Nat) a + S1x8x1024.size a ≤ S4x8x1024.size a
  h_S1x8x1024 : 0 < S1x8x1024.numel
  shapeCasts_S1x8x1024_S8x1024 : S1x8x1024.ShapeCasts S8x1024
  slices_S136x1024_o128_0_S8x1024 : S136x1024.Slices ![128, 0] S8x1024
  shapeCasts_S8x1024_S1x8x1024 : S8x1024.ShapeCasts S1x8x1024
  slices_S4096x4_o0_1_S4096x1 : S4096x4.Slices ![0, 1] S4096x1
  inb_S4x128x1024_S1x128x1024_1_0_0 : ∀ a, (![1, 0, 0] : Fin 3 → Nat) a + S1x128x1024.size a ≤ S4x128x1024.size a
  inb_S4x8x1024_S1x8x1024_1_0_0 : ∀ a, (![1, 0, 0] : Fin 3 → Nat) a + S1x8x1024.size a ≤ S4x8x1024.size a
  slices_S4096x4_o0_2_S4096x1 : S4096x4.Slices ![0, 2] S4096x1
  inb_S4x128x1024_S1x128x1024_2_0_0 : ∀ a, (![2, 0, 0] : Fin 3 → Nat) a + S1x128x1024.size a ≤ S4x128x1024.size a
  inb_S4x8x1024_S1x8x1024_2_0_0 : ∀ a, (![2, 0, 0] : Fin 3 → Nat) a + S1x8x1024.size a ≤ S4x8x1024.size a
  slices_S4096x4_o0_3_S4096x1 : S4096x4.Slices ![0, 3] S4096x1
  inb_S4x128x1024_S1x128x1024_3_0_0 : ∀ a, (![3, 0, 0] : Fin 3 → Nat) a + S1x128x1024.size a ≤ S4x128x1024.size a
  inb_S4x8x1024_S1x8x1024_3_0_0 : ∀ a, (![3, 0, 0] : Fin 3 → Nat) a + S1x8x1024.size a ≤ S4x8x1024.size a
  inb_S192x128_S192x128_0_0 : ∀ a, (![0, 0] : Fin 2 → Nat) a + S192x128.size a ≤ S192x128.size a
  h_S192x128 : 0 < S192x128.numel
  inb_S192_S192_0 : ∀ a, (![0] : Fin 1 → Nat) a + S192.size a ≤ S192.size a
  h_S192 : 0 < S192.numel
  slices_S8x1024_o0_0_S1x1024 : S8x1024.Slices ![0, 0] S1x1024
  broadcasts_S1x1024_S128x1024 : S1x1024.Broadcasts S128x1024
  shapeCasts_S192_S192x1 : S192.ShapeCasts S192x1
  broadcasts_S192x1_S192x1024 : S192x1.Broadcasts S192x1024
  transposes_S192x1024_p1_0_S1024x192 : S192x1024.Transposes [1, 0] S1024x192
  inb_S4x1x1024x192_S1x1x1024x192_0_0_0_0 : ∀ a, (![0, 0, 0, 0] : Fin 4 → Nat) a + S1x1x1024x192.size a ≤ S4x1x1024x192.size a
  h_S1x1x1024x192 : 0 < S1x1x1024x192.numel
  shapeCasts_S1x1x1024x192_S1024x192 : S1x1x1024x192.ShapeCasts S1024x192
  shapeCasts_S1024x192_S1x1x1024x192 : S1024x192.ShapeCasts S1x1x1024x192
  inb_S4x1x1024x192_S1x1x1024x192_1_0_0_0 : ∀ a, (![1, 0, 0, 0] : Fin 4 → Nat) a + S1x1x1024x192.size a ≤ S4x1x1024x192.size a
  inb_S4x1x1024x192_S1x1x1024x192_2_0_0_0 : ∀ a, (![2, 0, 0, 0] : Fin 4 → Nat) a + S1x1x1024x192.size a ≤ S4x1x1024x192.size a
  inb_S4x1x1024x192_S1x1x1024x192_3_0_0_0 : ∀ a, (![3, 0, 0, 0] : Fin 4 → Nat) a + S1x1x1024x192.size a ≤ S4x1x1024x192.size a
  transposes_S192x128_S128x192_1_0 : S192x128.Transposes [1, 0] S128x192
  bcast_S192_S1x192_1 : S192.BroadcastsInDim S1x192 (![1] : Fin 1 → Fin S1x192.rank)
  bcast_S1x192_S1x1x192_1_2 : S1x192.BroadcastsInDim S1x1x192 (![1, 2] : Fin 2 → Fin S1x1x192.rank)
  bcast_S1x1x192_S8x1x192_0_1_2 : S1x1x192.BroadcastsInDim S8x1x192 (![0, 1, 2] : Fin 3 → Fin S8x1x192.rank)
  slices_S4x8x1024x192_S1x8x1024x192_0_0_0_0 : S4x8x1024x192.Slices ![0, 0, 0, 0] S1x8x1024x192
  shapeCasts_S1x8x1024x192_S8x1024x192 : S1x8x1024x192.ShapeCasts S8x1024x192
  concatenates_S8x1x192_S8x1024x192_S8x1025x192_d1 : Shape.Concatenates [S8x1x192, S8x1024x192] S8x1025x192 1
  slices_S4x8x1024x192_S1x8x1024x192_1_0_0_0 : S4x8x1024x192.Slices ![1, 0, 0, 0] S1x8x1024x192
  slices_S4x8x1024x192_S1x8x1024x192_2_0_0_0 : S4x8x1024x192.Slices ![2, 0, 0, 0] S1x8x1024x192
  slices_S4x8x1024x192_S1x8x1024x192_3_0_0_0 : S4x8x1024x192.Slices ![3, 0, 0, 0] S1x8x1024x192
  dot_S136x4096_S4096x1024_S136x1024_1_0_0_1_n_n_wf : DotDims.WF S136x4096 S4096x1024 S136x1024 [1] [0] [0] [1] [] []
  dot_S192x128_S128x1024_S192x1024_1_0_0_1_n_n_wf : DotDims.WF S192x128 S128x1024 S192x1024 [1] [0] [0] [1] [] []
  dot_S1x128_S128x192_S1x192_1_0_0_1_n_n_wf : DotDims.WF S1x128 S128x192 S1x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S8x128x262144.size a
  hwx0_0 : ∀ i : grid0.Coords, EltTy.bits .f32 = 32 ∨ (Rect.block (s := S8x128x262144) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x4.size a ≤ S8x262144x4.size a
  hwx0_1 : ∀ i : grid0.Coords, EltTy.bits .i32 = 32 ∨ (Rect.block (s := S8x262144x4) S1x4096x4.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x128.size a ≤ S192x128.size a
  hwx0_2 : ∀ i : grid0.Coords, EltTy.bits .f32 = 32 ∨ (Rect.block (s := S192x128) S192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192.size a ≤ S192.size a
  hwx0_3 : ∀ i : grid0.Coords, EltTy.bits .f32 = 32 ∨ (Rect.block (s := S192) S192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x1024x192.size a ≤ S4x8x1024x192.size a
  hwx0_4 : ∀ i : grid0.Coords, EltTy.bits .f32 = 32 ∨ (Rect.block (s := S4x8x1024x192) S4x1x1024x192.size (cc0_transform_4 i) (hinb0_4 i)).WholeWords (EltTy.packing .f32)

variable [Facts₀]

def dot_S136x4096_S4096x1024_S136x1024_1_0_0_1_n_n : DotDims S136x4096 S4096x1024 S136x1024 where
  lhsContracting := [1]
  rhsContracting := [0]
  lhsNonContracting := [0]
  rhsNonContracting := [1]
  lhsBatch := []
  rhsBatch := []
  wf := dot_S136x4096_S4096x1024_S136x1024_1_0_0_1_n_n_wf
def dot_S192x128_S128x1024_S192x1024_1_0_0_1_n_n : DotDims S192x128 S128x1024 S192x1024 where
  lhsContracting := [1]
  rhsContracting := [0]
  lhsNonContracting := [0]
  rhsNonContracting := [1]
  lhsBatch := []
  rhsBatch := []
  wf := dot_S192x128_S128x1024_S192x1024_1_0_0_1_n_n_wf
def dot_S1x128_S128x192_S1x192_1_0_0_1_n_n : DotDims S1x128 S128x192 S1x192 where
  lhsContracting := [1]
  rhsContracting := [0]
  lhsNonContracting := [0]
  rhsNonContracting := [1]
  lhsBatch := []
  rhsBatch := []
  wf := dot_S1x128_S128x192_S1x192_1_0_0_1_n_n_wf

abbrev win0_0 : Pipeline.Window sig grid0 :=
  Pipeline.Window.ofSpec (Memref.whole main_v0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x1x1024x192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x128x512x512 : Shape := ⟨4, ![8, 128, 512, 512]⟩
abbrev S8x4x512x512 : Shape := ⟨4, ![8, 4, 512, 512]⟩
abbrev S1x128 : Shape := ⟨2, ![1, 128]⟩
abbrev S192x128 : Shape := ⟨2, ![192, 128]⟩
abbrev S192 : Shape := ⟨1, ![192]⟩
abbrev S8x128x262144 : Shape := ⟨3, ![8, 128, 262144]⟩
abbrev S8x262144x128 : Shape := ⟨3, ![8, 262144, 128]⟩
abbrev S2097152x128 : Shape := ⟨2, ![2097152, 128]⟩
abbrev S4x8x512x512 : Shape := ⟨4, ![4, 8, 512, 512]⟩
abbrev S4x8x262144 : Shape := ⟨3, ![4, 8, 262144]⟩
abbrev S8 : Shape := ⟨1, ![8]⟩
abbrev S_ : Shape := ⟨0, ![]⟩
abbrev S8x1 : Shape := ⟨2, ![8, 1]⟩
abbrev S2097152 : Shape := ⟨1, ![2097152]⟩
abbrev S1x8x262144 : Shape := ⟨3, ![1, 8, 262144]⟩
abbrev S8x262144 : Shape := ⟨2, ![8, 262144]⟩
abbrev S8192x128 : Shape := ⟨2, ![8192, 128]⟩
abbrev S2097152x1 : Shape := ⟨2, ![2097152, 1]⟩
abbrev S8192 : Shape := ⟨1, ![8192]⟩
abbrev S8192x1 : Shape := ⟨2, ![8192, 1]⟩
abbrev S8x1024x128 : Shape := ⟨3, ![8, 1024, 128]⟩
abbrev S1x1x128 : Shape := ⟨3, ![1, 1, 128]⟩
abbrev S8x1x128 : Shape := ⟨3, ![8, 1, 128]⟩
abbrev S8x1025x128 : Shape := ⟨3, ![8, 1025, 128]⟩
abbrev S8x1025x192 : Shape := ⟨3, ![8, 1025, 192]⟩
abbrev S1x1x192 : Shape := ⟨3, ![1, 1, 192]⟩
abbrev S8x4x262144 : Shape := ⟨3, ![8, 4, 262144]⟩

abbrev nBuf : Space → Nat
  | .hbm => 129
  | .vmem => 0
  | .smem => 0
  | _ => 0

abbrev hbmTy0_0 (i : Nat) : BufTy := match i % 128 with
  | 0 => ⟨S8x128x512x512, .f32⟩
  | 1 => ⟨S8x4x512x512, .i32⟩
  | 2 => ⟨S1x128, .f32⟩
  | 3 => ⟨S1x128, .f32⟩
  | 4 => ⟨S192x128, .f32⟩
  | 5 => ⟨S192, .f32⟩
  | 6 => ⟨S8x128x262144, .f32⟩
  | 7 => ⟨S8x262144x128, .f32⟩
  | 8 => ⟨S2097152x128, .f32⟩
  | 9 => ⟨S4x8x512x512, .i32⟩
  | 10 => ⟨S4x8x262144, .i32⟩
  | 11 => ⟨S8, .i32⟩
  | 12 => ⟨S_, .i32⟩
  | 13 => ⟨S8, .i32⟩
  | 14 => ⟨S8, .i32⟩
  | 15 => ⟨S8x1, .i32⟩
  | 16 => ⟨S1x128, .f32⟩
  | 17 => ⟨S_, .f32⟩
  | 18 => ⟨S2097152, .f32⟩
  | 19 => ⟨S1x8x262144, .i32⟩
  | 20 => ⟨S8x262144, .i32⟩
  | 21 => ⟨S8x262144, .i32⟩
  | 22 => ⟨S8x262144, .i32⟩
  | 23 => ⟨S2097152, .i32⟩
  | 24 => ⟨S_, .f32⟩
  | 25 => ⟨S8192x128, .f32⟩
  | 26 => ⟨S2097152x1, .i32⟩
  | 27 => ⟨S8192x128, .f32⟩
  | 28 => ⟨S_, .f32⟩
  | 29 => ⟨S8192, .f32⟩
  | 30 => ⟨S2097152x1, .i32⟩
  | 31 => ⟨S8192, .f32⟩
  | 32 => ⟨S_, .f32⟩
  | 33 => ⟨S8192, .f32⟩
  | 34 => ⟨S8192, .f32⟩
  | 35 => ⟨S8192x1, .f32⟩
  | 36 => ⟨S8192x128, .f32⟩
  | 37 => ⟨S8192x128, .f32⟩
  | 38 => ⟨S8x1024x128, .f32⟩
  | 39 => ⟨S1x1x128, .f32⟩
  | 40 => ⟨S8x1x128, .f32⟩
  | 41 => ⟨S8x1025x128, .f32⟩
  | 42 => ⟨S8x1025x192, .f32⟩
  | 43 => ⟨S1x1x192, .f32⟩
  | 44 => ⟨S8x1025x192, .f32⟩
  | 45 => ⟨S8x1025x192, .f32⟩
  | 46 => ⟨S1x8x262144, .i32⟩
  | 47 => ⟨S8x262144, .i32⟩
  | 48 => ⟨S8x262144, .i32⟩
  | 49 => ⟨S8x262144, .i32⟩
  | 50 => ⟨S2097152, .i32⟩
  | 51 => ⟨S_, .f32⟩
  | 52 => ⟨S8192x128, .f32⟩
  | 53 => ⟨S2097152x1, .i32⟩
  | 54 => ⟨S8192x128, .f32⟩
  | 55 => ⟨S_, .f32⟩
  | 56 => ⟨S8192, .f32⟩
  | 57 => ⟨S2097152x1, .i32⟩
  | 58 => ⟨S8192, .f32⟩
  | 59 => ⟨S_, .f32⟩
  | 60 => ⟨S8192, .f32⟩
  | 61 => ⟨S8192, .f32⟩
  | 62 => ⟨S8192x1, .f32⟩
  | 63 => ⟨S8192x128, .f32⟩
  | 64 => ⟨S8192x128, .f32⟩
  | 65 => ⟨S8x1024x128, .f32⟩
  | 66 => ⟨S1x1x128, .f32⟩
  | 67 => ⟨S8x1x128, .f32⟩
  | 68 => ⟨S8x1025x128, .f32⟩
  | 69 => ⟨S8x1025x192, .f32⟩
  | 70 => ⟨S1x1x192, .f32⟩
  | 71 => ⟨S8x1025x192, .f32⟩
  | 72 => ⟨S8x1025x192, .f32⟩
  | 73 => ⟨S1x8x262144, .i32⟩
  | 74 => ⟨S8x262144, .i32⟩
  | 75 => ⟨S8x262144, .i32⟩
  | 76 => ⟨S8x262144, .i32⟩
  | 77 => ⟨S2097152, .i32⟩
  | 78 => ⟨S_, .f32⟩
  | 79 => ⟨S8192x128, .f32⟩
  | 80 => ⟨S2097152x1, .i32⟩
  | 81 => ⟨S8192x128, .f32⟩
  | 82 => ⟨S_, .f32⟩
  | 83 => ⟨S8192, .f32⟩
  | 84 => ⟨S2097152x1, .i32⟩
  | 85 => ⟨S8192, .f32⟩
  | 86 => ⟨S_, .f32⟩
  | 87 => ⟨S8192, .f32⟩
  | 88 => ⟨S8192, .f32⟩
  | 89 => ⟨S8192x1, .f32⟩
  | 90 => ⟨S8192x128, .f32⟩
  | 91 => ⟨S8192x128, .f32⟩
  | 92 => ⟨S8x1024x128, .f32⟩
  | 93 => ⟨S1x1x128, .f32⟩
  | 94 => ⟨S8x1x128, .f32⟩
  | 95 => ⟨S8x1025x128, .f32⟩
  | 96 => ⟨S8x1025x192, .f32⟩
  | 97 => ⟨S1x1x192, .f32⟩
  | 98 => ⟨S8x1025x192, .f32⟩
  | 99 => ⟨S8x1025x192, .f32⟩
  | 100 => ⟨S1x8x262144, .i32⟩
  | 101 => ⟨S8x262144, .i32⟩
  | 102 => ⟨S8x262144, .i32⟩
  | 103 => ⟨S8x262144, .i32⟩
  | 104 => ⟨S2097152, .i32⟩
  | 105 => ⟨S_, .f32⟩
  | 106 => ⟨S8192x128, .f32⟩
  | 107 => ⟨S2097152x1, .i32⟩
  | 108 => ⟨S8192x128, .f32⟩
  | 109 => ⟨S_, .f32⟩
  | 110 => ⟨S8192, .f32⟩
  | 111 => ⟨S2097152x1, .i32⟩
  | 112 => ⟨S8192, .f32⟩
  | 113 => ⟨S_, .f32⟩
  | 114 => ⟨S8192, .f32⟩
  | 115 => ⟨S8192, .f32⟩
  | 116 => ⟨S8192x1, .f32⟩
  | 117 => ⟨S8192x128, .f32⟩
  | 118 => ⟨S8192x128, .f32⟩
  | 119 => ⟨S8x1024x128, .f32⟩
  | 120 => ⟨S1x1x128, .f32⟩
  | 121 => ⟨S8x1x128, .f32⟩
  | 122 => ⟨S8x1025x128, .f32⟩
  | 123 => ⟨S8x1025x192, .f32⟩
  | 124 => ⟨S1x1x192, .f32⟩
  | 125 => ⟨S8x1025x192, .f32⟩
  | 126 => ⟨S8x1025x192, .f32⟩
  | 127 => ⟨S8x4x262144, .i32⟩
  | _ => ⟨S8x128x512x512, .f32⟩

abbrev hbmTy0_1 (i : Nat) : BufTy := match i % 128 with
  | 0 => ⟨S8x4x512x512, .i32⟩
  | _ => ⟨S8x128x512x512, .f32⟩

abbrev hbmTy (i : Nat) : BufTy := match i / 128 with
  | 0 => hbmTy0_0 i
  | 1 => hbmTy0_1 i
  | _ => ⟨S8x128x512x512, .f32⟩

abbrev bufTy : (tb : Table) → Fin (tcTables nBuf tb) → BufTy
  | .hbm, ⟨i, _⟩ => hbmTy i
  | _, _ => ⟨S8x128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_6 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_7 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_8 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_9 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_10 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_11 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩

abbrev nD : Nat := 1
abbrev τ : Topo := Topo.v7x

variable {F : FTy → Type} [FloatOps F]

class Facts₀ : Prop where
  shapeCasts_S8x128x512x512_S8x128x262144 : S8x128x512x512.ShapeCasts S8x128x262144
  transposes_S8x128x262144_S8x262144x128_0_2_1 : S8x128x262144.Transposes [0, 2, 1] S8x262144x128
  shapeCasts_S8x262144x128_S2097152x128 : S8x262144x128.ShapeCasts S2097152x128
  transposes_S8x4x512x512_S4x8x512x512_1_0_2_3 : S8x4x512x512.Transposes [1, 0, 2, 3] S4x8x512x512
  shapeCasts_S4x8x512x512_S4x8x262144 : S4x8x512x512.ShapeCasts S4x8x262144
  bcast_S_S8 : S_.BroadcastsInDim S8 (![] : Fin 0 → Fin S8.rank)
  bcast_S8_S8x1_0 : S8.BroadcastsInDim S8x1 (![0] : Fin 1 → Fin S8x1.rank)
  bcast_S_S2097152 : S_.BroadcastsInDim S2097152 (![] : Fin 0 → Fin S2097152.rank)
  slices_S4x8x262144_S1x8x262144_0_0_0 : S4x8x262144.Slices ![0, 0, 0] S1x8x262144
  shapeCasts_S1x8x262144_S8x262144 : S1x8x262144.ShapeCasts S8x262144
  bcast_S8x1_S8x262144_0_1 : S8x1.BroadcastsInDim S8x262144 (![0, 1] : Fin 2 → Fin S8x262144.rank)
  shapeCasts_S8x262144_S2097152 : S8x262144.ShapeCasts S2097152
  bcast_S_S8192x128 : S_.BroadcastsInDim S8192x128 (![] : Fin 0 → Fin S8192x128.rank)
  bcast_S2097152_S2097152x1_0 : S2097152.BroadcastsInDim S2097152x1 (![0] : Fin 1 → Fin S2097152x1.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  shapeCasts_S8192x128_S8x1024x128 : S8192x128.ShapeCasts S8x1024x128
  bcast_S1x128_S1x1x128_1_2 : S1x128.BroadcastsInDim S1x1x128 (![1, 2] : Fin 2 → Fin S1x1x128.rank)
  bcast_S1x1x128_S8x1x128_0_1_2 : S1x1x128.BroadcastsInDim S8x1x128 (![0, 1, 2] : Fin 3 → Fin S8x1x128.rank)
  concatenates_S8x1x128_S8x1024x128_S8x1025x128_d1 : Shape.Concatenates [S8x1x128, S8x1024x128] S8x1025x128 1
  bcast_S192_S1x1x192_2 : S192.BroadcastsInDim S1x1x192 (![2] : Fin 1 → Fin S1x1x192.rank)
  bcast_S1x1x192_S8x1025x192_0_1_2 : S1x1x192.BroadcastsInDim S8x1025x192 (![0, 1, 2] : Fin 3 → Fin S8x1025x192.rank)
  slices_S4x8x262144_S1x8x262144_1_0_0 : S4x8x262144.Slices ![1, 0, 0] S1x8x262144
  slices_S4x8x262144_S1x8x262144_2_0_0 : S4x8x262144.Slices ![2, 0, 0] S1x8x262144
  slices_S4x8x262144_S1x8x262144_3_0_0 : S4x8x262144.Slices ![3, 0, 0] S1x8x262144
  transposes_S4x8x262144_S8x4x262144_1_0_2 : S4x8x262144.Transposes [1, 0, 2] S8x4x262144
  shapeCasts_S8x4x262144_S8x4x512x512 : S8x4x262144.ShapeCasts S8x4x512x512
  scatter_S8192x128_S2097152x1_S2097152x128_1_0_0_1_wf : ScatterDims.WF S8192x128 S2097152x1 S2097152x128 [1] [0] [0] 1
  scatter_S8192_S2097152x1_S2097152_n_0_0_1_wf : ScatterDims.WF S8192 S2097152x1 S2097152 [] [0] [0] 1
  dot_S8x1025x128_S192x128_S8x1025x192_2_1_01_0_n_n_wf : DotDims.WF S8x1025x128 S192x128 S8x1025x192 [2] [1] [0, 1] [0] [] []

variable [Facts₀]

def scatter_S8192x128_S2097152x1_S2097152x128_1_0_0_1 : ScatterDims S8192x128 S2097152x1 S2097152x128 where
  updateWindowDims := [1]
  insertedWindowDims := [0]
  scatterDimsToOperandDims := [0]
  indexVectorDim := 1
  wf := scatter_S8192x128_S2097152x1_S2097152x128_1_0_0_1_wf
def scatter_S8192_S2097152x1_S2097152_n_0_0_1 : ScatterDims S8192 S2097152x1 S2097152 where
  updateWindowDims := []
  insertedWindowDims := [0]
  scatterDimsToOperandDims := [0]
  indexVectorDim := 1
  wf := scatter_S8192_S2097152x1_S2097152_n_0_0_1_wf
def dot_S8x1025x128_S192x128_S8x1025x192_2_1_01_0_n_n : DotDims S8x1025x128 S192x128 S8x1025x192 where
  lhsContracting := [2]
  rhsContracting := [1]
  lhsNonContracting := [0, 1]
  rhsNonContracting := [0]
  lhsBatch := []
  rhsBatch := []
  wf := dot_S8x1025x128_S192x128_S8x1025x192_2_1_01_0_n_n_wf

class Facts : Prop extends Facts₀ where

variable [Facts]
-- ==== Proof.Spec.lean ====
/-
  The mathematics of the certificate, free of both programs.

  An image has 262144 pixels, read tile by tile: 64 tiles of 4096 pixels.  For a batch `b`, a scale `s`,
  a superpixel id `n` and a channel `c`, the segment sum is the sum over the pixels `p` of image `b` of
  `X b c p` weighted by the indicator "pixel `p` carries id `n` at scale `s`", and the segment count is the
  sum of the indicators alone.  The mean divides the sum by the larger of the count and one; a token is the
  1×1 convolution of the mean over the channels plus the bias; row 0 of every token array is the class token
  (class token plus its positional embedding) through the same convolution.
-/
import Idealize.ShloMosaic.PureOps.Ideal
import Idealize.ShloMosaic.PureOps.Ideal.Laws
import Idealize.ShloMosaic.Lib.ValueIdx

noncomputable section

namespace Cert.Spec

open Idealize.ShloMosaic

/-- Pixel `k` of tile `t` of an image (total in `t`: reduced modulo the image's size, which changes nothing for
    the 64 tiles an image has). -/
def pix (t : ℕ) (k : Fin 4096) : Fin 262144 := ⟨(t * 4096 + k.val) % 262144, Nat.mod_lt _ (by decide)⟩

theorem pix_val (t : ℕ) (ht : t < 64) (k : Fin 4096) : (pix t k).val = t * 4096 + k.val := by
  have := k.isLt
  show (t * 4096 + k.val) % 262144 = _
  exact Nat.mod_eq_of_lt (by omega)

/-- `1` when the pixel's id word `a` is the superpixel `n`, else `0`. -/
def ind (a : BitVec 32) (n : Fin 1024) : EReal := if BitVec.ofNat 32 n.val = a then 1 else 0

/-- The float literal `1.0` both programs compare the count with. -/
abbrev oneLit : EReal := Ideal.ofBits .f32 0x3F800000#32

section

variable (X : Fin 8 → Fin 128 → Fin 262144 → EReal) (Sg : Fin 8 → Fin 4 → Fin 262144 → BitVec 32)
  (cls pos : Fin 128 → EReal) (W : Fin 192 → Fin 128 → EReal) (bias : Fin 192 → EReal)

/-- One tile's share of a segment sum. -/
def tileSum (b : Fin 8) (s : Fin 4) (c : Fin 128) (n : Fin 1024) (t : ℕ) : EReal :=
  ∑ k : Fin 4096, X b c (pix t k) * ind (Sg b s (pix t k)) n

/-- One tile's share of a segment count. -/
def tileCnt (b : Fin 8) (s : Fin 4) (n : Fin 1024) (t : ℕ) : EReal :=
  ∑ k : Fin 4096, ind (Sg b s (pix t k)) n

/-- The segment sum over the first `T` tiles. -/
def segSum (b : Fin 8) (s : Fin 4) (c : Fin 128) (n : Fin 1024) (T : ℕ) : EReal :=
  ∑ t ∈ Finset.range T, tileSum X Sg b s c n t

/-- The segment count over the first `T` tiles. -/
def segCnt (b : Fin 8) (s : Fin 4) (n : Fin 1024) (T : ℕ) : EReal :=
  ∑ t ∈ Finset.range T, tileCnt Sg b s n t

/-- The segment mean: the whole image's sum over the larger of its count and one. -/
def mean (b : Fin 8) (s : Fin 4) (c : Fin 128) (n : Fin 1024) : EReal :=
  Ideal.div (segSum X Sg b s c n 64) (max (segCnt Sg b s n 64) oneLit)

/-- A superpixel's token: the convolution of its mean over the channels, plus the bias. -/
def tok (b : Fin 8) (s : Fin 4) (n : Fin 1024) (e : Fin 192) : EReal :=
  (∑ c : Fin 128, W e c * mean X Sg b s c n) + bias e

/-- The class token's row. -/
def clsTok (e : Fin 192) : EReal :=
  (∑ c : Fin 128, (cls c + pos c) * W e c) + bias e

/-- Scale `s`'s token array: row 0 the class token, row `n + 1` superpixel `n`'s token. -/
def G (s : Fin 4) (b : Fin 8) (r : Fin 1025) (e : Fin 192) : EReal :=
  if h : r.val = 0 then clsTok cls pos W bias e
  else tok X Sg W bias b s ⟨r.val - 1, by have := r.isLt; omega⟩ e

theorem segSum_succ (b : Fin 8) (s : Fin 4) (c : Fin 128) (n : Fin 1024) (T : ℕ) :
    segSum X Sg b s c n (T + 1) = segSum X Sg b s c n T + tileSum X Sg b s c n T :=
  Finset.sum_range_succ _ _

theorem segCnt_succ (b : Fin 8) (s : Fin 4) (n : Fin 1024) (T : ℕ) :
    segCnt Sg b s n (T + 1) = segCnt Sg b s n T + tileCnt Sg b s n T :=
  Finset.sum_range_succ _ _

theorem segSum_zero (b : Fin 8) (s : Fin 4) (c : Fin 128) (n : Fin 1024) : segSum X Sg b s c n 0 = 0 :=
  Finset.sum_range_zero _

theorem segCnt_zero (b : Fin 8) (s : Fin 4) (n : Fin 1024) : segCnt Sg b s n 0 = 0 :=
  Finset.sum_range_zero _

end

/-! ## The same, over the programs' argument arrays -/

open Idealize.ShloMosaic.ValueIdx

/-- The images, channel-major with the 512 × 512 pixels flattened row by row. -/
def Xof (x : (⟨4, ![8, 128, 512, 512]⟩ : Shape).Idx → EReal) (b : Fin 8) (c : Fin 128) (p : Fin 262144) : EReal :=
  x (ix4 b c ⟨p.val / 512, by have := p.isLt; omega⟩ ⟨p.val % 512, Nat.mod_lt _ (by decide)⟩)

/-- The superpixel ids, pixels flattened the same way. -/
def Sgof (sg : (⟨4, ![8, 4, 512, 512]⟩ : Shape).Idx → BitVec 32) (b : Fin 8) (s : Fin 4) (p : Fin 262144) : BitVec 32 :=
  sg (ix4 b s ⟨p.val / 512, by have := p.isLt; omega⟩ ⟨p.val % 512, Nat.mod_lt _ (by decide)⟩)

/-- Scale `s`'s token array as a function of the six argument arrays. -/
def GArr (s : Fin 4) (x : (⟨4, ![8, 128, 512, 512]⟩ : Shape).Idx → EReal)
    (sg : (⟨4, ![8, 4, 512, 512]⟩ : Shape).Idx → BitVec 32)
    (ct cp : (⟨2, ![1, 128]⟩ : Shape).Idx → EReal) (w : (⟨2, ![192, 128]⟩ : Shape).Idx → EReal)
    (bv : (⟨1, ![192]⟩ : Shape).Idx → EReal) : (⟨3, ![8, 1025, 192]⟩ : Shape).Idx → EReal :=
  fun j => G (Xof x) (Sgof sg) (fun c => ct (ix2 0 c)) (fun c => cp (ix2 0 c)) (fun e c => w (ix2 e c))
    (fun e => bv (ix1 e)) s ⟨(j 0).val, (j 0).isLt⟩ ⟨(j 1).val, (j 1).isLt⟩ ⟨(j 2).val, (j 2).isLt⟩

/-- The ids are superpixel ids: every word, read signed, lies in `[0, 1024)`. -/
def InRange (sg : (⟨4, ![8, 4, 512, 512]⟩ : Shape).Idx → BitVec 32) : Prop :=
  ∀ i, 0 ≤ (sg i).toInt ∧ (sg i).toInt < 1024

end Cert.Spec

end
-- ==== Proof.PreRange.lean ====
/-
  Reading the precondition: its last two conjuncts say every superpixel id, read signed, is at least 0 and
  below 1024.
-/
import proofs.«428727_j37907381354596_3_alg».proof.Proof.Gen.Pre_finite_inputs
import proofs.«428727_j37907381354596_3_alg».proof.Proof.Spec
import Idealize.ShloMosaic.Lib.ReduceAll
import Idealize.ShloMosaic.Lib.StableHlo.Predicate

set_option maxRecDepth 16384

noncomputable section

namespace Cert.PreRange

open Cert.Spec Idealize.ShloMosaic Idealize.ShloMosaic.ValueIdx

variable [Cert.Pre_finite_inputs.Facts]

/-- A shape with no axes has one index. -/
instance : Subsingleton Cert.Pre_finite_inputs.S_.Idx := ⟨fun a b => funext fun d => d.elim0⟩

theorem inRange_of_pre (a0 : FVec Ideal Cert.Pre_finite_inputs.S8x128x512x512 .f32) (a1 : IVec Cert.Pre_finite_inputs.S8x4x512x512 32)
    (a2 a3 : FVec Ideal Cert.Pre_finite_inputs.S1x128 .f32) (a4 : FVec Ideal Cert.Pre_finite_inputs.S192x128 .f32)
    (a5 : FVec Ideal Cert.Pre_finite_inputs.S192 .f32)
    (h : Cert.Pre_finite_inputs.fn (F := Ideal) a0 a1 a2 a3 a4 a5 = fun _ => 1#1) : InRange a1 := by
  intro i
  have h0 := congrFun h ix0
  dsimp only [Cert.Pre_finite_inputs.fn, Cert.Pre_finite_inputs.fn_part1] at h0
  -- the last conjunct: every id is below 1024; the one before it: every id is at least 0
  obtain ⟨h27, h30⟩ := IntOp.andi_eq_one.1 h0
  obtain ⟨_, h26⟩ := IntOp.andi_eq_one.1 h27
  have hge := Host.reduce_andi_all _ _ _ _ ix0 h26 i
  have hlt := Host.reduce_andi_all _ _ _ _ ix0 h30 i
  have hge' : (0#32 : BitVec 32).toInt ≤ (a1 i).toInt := IntOp.cmpi_sge.1 hge
  have hlt' : (a1 i).toInt < (1024#32 : BitVec 32).toInt := IntOp.cmpi_slt.1 hlt
  have z0 : (0#32 : BitVec 32).toInt = 0 := by decide
  have z1 : (1024#32 : BitVec 32).toInt = 1024 := by decide
  rw [z0] at hge'
  rw [z1] at hlt'
  exact ⟨hge', hlt'⟩

end Cert.PreRange

end
-- ==== Proof.KBlocks.lean ====
/-
  The pipeline's input blocks as restrictions of the arrays the region finds.  Grid point `t` is tile
  `t % 64` of image `t / 64`: the image block is channel-major, 4096 pixels wide, starting at pixel
  `(t % 64) · 4096`; the id block holds the same pixels, one row a pixel, one column a scale; the weights and the
  bias are read whole at every point.
-/
import proofs.«428727_j37907381354596_3_alg».proof.Proof.Gen.KernelIdeal.Frame
import proofs.«428727_j37907381354596_3_alg».proof.Proof.Spec

set_option maxRecDepth 16384

noncomputable section

namespace Cert.KernelIdeal.Blocks

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ)

/-- The arrays as the region finds them, at their literal types. -/
abbrev xarr (c : Dev nD) : Vec Ideal S8x128x262144 .f32 := V m c main_v0
abbrev sarr (c : Dev nD) : Vec Ideal S8x262144x4 .i32 := V m c main_v2
abbrev warr (c : Dev nD) : Vec Ideal S192x128 .f32 := V m c main_arg4
abbrev barr (c : Dev nD) : Vec Ideal S192 .f32 := V m c main_arg5

/-- The blocks at a grid point, at their literal types. -/
abbrev xblk (c : Dev nD) (t : Fin cfg0.N) : Vec Ideal S1x128x4096 .f32 := iblk m c 0 t
abbrev sblk (c : Dev nD) (t : Fin cfg0.N) : Vec Ideal S1x4096x4 .i32 := iblk m c 1 t
abbrev wblk (c : Dev nD) (t : Fin cfg0.N) : Vec Ideal S192x128 .f32 := iblk m c 2 t
abbrev bblk (c : Dev nD) (t : Fin cfg0.N) : Vec Ideal S192 .f32 := iblk m c 3 t

/-- The printed index maps over the grid: image `t / 64`, tile `t % 64`; the weights' and the bias's block is
    always block 0. -/
theorem idx_facts : ∀ t : Fin cfg0.N,
    win0_0.index t (0 : Fin 3) = t.val / 64 ∧ win0_0.index t (1 : Fin 3) = 0 ∧ win0_0.index t (2 : Fin 3) = t.val % 64
    ∧ win0_1.index t (0 : Fin 3) = t.val / 64 ∧ win0_1.index t (1 : Fin 3) = t.val % 64 ∧ win0_1.index t (2 : Fin 3) = 0
    ∧ win0_2.index t (0 : Fin 2) = 0 ∧ win0_2.index t (1 : Fin 2) = 0
    ∧ win0_3.index t (0 : Fin 1) = 0 :=
  (by decide +kernel : ∀ t : Fin grid0.N, _)

theorem img_lt (t : Fin cfg0.N) : t.val / 64 < 8 := by
  have h : t.val < 512 := lt_of_lt_of_eq t.isLt (show cfg0.N = 512 from N_0); omega

theorem pixel_lt (t : Fin cfg0.N) (k : Fin 4096) : (t.val % 64) * 4096 + k.val < 262144 := by
  have := k.isLt; omega

/-- The image block: channel `ch`, position `k` is pixel `(t % 64) · 4096 + k` of image `t / 64`. -/
theorem xblk_apply (c : Dev nD) (t : Fin cfg0.N) (ch : Fin 128) (k : Fin 4096) :
    xblk m c t (ix3 0 ch k) = xarr m c (ix3 ⟨t.val / 64, img_lt t⟩ ch ⟨(t.val % 64) * 4096 + k.val, pixel_lt t k⟩) := by
  obtain ⟨e0, e1, e2, -⟩ := idx_facts t
  show V m c main_v0 (((cfg0.win 0).blk t).view.emb (ix3 0 ch k)) = V m c main_v0 _
  refine congrArg (V m c main_v0) (funext fun a => Fin.ext ?_)
  match a with
  | ⟨0, _⟩ => show win0_0.index t (0 : Fin 3) * 1 + 1 * 0 = t.val / 64; omega
  | ⟨1, _⟩ => show win0_0.index t (1 : Fin 3) * 128 + 1 * ch.val = ch.val; omega
  | ⟨2, _⟩ => show win0_0.index t (2 : Fin 3) * 4096 + 1 * k.val = (t.val % 64) * 4096 + k.val; omega

/-- The id block: row `k`, column `s` is the id at scale `s` of pixel `(t % 64) · 4096 + k` of image `t / 64`. -/
theorem sblk_apply (c : Dev nD) (t : Fin cfg0.N) (k : Fin 4096) (s : Fin 4) :
    sblk m c t (ix3 0 k s) = sarr m c (ix3 ⟨t.val / 64, img_lt t⟩ ⟨(t.val % 64) * 4096 + k.val, pixel_lt t k⟩ s) := by
  obtain ⟨-, -, -, e0, e1, e2, -⟩ := idx_facts t
  show V m c main_v2 (((cfg0.win 1).blk t).view.emb (ix3 0 k s)) = V m c main_v2 _
  refine congrArg (V m c main_v2) (funext fun a => Fin.ext ?_)
  match a with
  | ⟨0, _⟩ => show win0_1.index t (0 : Fin 3) * 1 + 1 * 0 = t.val / 64; omega
  | ⟨1, _⟩ => show win0_1.index t (1 : Fin 3) * 4096 + 1 * k.val = (t.val % 64) * 4096 + k.val; omega
  | ⟨2, _⟩ => show win0_1.index t (2 : Fin 3) * 4 + 1 * s.val = s.val; omega

/-- The weights' block is the whole array. -/
theorem wblk_apply (c : Dev nD) (t : Fin cfg0.N) (e : Fin 192) (ch : Fin 128) :
    wblk m c t (ix2 e ch) = warr m c (ix2 e ch) := by
  obtain ⟨-, -, -, -, -, -, e0, e1, -⟩ := idx_facts t
  show V m c main_arg4 (((cfg0.win 2).blk t).view.emb (ix2 e ch)) = V m c main_arg4 _
  refine congrArg (V m c main_arg4) (funext fun a => Fin.ext ?_)
  match a with
  | ⟨0, _⟩ => show win0_2.index t (0 : Fin 2) * 192 + 1 * e.val = e.val; omega
  | ⟨1, _⟩ => show win0_2.index t (1 : Fin 2) * 128 + 1 * ch.val = ch.val; omega

/-- The bias's block is the whole array. -/
theorem bblk_apply (c : Dev nD) (t : Fin cfg0.N) (e : Fin 192) :
    bblk m c t (ix1 e) = barr m c (ix1 e) := by
  obtain ⟨-, -, -, -, -, -, -, -, e0⟩ := idx_facts t
  show V m c main_arg5 (((cfg0.win 3).blk t).view.emb (ix1 e)) = V m c main_arg5 _
  refine congrArg (V m c main_arg5) (funext fun a => Fin.ext ?_)
  match a with
  | ⟨0, _⟩ => show win0_3.index t (0 : Fin 1) * 192 + 1 * e.val = e.val; omega

end Cert.KernelIdeal.Blocks

end
-- ==== Proof.KStepAug.lean ====
/-
  What one grid point leaves in the widened tile buffer (136 rows of 4096 pixels): rows 0 to 127 are the
  point's own image tile, one channel a row; rows 128 to 135 are the constant one — written at an image's first
  tile, kept afterwards.
-/
import proofs.«428727_j37907381354596_3_alg».proof.Proof.Gen.KernelIdeal.Frame
import proofs.«428727_j37907381354596_3_alg».proof.Proof.Spec
import Idealize.ShloMosaic.Lib.WritesUnit
import Idealize.ShloMosaic.Lib.Pipeline.Value

set_option maxRecDepth 16384

noncomputable section

namespace Cert.KernelIdeal.Step

open Cert.KernelIdeal Cert.KernelIdeal.Gen Cert.Spec
open Idealize.ShloMosaic Idealize.ShloMosaic.TcCoe Idealize.ShloMosaic.ValueIdx Idealize.SL.Sem
open Idealize.ShloMosaic.Tactic Idealize.SL

/-- The offsets of a whole rank-3 window are all zero. -/
theorem aug_zero3 : (![0, 0, 0] : Fin 3 → ℕ) = fun _ => 0 := by
  funext a
  match a with
  | ⟨0, _⟩ => rfl
  | ⟨1, _⟩ => rfl
  | ⟨2, _⟩ => rfl

/-- The tile payload at row r, pixel k: the image tile's channel r at pixel k (the unit axis dropped, the format
    change the identity on extended reals). -/
theorem aug_pay13_apply (v3 : Vec Ideal S1x128x4096 .f32) (r : Fin 128) (k : Fin 4096) :
    (k0_pay13 (F := Ideal) v3 (ix2 r k) : EReal) = v3 (ix3 0 r k) := by
  unfold k0_pay13
  rw [shapeCast_self]
  refine (truncf_apply (φ := .f32) (ψ := .bf16) (shapeCast S128x4096 v3 shapeCasts_S1x128x4096_S128x4096) bitsLt_bf16_f32 (ix2 r k)).trans ?_
  refine (shapeCast_dropUnit_apply ![128, 4096] v3 shapeCasts_S1x128x4096_S128x4096 (ix2 r k)).trans ?_
  refine congrArg v3 (funext fun a => ?_)
  match a with
  | ⟨0, _⟩ => rfl
  | ⟨1, _⟩ => rfl
  | ⟨2, _⟩ => rfl

/-- The bf16 pattern 0x3F80 denotes the extended real one. -/
theorem aug_one_bf16 : Ideal.ofBits .bf16 0x3F80#16 = 1 := by
  simp [Ideal.ofBits, Ideal.ieee, -EReal.coe_mul]; norm_num

/-- The constant payload: one at every index. -/
theorem aug_pay12_apply (j : S8x4096.Idx) : (k0_pay12 (F := Ideal) j : EReal) = 1 := by
  unfold k0_pay12
  rw [shapeCast_self]
  exact aug_one_bf16

/-- A buffer of 136 rows whose newest store is rows 0 to 127: a row below 128 reads that store's payload at the
    same row and pixel, a row from 128 on reads what the earlier stores left. -/
theorem aug_read_tile_store {κ : Kind} {sp : Space} (v : View sig κ sp S136x4096 .bf16) (f : v.ty.Contents (Elt Ideal))
    (w : FVec Ideal S128x4096 .bf16) (L : List (View.Piece (Elt Ideal) S136x4096 .bf16)) (r : Fin 136) (k : Fin 4096) :
    View.read (Elt Ideal) v (v.writes (Elt Ideal) f
      (⟨Rect.unit ![0, 0] S128x4096.size inb_S136x4096_S128x4096_0_0, w⟩ :: L)) (ix2 r k)
    = if h : r.val < 128 then w (ix2 ⟨r.val, h⟩ k)
      else View.read (Elt Ideal) v (v.writes (Elt Ideal) f L) (ix2 r k) := by
  by_cases h : r.val < 128
  · rw [dif_pos h]
    exact View.read_writes_cons_rows_of_mem (o := 0) v f inb_S136x4096_S128x4096_0_0 w L (ix2 r k)
      (ix2 ⟨r.val, h⟩ k) rfl (Nat.zero_add _).symm rfl
  · rw [dif_neg h]
    exact View.read_writes_cons_rows_of_not_mem (o := 0) (W := 128) v f inb_S136x4096_S128x4096_0_0 w L (ix2 r k)
      rfl rfl (Or.inr (by show 0 + 128 ≤ r.val; omega))

/-- The same buffer when the newest store is rows 128 to 135: such a row reads that store's payload at row r - 128. -/
theorem aug_read_ones_store {κ : Kind} {sp : Space} (v : View sig κ sp S136x4096 .bf16) (f : v.ty.Contents (Elt Ideal))
    (w : FVec Ideal S8x4096 .bf16) (L : List (View.Piece (Elt Ideal) S136x4096 .bf16)) (r : Fin 136) (k : Fin 4096)
    (h : ¬ r.val < 128) :
    View.read (Elt Ideal) v (v.writes (Elt Ideal) f
      (⟨Rect.unit ![128, 0] S8x4096.size inb_S136x4096_S8x4096_128_0, w⟩ :: L)) (ix2 r k)
    = w (ix2 ⟨r.val - 128, by have := r.isLt; omega⟩ k) :=
  View.read_writes_cons_rows_of_mem (o := 128) v f inb_S136x4096_S8x4096_128_0 w L (ix2 r k)
    (ix2 ⟨r.val - 128, by have := r.isLt; omega⟩ k) rfl (by show r.val = 128 + (r.val - 128); omega) rfl

theorem augA (c : Dev nD) (i : grid0.Coords) (arg2 : Memref sig .tc .vmem S1x128x4096 .f32) (harg2 : arg2.IsWhole) (arg3 : Memref sig .tc .vmem S1x4096x4 .i32) (harg3 : arg3.IsWhole) (arg4 : Memref sig .tc .vmem S192x128 .f32) (harg4 : arg4.IsWhole) (arg5 : Memref sig .tc .vmem S192 .f32) (harg5 : arg5.IsWhole) (arg6 : Memref sig .tc .vmem S4x1x1024x192 .f32) (harg6 : arg6.IsWhole) (arg7 : Memref sig .tc .vmem S4x128x1024 .f32) (harg7 : arg7.IsWhole) (arg8 : Memref sig .tc .vmem S4x8x1024 .f32) (harg8 : arg8.IsWhole) (arg9 : Memref sig .tc .vmem S136x4096 .bf16) (harg9 : arg9.IsWhole) (hc0 : cond0_0 i) (hc1 : ¬cond0_1 i) (x0 : Vec Ideal S1x128x4096 .f32) (x1 : Vec Ideal S1x4096x4 .i32) (x2 : Vec Ideal S192x128 .f32) (x3 : Vec Ideal S192 .f32) (r : Fin 136) (k : Fin 4096) :
    (sout0_A_2 (F := Ideal) c i arg2 harg2 arg3 harg3 arg4 harg4 arg5 harg5 arg6 harg6 arg7 harg7 arg8 harg8 arg9 harg9 hc0 hc1 x0 x1 x2 x3 (ix2 r k) : EReal)
      = if h : r.val < 128 then (x0 (ix3 0 ⟨r.val, h⟩ k) : EReal) else 1 := by
  unfold sout0_A_2
  unfold kernelRun0_A
  dsimp only
  sl_unfold_words
  refine (aug_read_tile_store VS0_2 _ _ _ r k).trans ?_
  by_cases h : r.val < 128
  · rw [dif_pos h, dif_pos h]
    refine (aug_pay13_apply _ ⟨r.val, h⟩ k).trans ?_
    simp only [View.readAt_eq_ld, harg2.read_unread]
    exact congrFun (View.ld_unit_zero (S := S1x128x4096) (off := ![0, 0, 0]) aug_zero3 _ x0) _
  · rw [dif_neg h, dif_neg h]
    refine (aug_read_ones_store VS0_2 _ _ [] r k h).trans ?_
    exact aug_pay12_apply _

theorem augB (c : Dev nD) (i : grid0.Coords) (arg2 : Memref sig .tc .vmem S1x128x4096 .f32) (harg2 : arg2.IsWhole) (arg3 : Memref sig .tc .vmem S1x4096x4 .i32) (harg3 : arg3.IsWhole) (arg4 : Memref sig .tc .vmem S192x128 .f32) (harg4 : arg4.IsWhole) (arg5 : Memref sig .tc .vmem S192 .f32) (harg5 : arg5.IsWhole) (arg6 : Memref sig .tc .vmem S4x1x1024x192 .f32) (harg6 : arg6.IsWhole) (arg7 : Memref sig .tc .vmem S4x128x1024 .f32) (harg7 : arg7.IsWhole) (arg8 : Memref sig .tc .vmem S4x8x1024 .f32) (harg8 : arg8.IsWhole) (arg9 : Memref sig .tc .vmem S136x4096 .bf16) (harg9 : arg9.IsWhole) (hc0 : ¬cond0_0 i) (hc1 : ¬cond0_1 i) (x0 : Vec Ideal S1x128x4096 .f32) (x1 : Vec Ideal S1x4096x4 .i32) (x2 : Vec Ideal S192x128 .f32) (x3 : Vec Ideal S192 .f32) (xs0 : Vec Ideal S4x128x1024 .f32) (xs1 : Vec Ideal S4x8x1024 .f32) (xs2 : Vec Ideal S136x4096 .bf16) (r : Fin 136) (k : Fin 4096) :
    (sout0_B_2 (F := Ideal) c i arg2 harg2 arg3 harg3 arg4 harg4 arg5 harg5 arg6 harg6 arg7 harg7 arg8 harg8 arg9 harg9 hc0 hc1 x0 x1 x2 x3 xs0 xs1 xs2 (ix2 r k) : EReal)
      = if h : r.val < 128 then (x0 (ix3 0 ⟨r.val, h⟩ k) : EReal) else (xs2 (ix2 r k) : EReal) := by
  unfold sout0_B_2
  unfold kernelRun0_B
  dsimp only
  sl_unfold_words
  refine (aug_read_tile_store arg9.view _ _ [] r k).trans ?_
  by_cases h : r.val < 128
  · rw [dif_pos h, dif_pos h]
    refine (aug_pay13_apply _ ⟨r.val, h⟩ k).trans ?_
    simp only [View.readAt_eq_ld, harg2.read_unread]
    exact congrFun (View.ld_unit_zero (S := S1x128x4096) (off := ![0, 0, 0]) aug_zero3 _ x0) _
  · rw [dif_neg h, dif_neg h]
    exact congrFun (harg9.read_unread xs2) (ix2 r k)

theorem augC (c : Dev nD) (i : grid0.Coords) (arg2 : Memref sig .tc .vmem S1x128x4096 .f32) (harg2 : arg2.IsWhole) (arg3 : Memref sig .tc .vmem S1x4096x4 .i32) (harg3 : arg3.IsWhole) (arg4 : Memref sig .tc .vmem S192x128 .f32) (harg4 : arg4.IsWhole) (arg5 : Memref sig .tc .vmem S192 .f32) (harg5 : arg5.IsWhole) (arg6 : Memref sig .tc .vmem S4x1x1024x192 .f32) (harg6 : arg6.IsWhole) (arg7 : Memref sig .tc .vmem S4x128x1024 .f32) (harg7 : arg7.IsWhole) (arg8 : Memref sig .tc .vmem S4x8x1024 .f32) (harg8 : arg8.IsWhole) (arg9 : Memref sig .tc .vmem S136x4096 .bf16) (harg9 : arg9.IsWhole) (hc0 : ¬cond0_0 i) (hc1 : cond0_1 i) (x0 : Vec Ideal S1x128x4096 .f32) (x1 : Vec Ideal S1x4096x4 .i32) (x2 : Vec Ideal S192x128 .f32) (x3 : Vec Ideal S192 .f32) (xs0 : Vec Ideal S4x128x1024 .f32) (xs1 : Vec Ideal S4x8x1024 .f32) (xs2 : Vec Ideal S136x4096 .bf16) (r : Fin 136) (k : Fin 4096) :
    (sout0_C_2 (F := Ideal) c i arg2 harg2 arg3 harg3 arg4 harg4 arg5 harg5 arg6 harg6 arg7 harg7 arg8 harg8 arg9 harg9 hc0 hc1 x0 x1 x2 x3 xs0 xs1 xs2 (ix2 r k) : EReal)
      = if h : r.val < 128 then (x0 (ix3 0 ⟨r.val, h⟩ k) : EReal) else (xs2 (ix2 r k) : EReal) := by
  unfold sout0_C_2
  unfold kernelRun0_C
  dsimp only
  sl_unfold_words
  refine (aug_read_tile_store arg9.view _ _ [] r k).trans ?_
  by_cases h : r.val < 128
  · rw [dif_pos h, dif_pos h]
    refine (aug_pay13_apply _ ⟨r.val, h⟩ k).trans ?_
    simp only [View.readAt_eq_ld, harg2.read_unread]
    exact congrFun (View.ld_unit_zero (S := S1x128x4096) (off := ![0, 0, 0]) aug_zero3 _ x0) _
  · rw [dif_neg h, dif_neg h]
    exact congrFun (harg9.read_unread xs2) (ix2 r k)

end Cert.KernelIdeal.Step

end
-- ==== Proof.KStepAcc.lean ====
/-
  What one grid point leaves in the sum accumulator: entry (scale s, channel ch, id n) gains the tile's share
  of the segment sum — the sum over the tile's pixels of the widened tile's row ch times the indicator that the
  pixel's id at scale s is n; at an image's first tile the accumulator starts from zero.
-/
import proofs.«428727_j37907381354596_3_alg».proof.Proof.Gen.KernelIdeal.Frame
import proofs.«428727_j37907381354596_3_alg».proof.Proof.Spec
import Idealize.ShloMosaic.Lib.ValueLayout
import Idealize.ShloMosaic.Lib.KernelVsHost
import Idealize.ShloMosaic.Lib.StableHlo.Predicate

set_option maxRecDepth 16384

noncomputable section

namespace Cert.KernelIdeal.Step

open Cert.KernelIdeal Cert.KernelIdeal.Gen Cert.Spec
open Idealize.ShloMosaic Idealize.ShloMosaic.TcCoe Idealize.ShloMosaic.ValueIdx Idealize.SL.Sem
open Idealize.ShloMosaic.Tactic

/-! ## The product of the widened tile with a one-hot matrix, at an index -/

theorem accDot_lhs0 (j : S136x1024.Idx) (q : dot_S136x4096_S4096x1024_S136x1024_1_0_0_1_n_n.contr.Idx) :
    (dot_S136x4096_S4096x1024_S136x1024_1_0_0_1_n_n.lhsIdx j q 0).val = (j 0).val := by
  unfold DotDims.lhsIdx
  rw [dif_neg (show ¬(0 : Fin S136x4096.rank) ∈ dot_S136x4096_S4096x1024_S136x1024_1_0_0_1_n_n.lhsBatch by decide), dif_pos (show (0 : Fin S136x4096.rank) ∈ dot_S136x4096_S4096x1024_S136x1024_1_0_0_1_n_n.lhsNonContracting by decide)]
  rfl
theorem accDot_lhs1 (j : S136x1024.Idx) (q : dot_S136x4096_S4096x1024_S136x1024_1_0_0_1_n_n.contr.Idx) :
    (dot_S136x4096_S4096x1024_S136x1024_1_0_0_1_n_n.lhsIdx j q 1).val = (q ⟨0, by decide⟩).val :=
  dot_S136x4096_S4096x1024_S136x1024_1_0_0_1_n_n.lhsIdx_val_of_single rfl j q
theorem accDot_rhs0 (j : S136x1024.Idx) (q : dot_S136x4096_S4096x1024_S136x1024_1_0_0_1_n_n.contr.Idx) :
    (dot_S136x4096_S4096x1024_S136x1024_1_0_0_1_n_n.rhsIdx j q 0).val = (q ⟨0, by decide⟩).val :=
  dot_S136x4096_S4096x1024_S136x1024_1_0_0_1_n_n.rhsIdx_val_of_single rfl j q
theorem accDot_rhs1 (j : S136x1024.Idx) (q : dot_S136x4096_S4096x1024_S136x1024_1_0_0_1_n_n.contr.Idx) :
    (dot_S136x4096_S4096x1024_S136x1024_1_0_0_1_n_n.rhsIdx j q 1).val = (j 1).val := by
  unfold DotDims.rhsIdx
  rw [dif_neg (show ¬(1 : Fin S4096x1024.rank) ∈ dot_S136x4096_S4096x1024_S136x1024_1_0_0_1_n_n.rhsBatch by decide), dif_pos (show (1 : Fin S4096x1024.rank) ∈ dot_S136x4096_S4096x1024_S136x1024_1_0_0_1_n_n.rhsNonContracting by decide)]
  rfl

/-- Entry (r, n) of the product into a zero accumulator: the sum over the 4096 pixels of the tile of row r of the
    left factor times column n of the right factor. -/
theorem accDot_apply (aug : Vec Ideal S136x4096 .bf16) (B : FVec Ideal S4096x1024 .bf16) (r : Fin 136) (n : Fin 1024) :
    (matmul (φ₁ := .bf16) dot_S136x4096_S4096x1024_S136x1024_1_0_0_1_n_n none aug B (constant S136x1024 .f32 0x00000000#32) (ix2 r n) : EReal)
      = ∑ k : Fin 4096, (aug (ix2 r k) : EReal) * (B (ix2 k n) : EReal) := by
  refine (Ideal.matmul_constant_zero_apply dot_S136x4096_S4096x1024_S136x1024_1_0_0_1_n_n none aug B (ix2 r n)).trans ?_
  rw [← Equiv.sum_comp (contrEquiv1 dot_S136x4096_S4096x1024_S136x1024_1_0_0_1_n_n 4096 rfl rfl).symm]
  refine Finset.sum_congr rfl fun k _ => ?_
  have hk := contrEquiv1_symm_val dot_S136x4096_S4096x1024_S136x1024_1_0_0_1_n_n 4096 rfl rfl k
  have el : dot_S136x4096_S4096x1024_S136x1024_1_0_0_1_n_n.lhsIdx (ix2 r n) ((contrEquiv1 dot_S136x4096_S4096x1024_S136x1024_1_0_0_1_n_n 4096 rfl rfl).symm k) = ix2 r k := funext fun a => Fin.ext (by
    match a with
    | ⟨0, _⟩ => exact accDot_lhs0 _ _
    | ⟨1, _⟩ => exact (accDot_lhs1 _ _).trans hk)
  have er : dot_S136x4096_S4096x1024_S136x1024_1_0_0_1_n_n.rhsIdx (ix2 r n) ((contrEquiv1 dot_S136x4096_S4096x1024_S136x1024_1_0_0_1_n_n 4096 rfl rfl).symm k) = ix2 k n := funext fun a => Fin.ext (by
    match a with
    | ⟨0, _⟩ => exact (accDot_rhs0 _ _).trans hk
    | ⟨1, _⟩ => exact accDot_rhs1 _ _)
  rw [el, er]

/-- The float read of the widened one-bit word "n is the id word a" is the indicator. -/
theorem acc_onehot_entry (a : BitVec 32) (n : Fin 1024) :
    (FloatOps.sitofp (F := Ideal) .f32 ((IntOp.cmpi .eq (BitVec.ofNat 32 n.val) a).setWidth 32) : EReal) = ind a n := by
  show (((((IntOp.cmpi .eq (BitVec.ofNat 32 n.val) a).setWidth 32).toInt : ℤ) : ℝ) : EReal) = ind a n
  rw [toInt_setWidth_bit]
  unfold ind
  by_cases h : BitVec.ofNat 32 n.val = a
  · rw [if_pos h, StableHlo.Predicate.cmpi_eq_iff.mpr h]; simp
  · rw [if_neg h, eq_zero_of_ne_one (mt StableHlo.Predicate.cmpi_eq_iff.mp h)]; simp

/-- A column of 4096 words broadcast along the 1024 ids reads, at (k, n), the column at k. -/
theorem acc_bcast_col_apply {α : Type} (col : S4096x1.Idx → α) (h : S4096x1.Broadcasts S4096x1024) (k : Fin 4096) (n : Fin 1024) :
    broadcastTo S4096x1024 col h (ix2 k n) = col (ix2 k (0 : Fin 1)) := by
  refine broadcastTo_apply col h (ix2 k n) (ix2 k (0 : Fin 1)) fun ax => ?_
  match ax with
  | ⟨0, _⟩ => show k.val = if (4096 : Nat) = 1 then 0 else k.val; rw [if_neg (by decide)]
  | ⟨1, _⟩ => rfl

/-- The one-hot matrix of a column of id words, at (k, n): the indicator that pixel k's word is the id n. -/
theorem acc_onehot_apply (col : IVec S4096x1 32) (k : Fin 4096) (n : Fin 1024) :
    ((truncf .bf16 (sitofp (F := Ideal) .f32 (extui 32 (cmpi .eq (broadcastTo S4096x1024 (iota .tc S1x1024 32 [1] iota_S1x1024_d1_w32) broadcasts_S1x1024_S4096x1024) (broadcastTo S4096x1024 col broadcasts_S4096x1_S4096x1024)) natLt_1_32)) bitsLt_bf16_f32 : FVec Ideal S4096x1024 .bf16) (ix2 k n) : EReal)
      = ind (col (ix2 k (0 : Fin 1))) n := by
  show (FloatOps.sitofp (F := Ideal) .f32 ((IntOp.cmpi .eq (broadcastTo S4096x1024 (iota .tc S1x1024 32 [1] iota_S1x1024_d1_w32) broadcasts_S1x1024_S4096x1024 (ix2 k n)) (broadcastTo S4096x1024 col broadcasts_S4096x1_S4096x1024 (ix2 k n))).setWidth 32) : EReal) = _
  rw [broadcastTo_1b_ab_apply, acc_bcast_col_apply, iota_single_apply]
  exact acc_onehot_entry _ _

/-- Scale 0's slice of the sum accumulator after the store: the old slice plus the tile's share. -/
theorem acc_pay16_apply (v9 : Vec Ideal S1x4096x4 .i32) (aug : Vec Ideal S136x4096 .bf16) (old : Vec Ideal S1x128x1024 .f32)
    (u : Fin 1) (ch : Fin 128) (n : Fin 1024) :
    (k0_pay16 (F := Ideal) v9 aug old (ix3 u ch n) : EReal)
      = (old (ix3 (0 : Fin 1) ch n) : EReal)
        + ∑ k : Fin 4096, (aug (ix2 (Fin.castLE (by decide : 128 ≤ 136) ch) k) : EReal) * ind (v9 (ix3 (0 : Fin 1) k (0 : Fin 4))) n := by
  unfold k0_pay16 k0_pay15 k0_pay14
  refine (shapeCast_ab_1ab_apply _ _ u ch n).trans ?_
  refine (addf_apply _ _ _).trans ?_
  refine congrArg₂ (· + ·) ?_ ?_
  · exact shapeCast_1ab_ab_apply old _ ch n
  · refine (slice2_axis0_apply 0 _ _ ch n (Fin.castLE (by decide : 128 ≤ 136) ch) (by simp)).trans ?_
    refine (accDot_apply aug _ _ n).trans ?_
    refine Finset.sum_congr rfl fun k _ => ?_
    refine congrArg (_ * ·) ?_
    refine (acc_onehot_apply _ k n).trans ?_
    refine congrArg (ind · n) ?_
    refine (slice2_axis1_apply 0 _ _ k (0 : Fin 1) (0 : Fin 4) rfl).trans ?_
    exact shapeCast_1ab_ab_apply v9 _ k 0

/-- Scale 1's slice of the sum accumulator after the store: the old slice plus the tile's share. -/
theorem acc_pay20_apply (v9 : Vec Ideal S1x4096x4 .i32) (aug : Vec Ideal S136x4096 .bf16) (old : Vec Ideal S1x128x1024 .f32)
    (u : Fin 1) (ch : Fin 128) (n : Fin 1024) :
    (k0_pay20 (F := Ideal) (k0_pay14 (F := Ideal) v9) (iota .tc S1x1024 32 [1] iota_S1x1024_d1_w32) aug old (ix3 u ch n) : EReal)
      = (old (ix3 (0 : Fin 1) ch n) : EReal)
        + ∑ k : Fin 4096, (aug (ix2 (Fin.castLE (by decide : 128 ≤ 136) ch) k) : EReal) * ind (v9 (ix3 (0 : Fin 1) k (1 : Fin 4))) n := by
  unfold k0_pay20 k0_pay19 k0_pay14
  refine (shapeCast_ab_1ab_apply _ _ u ch n).trans ?_
  refine (addf_apply _ _ _).trans ?_
  refine congrArg₂ (· + ·) ?_ ?_
  · exact shapeCast_1ab_ab_apply old _ ch n
  · refine (slice2_axis0_apply 0 _ _ ch n (Fin.castLE (by decide : 128 ≤ 136) ch) (by simp)).trans ?_
    refine (accDot_apply aug _ _ n).trans ?_
    refine Finset.sum_congr rfl fun k _ => ?_
    refine congrArg (_ * ·) ?_
    refine (acc_onehot_apply _ k n).trans ?_
    refine congrArg (ind · n) ?_
    refine (slice2_axis1_apply 1 _ _ k (0 : Fin 1) (1 : Fin 4) rfl).trans ?_
    exact shapeCast_1ab_ab_apply v9 _ k 1

/-- Scale 2's slice of the sum accumulator after the store: the old slice plus the tile's share. -/
theorem acc_pay23_apply (v9 : Vec Ideal S1x4096x4 .i32) (aug : Vec Ideal S136x4096 .bf16) (old : Vec Ideal S1x128x1024 .f32)
    (u : Fin 1) (ch : Fin 128) (n : Fin 1024) :
    (k0_pay23 (F := Ideal) (k0_pay22 (F := Ideal) (k0_pay14 (F := Ideal) v9) (iota .tc S1x1024 32 [1] iota_S1x1024_d1_w32) aug) old (ix3 u ch n) : EReal)
      = (old (ix3 (0 : Fin 1) ch n) : EReal)
        + ∑ k : Fin 4096, (aug (ix2 (Fin.castLE (by decide : 128 ≤ 136) ch) k) : EReal) * ind (v9 (ix3 (0 : Fin 1) k (2 : Fin 4))) n := by
  unfold k0_pay23 k0_pay22 k0_pay14
  refine (shapeCast_ab_1ab_apply _ _ u ch n).trans ?_
  refine (addf_apply _ _ _).trans ?_
  refine congrArg₂ (· + ·) ?_ ?_
  · exact shapeCast_1ab_ab_apply old _ ch n
  · refine (slice2_axis0_apply 0 _ _ ch n (Fin.castLE (by decide : 128 ≤ 136) ch) (by simp)).trans ?_
    refine (accDot_apply aug _ _ n).trans ?_
    refine Finset.sum_congr rfl fun k _ => ?_
    refine congrArg (_ * ·) ?_
    refine (acc_onehot_apply _ k n).trans ?_
    refine congrArg (ind · n) ?_
    refine (slice2_axis1_apply 2 _ _ k (0 : Fin 1) (2 : Fin 4) rfl).trans ?_
    exact shapeCast_1ab_ab_apply v9 _ k 2

/-- Scale 3's slice of the sum accumulator after the store: the old slice plus the tile's share. -/
theorem acc_pay26_apply (v9 : Vec Ideal S1x4096x4 .i32) (aug : Vec Ideal S136x4096 .bf16) (old : Vec Ideal S1x128x1024 .f32)
    (u : Fin 1) (ch : Fin 128) (n : Fin 1024) :
    (k0_pay26 (F := Ideal) (k0_pay14 (F := Ideal) v9) (iota .tc S1x1024 32 [1] iota_S1x1024_d1_w32) aug old (ix3 u ch n) : EReal)
      = (old (ix3 (0 : Fin 1) ch n) : EReal)
        + ∑ k : Fin 4096, (aug (ix2 (Fin.castLE (by decide : 128 ≤ 136) ch) k) : EReal) * ind (v9 (ix3 (0 : Fin 1) k (3 : Fin 4))) n := by
  unfold k0_pay26 k0_pay25 k0_pay14
  refine (shapeCast_ab_1ab_apply _ _ u ch n).trans ?_
  refine (addf_apply _ _ _).trans ?_
  refine congrArg₂ (· + ·) ?_ ?_
  · exact shapeCast_1ab_ab_apply old _ ch n
  · refine (slice2_axis0_apply 0 _ _ ch n (Fin.castLE (by decide : 128 ≤ 136) ch) (by simp)).trans ?_
    refine (accDot_apply aug _ _ n).trans ?_
    refine Finset.sum_congr rfl fun k _ => ?_
    refine congrArg (_ * ·) ?_
    refine (acc_onehot_apply _ k n).trans ?_
    refine congrArg (ind · n) ?_
    refine (slice2_axis1_apply 3 _ _ k (0 : Fin 1) (3 : Fin 4) rfl).trans ?_
    exact shapeCast_1ab_ab_apply v9 _ k 3

theorem acc_zeros2 : (![0, 0] : Fin 2 → ℕ) = fun _ => 0 := by funext a; fin_cases a <;> rfl
theorem acc_zeros3 : (![0, 0, 0] : Fin 3 → ℕ) = fun _ => 0 := by funext a; fin_cases a <;> rfl

/-! ## Reading the run's pieces: which store covers an index, and what the loads read -/

/-- A load of a whole buffer (zero offsets, the buffer's own sizes) reads the buffer's contents. -/
theorem acc_readAt_whole {S : Shape} {e : EltTy} (m : Memref sig .tc .vmem S e) (f : m.view.ty.Contents (Elt Ideal))
    (off : Fin S.rank → ℕ) (hz : off = fun _ => 0) (inb : ∀ a, off a + S.size a ≤ S.size a) :
    View.readAt (Elt Ideal) m.view (Rect.unit off S.size inb).toLoadRect f = m.view.read (Elt Ideal) f := by
  rw [View.readAt_eq_ld]; exact View.ld_unit_zero hz inb _

/-- A load of a whole input buffer holding X reads X. -/
theorem acc_readAt_whole_unread {S : Shape} {e : EltTy} (m : Memref sig .tc .vmem S e) (hm : m.IsWhole) (X : Vec Ideal S e)
    (off : Fin S.rank → ℕ) (hz : off = fun _ => 0) (inb : ∀ a, off a + S.size a ≤ S.size a) :
    View.readAt (Elt Ideal) m.view (Rect.unit off S.size inb).toLoadRect (hm.unread X) = X :=
  (acc_readAt_whole m _ off hz inb).trans (hm.read_unread X)

/-- Slice s of the accumulator, placed in the accumulator: (u, ch, n) goes to (s, ch, n). -/
theorem acc_slice_emb (off : Fin 3 → ℕ) (inb : ∀ a, off a + S1x128x1024.size a ≤ S4x128x1024.size a) (s : Fin 4)
    (h0 : off 0 = s.val) (h1 : off 1 = 0) (h2 : off 2 = 0) (u : Fin 1) (ch : Fin 128) (n : Fin 1024) :
    (Rect.unit (s := S4x128x1024) off S1x128x1024.size inb).emb (ix3 u ch n) = ix3 s ch n := by
  have hu : u.val = 0 := by omega
  funext a; apply Fin.ext
  match a with
  | ⟨0, _⟩ => show off 0 + 1 * u.val = s.val; omega
  | ⟨1, _⟩ => show off 1 + 1 * ch.val = ch.val; omega
  | ⟨2, _⟩ => show off 2 + 1 * n.val = n.val; omega

/-- An index of slice s lies in no other slice. -/
theorem acc_slice_not_mem (off : Fin 3 → ℕ) (inb : ∀ a, off a + S1x128x1024.size a ≤ S4x128x1024.size a) (s : Fin 4)
    (hne : off 0 ≠ s.val) (ch : Fin 128) (n : Fin 1024) :
    ix3 s ch n ∉ (Rect.unit (s := S4x128x1024) off S1x128x1024.size inb).set := by
  rw [Rect.mem_set_unit]
  intro h
  have h0 := h 0
  have e0 : ((ix3 s ch n : S4x128x1024.Idx) 0 : ℕ) = s.val := rfl
  have e1 : S1x128x1024.size 0 = 1 := rfl
  rw [e0, e1] at h0
  omega

/-- Where the last store is slice s's, the accumulator at (s, ch, n) is that store's payload at (0, ch, n); -/
theorem acc_canon_slice_hit (off : Fin 3 → ℕ) (inb : ∀ a, off a + S1x128x1024.size a ≤ S4x128x1024.size a)
    (w : S1x128x1024.Idx → Elt Ideal .f32) (L : List (View.Piece (Elt Ideal) S4x128x1024 .f32)) (s : Fin 4)
    (h0 : off 0 = s.val) (h1 : off 1 = 0) (h2 : off 2 = 0) (ch : Fin 128) (n : Fin 1024) :
    View.canon (⟨Rect.unit (s := S4x128x1024) off S1x128x1024.size inb, w⟩ :: L) (ix3 s ch n) = w (ix3 (0 : Fin 1) ch n) := by
  refine (congrArg (View.canon _) (acc_slice_emb off inb s h0 h1 h2 0 ch n).symm).trans ?_
  exact View.canon_cons_emb (Rect.unit (s := S4x128x1024) off S1x128x1024.size inb) w L (ix3 (0 : Fin 1) ch n)

/-- where it is another slice's, what the earlier stores left. -/
theorem acc_canon_slice_miss (off : Fin 3 → ℕ) (inb : ∀ a, off a + S1x128x1024.size a ≤ S4x128x1024.size a)
    (w : S1x128x1024.Idx → Elt Ideal .f32) (L : List (View.Piece (Elt Ideal) S4x128x1024 .f32)) (s : Fin 4)
    (hne : off 0 ≠ s.val) (ch : Fin 128) (n : Fin 1024) :
    View.canon (⟨Rect.unit (s := S4x128x1024) off S1x128x1024.size inb, w⟩ :: L) (ix3 s ch n) = View.canon L (ix3 s ch n) :=
  View.canon_cons_of_not_mem _ L (acc_slice_not_mem off inb s hne ch n)

/-- A load of slice s of an accumulator holding X reads, at (u, ch, n), X at (s, ch, n). -/
theorem acc_readAt_slice (m : Memref sig .tc .vmem S4x128x1024 .f32) (hm : m.IsWhole) (X : Vec Ideal S4x128x1024 .f32)
    (off : Fin 3 → ℕ) (inb : ∀ a, off a + S1x128x1024.size a ≤ S4x128x1024.size a) (s : Fin 4)
    (h0 : off 0 = s.val) (h1 : off 1 = 0) (h2 : off 2 = 0) (u : Fin 1) (ch : Fin 128) (n : Fin 1024) :
    View.readAt (Elt Ideal) m.view (Rect.unit (s := S4x128x1024) off S1x128x1024.size inb).toLoadRect (hm.unread X) (ix3 u ch n)
      = X (ix3 s ch n) := by
  rw [View.readAt_eq_ld, hm.read_unread]
  exact congrArg X (acc_slice_emb off inb s h0 h1 h2 u ch n)

/-- A load of a whole buffer after the stores L reads what they left. -/
theorem acc_readCov_whole {S : Shape} {e : EltTy} (m : Memref sig .tc .vmem S e) (L : List (View.Piece (Elt Ideal) S e))
    (off : Fin S.rank → ℕ) (hz : off = fun _ => 0) (inb : ∀ a, off a + S.size a ≤ S.size a) :
    m.view.readCov L (Rect.unit off S.size inb).toLoadRect = View.canon L := by
  rw [View.readCov_eq_canon']; exact View.ld_unit_zero hz inb (View.canon L)

/-- A load of slice s of the accumulator after the stores L reads, at (u, ch, n), what they left at (s, ch, n). -/
theorem acc_readCov_slice (m : Memref sig .tc .vmem S4x128x1024 .f32) (L : List (View.Piece (Elt Ideal) S4x128x1024 .f32))
    (off : Fin 3 → ℕ) (inb : ∀ a, off a + S1x128x1024.size a ≤ S4x128x1024.size a) (s : Fin 4)
    (h0 : off 0 = s.val) (h1 : off 1 = 0) (h2 : off 2 = 0) (u : Fin 1) (ch : Fin 128) (n : Fin 1024) :
    m.view.readCov L (Rect.unit (s := S4x128x1024) off S1x128x1024.size inb).toLoadRect (ix3 u ch n)
      = View.canon L (ix3 s ch n) := by
  rw [View.readCov_eq_canon']
  exact congrArg (View.canon L) (acc_slice_emb off inb s h0 h1 h2 u ch n)

/-- The zero fill is 0 at every index. -/
theorem acc_pay10_apply (y : S4x128x1024.Idx) : (k0_pay10 (F := Ideal) y : EReal) = 0 := by
  unfold k0_pay10
  refine (shapeCast_apply _ _ y y rfl).trans ?_
  exact Ideal.ofBits_zero_f32

/-- After the zero fill alone the accumulator is 0. -/
theorem acc_canon_zero_fill (off : Fin 3 → ℕ) (hz : off = fun _ => 0) (inb : ∀ a, off a + S4x128x1024.size a ≤ S4x128x1024.size a)
    (y : S4x128x1024.Idx) :
    (View.canon [(⟨Rect.unit (s := S4x128x1024) off S4x128x1024.size inb, k0_pay10 (F := Ideal)⟩ : View.Piece (Elt Ideal) S4x128x1024 .f32)] y : EReal) = 0 := by
  rw [View.canon_unit_zero hz inb]; exact acc_pay10_apply y

theorem accA (c : Dev nD) (i : grid0.Coords) (arg2 : Memref sig .tc .vmem S1x128x4096 .f32) (harg2 : arg2.IsWhole) (arg3 : Memref sig .tc .vmem S1x4096x4 .i32) (harg3 : arg3.IsWhole) (arg4 : Memref sig .tc .vmem S192x128 .f32) (harg4 : arg4.IsWhole) (arg5 : Memref sig .tc .vmem S192 .f32) (harg5 : arg5.IsWhole) (arg6 : Memref sig .tc .vmem S4x1x1024x192 .f32) (harg6 : arg6.IsWhole) (arg7 : Memref sig .tc .vmem S4x128x1024 .f32) (harg7 : arg7.IsWhole) (arg8 : Memref sig .tc .vmem S4x8x1024 .f32) (harg8 : arg8.IsWhole) (arg9 : Memref sig .tc .vmem S136x4096 .bf16) (harg9 : arg9.IsWhole) (hc0 : cond0_0 i) (hc1 : ¬cond0_1 i) (x0 : Vec Ideal S1x128x4096 .f32) (x1 : Vec Ideal S1x4096x4 .i32) (x2 : Vec Ideal S192x128 .f32) (x3 : Vec Ideal S192 .f32) (s : Fin 4) (ch : Fin 128) (n : Fin 1024) :
    (sout0_A_0 (F := Ideal) c i arg2 harg2 arg3 harg3 arg4 harg4 arg5 harg5 arg6 harg6 arg7 harg7 arg8 harg8 arg9 harg9 hc0 hc1 x0 x1 x2 x3 (ix3 s ch n) : EReal)
      = ∑ k : Fin 4096, (sout0_A_2 (F := Ideal) c i arg2 harg2 arg3 harg3 arg4 harg4 arg5 harg5 arg6 harg6 arg7 harg7 arg8 harg8 arg9 harg9 hc0 hc1 x0 x1 x2 x3 (ix2 (Fin.castLE (by decide : 128 ≤ 136) ch) k) : EReal) * ind (x1 (ix3 0 k s)) n := by
  unfold sout0_A_0 sout0_A_2
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  match s with
  | ⟨0, _⟩ =>
    refine (acc_canon_slice_miss _ _ _ _ _ (by decide : (3 : ℕ) ≠ 0) ch n).trans ?_
    refine (acc_canon_slice_miss _ _ _ _ _ (by decide : (2 : ℕ) ≠ 0) ch n).trans ?_
    refine (acc_canon_slice_miss _ _ _ _ _ (by decide : (1 : ℕ) ≠ 0) ch n).trans ?_
    refine (acc_canon_slice_hit _ _ _ _ _ rfl rfl rfl ch n).trans ?_
    refine (acc_pay16_apply _ _ _ 0 ch n).trans ?_
    refine Eq.trans ?_ (zero_add _)
    refine congrArg₂ (· + ·) ?_ (Finset.sum_congr rfl fun k _ => congrArg₂ (· * ·) ?_ (congrArg (ind · n) ?_))
    · refine (acc_readCov_slice arg7 _ _ _ (0 : Fin 4) rfl rfl rfl 0 ch n).trans ?_
      exact acc_canon_zero_fill _ acc_zeros3 _ _
    · exact congrFun ((acc_readCov_whole arg9 _ _ acc_zeros2 _).trans (View.read_writes_junk_eq_canon VS0_2 _).symm) _
    · exact congrFun (acc_readAt_whole_unread arg3 harg3 x1 _ acc_zeros3 _) _
  | ⟨1, _⟩ =>
    refine (acc_canon_slice_miss _ _ _ _ _ (by decide : (3 : ℕ) ≠ 1) ch n).trans ?_
    refine (acc_canon_slice_miss _ _ _ _ _ (by decide : (2 : ℕ) ≠ 1) ch n).trans ?_
    refine (acc_canon_slice_hit _ _ _ _ _ rfl rfl rfl ch n).trans ?_
    refine (acc_pay20_apply _ _ _ 0 ch n).trans ?_
    refine Eq.trans ?_ (zero_add _)
    refine congrArg₂ (· + ·) ?_ (Finset.sum_congr rfl fun k _ => congrArg₂ (· * ·) ?_ (congrArg (ind · n) ?_))
    · refine (acc_readCov_slice arg7 _ _ _ (1 : Fin 4) rfl rfl rfl 0 ch n).trans ?_
      refine (acc_canon_slice_miss _ _ _ _ (1 : Fin 4) (by decide : (0 : ℕ) ≠ 1) ch n).trans ?_
      exact acc_canon_zero_fill _ acc_zeros3 _ _
    · exact congrFun ((acc_readCov_whole arg9 _ _ acc_zeros2 _).trans (View.read_writes_junk_eq_canon VS0_2 _).symm) _
    · exact congrFun (acc_readAt_whole_unread arg3 harg3 x1 _ acc_zeros3 _) _
  | ⟨2, _⟩ =>
    refine (acc_canon_slice_miss _ _ _ _ _ (by decide : (3 : ℕ) ≠ 2) ch n).trans ?_
    refine (acc_canon_slice_hit _ _ _ _ _ rfl rfl rfl ch n).trans ?_
    refine (acc_pay23_apply _ _ _ 0 ch n).trans ?_
    refine Eq.trans ?_ (zero_add _)
    refine congrArg₂ (· + ·) ?_ (Finset.sum_congr rfl fun k _ => congrArg₂ (· * ·) ?_ (congrArg (ind · n) ?_))
    · refine (acc_readCov_slice arg7 _ _ _ (2 : Fin 4) rfl rfl rfl 0 ch n).trans ?_
      refine (acc_canon_slice_miss _ _ _ _ (2 : Fin 4) (by decide : (1 : ℕ) ≠ 2) ch n).trans ?_
      refine (acc_canon_slice_miss _ _ _ _ (2 : Fin 4) (by decide : (0 : ℕ) ≠ 2) ch n).trans ?_
      exact acc_canon_zero_fill _ acc_zeros3 _ _
    · exact congrFun ((acc_readCov_whole arg9 _ _ acc_zeros2 _).trans (View.read_writes_junk_eq_canon VS0_2 _).symm) _
    · exact congrFun (acc_readAt_whole_unread arg3 harg3 x1 _ acc_zeros3 _) _
  | ⟨3, _⟩ =>
    refine (acc_canon_slice_hit _ _ _ _ _ rfl rfl rfl ch n).trans ?_
    refine (acc_pay26_apply _ _ _ 0 ch n).trans ?_
    refine Eq.trans ?_ (zero_add _)
    refine congrArg₂ (· + ·) ?_ (Finset.sum_congr rfl fun k _ => congrArg₂ (· * ·) ?_ (congrArg (ind · n) ?_))
    · refine (acc_readCov_slice arg7 _ _ _ (3 : Fin 4) rfl rfl rfl 0 ch n).trans ?_
      refine (acc_canon_slice_miss _ _ _ _ (3 : Fin 4) (by decide : (2 : ℕ) ≠ 3) ch n).trans ?_
      refine (acc_canon_slice_miss _ _ _ _ (3 : Fin 4) (by decide : (1 : ℕ) ≠ 3) ch n).trans ?_
      refine (acc_canon_slice_miss _ _ _ _ (3 : Fin 4) (by decide : (0 : ℕ) ≠ 3) ch n).trans ?_
      exact acc_canon_zero_fill _ acc_zeros3 _ _
    · exact congrFun ((acc_readCov_whole arg9 _ _ acc_zeros2 _).trans (View.read_writes_junk_eq_canon VS0_2 _).symm) _
    · exact congrFun (acc_readAt_whole_unread arg3 harg3 x1 _ acc_zeros3 _) _

theorem accB (c : Dev nD) (i : grid0.Coords) (arg2 : Memref sig .tc .vmem S1x128x4096 .f32) (harg2 : arg2.IsWhole) (arg3 : Memref sig .tc .vmem S1x4096x4 .i32) (harg3 : arg3.IsWhole) (arg4 : Memref sig .tc .vmem S192x128 .f32) (harg4 : arg4.IsWhole) (arg5 : Memref sig .tc .vmem S192 .f32) (harg5 : arg5.IsWhole) (arg6 : Memref sig .tc .vmem S4x1x1024x192 .f32) (harg6 : arg6.IsWhole) (arg7 : Memref sig .tc .vmem S4x128x1024 .f32) (harg7 : arg7.IsWhole) (arg8 : Memref sig .tc .vmem S4x8x1024 .f32) (harg8 : arg8.IsWhole) (arg9 : Memref sig .tc .vmem S136x4096 .bf16) (harg9 : arg9.IsWhole) (hc0 : ¬cond0_0 i) (hc1 : ¬cond0_1 i) (x0 : Vec Ideal S1x128x4096 .f32) (x1 : Vec Ideal S1x4096x4 .i32) (x2 : Vec Ideal S192x128 .f32) (x3 : Vec Ideal S192 .f32) (xs0 : Vec Ideal S4x128x1024 .f32) (xs1 : Vec Ideal S4x8x1024 .f32) (xs2 : Vec Ideal S136x4096 .bf16) (s : Fin 4) (ch : Fin 128) (n : Fin 1024) :
    (sout0_B_0 (F := Ideal) c i arg2 harg2 arg3 harg3 arg4 harg4 arg5 harg5 arg6 harg6 arg7 harg7 arg8 harg8 arg9 harg9 hc0 hc1 x0 x1 x2 x3 xs0 xs1 xs2 (ix3 s ch n) : EReal)
      = (xs0 (ix3 s ch n) : EReal)
        + ∑ k : Fin 4096, (sout0_B_2 (F := Ideal) c i arg2 harg2 arg3 harg3 arg4 harg4 arg5 harg5 arg6 harg6 arg7 harg7 arg8 harg8 arg9 harg9 hc0 hc1 x0 x1 x2 x3 xs0 xs1 xs2 (ix2 (Fin.castLE (by decide : 128 ≤ 136) ch) k) : EReal) * ind (x1 (ix3 0 k s)) n := by
  unfold sout0_B_0 sout0_B_2
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  match s with
  | ⟨0, _⟩ =>
    refine (acc_canon_slice_miss _ _ _ _ _ (by decide : (3 : ℕ) ≠ 0) ch n).trans ?_
    refine (acc_canon_slice_miss _ _ _ _ _ (by decide : (2 : ℕ) ≠ 0) ch n).trans ?_
    refine (acc_canon_slice_miss _ _ _ _ _ (by decide : (1 : ℕ) ≠ 0) ch n).trans ?_
    refine (acc_canon_slice_hit _ _ _ _ _ rfl rfl rfl ch n).trans ?_
    refine (acc_pay16_apply _ _ _ 0 ch n).trans ?_
    refine congrArg₂ (· + ·) ?_ (Finset.sum_congr rfl fun k _ => congrArg₂ (· * ·) ?_ (congrArg (ind · n) ?_))
    · exact acc_readAt_slice arg7 harg7 xs0 _ _ _ rfl rfl rfl 0 ch n
    · exact congrFun (acc_readAt_whole arg9 _ _ acc_zeros2 _) _
    · exact congrFun (acc_readAt_whole_unread arg3 harg3 x1 _ acc_zeros3 _) _
  | ⟨1, _⟩ =>
    refine (acc_canon_slice_miss _ _ _ _ _ (by decide : (3 : ℕ) ≠ 1) ch n).trans ?_
    refine (acc_canon_slice_miss _ _ _ _ _ (by decide : (2 : ℕ) ≠ 1) ch n).trans ?_
    refine (acc_canon_slice_hit _ _ _ _ _ rfl rfl rfl ch n).trans ?_
    refine (acc_pay20_apply _ _ _ 0 ch n).trans ?_
    refine congrArg₂ (· + ·) ?_ (Finset.sum_congr rfl fun k _ => congrArg₂ (· * ·) ?_ (congrArg (ind · n) ?_))
    · exact acc_readAt_slice arg7 harg7 xs0 _ _ _ rfl rfl rfl 0 ch n
    · exact congrFun (acc_readAt_whole arg9 _ _ acc_zeros2 _) _
    · exact congrFun (acc_readAt_whole_unread arg3 harg3 x1 _ acc_zeros3 _) _
  | ⟨2, _⟩ =>
    refine (acc_canon_slice_miss _ _ _ _ _ (by decide : (3 : ℕ) ≠ 2) ch n).trans ?_
    refine (acc_canon_slice_hit _ _ _ _ _ rfl rfl rfl ch n).trans ?_
    refine (acc_pay23_apply _ _ _ 0 ch n).trans ?_
    refine congrArg₂ (· + ·) ?_ (Finset.sum_congr rfl fun k _ => congrArg₂ (· * ·) ?_ (congrArg (ind · n) ?_))
    · exact acc_readAt_slice arg7 harg7 xs0 _ _ _ rfl rfl rfl 0 ch n
    · exact congrFun (acc_readAt_whole arg9 _ _ acc_zeros2 _) _
    · exact congrFun (acc_readAt_whole_unread arg3 harg3 x1 _ acc_zeros3 _) _
  | ⟨3, _⟩ =>
    refine (acc_canon_slice_hit _ _ _ _ _ rfl rfl rfl ch n).trans ?_
    refine (acc_pay26_apply _ _ _ 0 ch n).trans ?_
    refine congrArg₂ (· + ·) ?_ (Finset.sum_congr rfl fun k _ => congrArg₂ (· * ·) ?_ (congrArg (ind · n) ?_))
    · exact acc_readAt_slice arg7 harg7 xs0 _ _ _ rfl rfl rfl 0 ch n
    · exact congrFun (acc_readAt_whole arg9 _ _ acc_zeros2 _) _
    · exact congrFun (acc_readAt_whole_unread arg3 harg3 x1 _ acc_zeros3 _) _

theorem accC (c : Dev nD) (i : grid0.Coords) (arg2 : Memref sig .tc .vmem S1x128x4096 .f32) (harg2 : arg2.IsWhole) (arg3 : Memref sig .tc .vmem S1x4096x4 .i32) (harg3 : arg3.IsWhole) (arg4 : Memref sig .tc .vmem S192x128 .f32) (harg4 : arg4.IsWhole) (arg5 : Memref sig .tc .vmem S192 .f32) (harg5 : arg5.IsWhole) (arg6 : Memref sig .tc .vmem S4x1x1024x192 .f32) (harg6 : arg6.IsWhole) (arg7 : Memref sig .tc .vmem S4x128x1024 .f32) (harg7 : arg7.IsWhole) (arg8 : Memref sig .tc .vmem S4x8x1024 .f32) (harg8 : arg8.IsWhole) (arg9 : Memref sig .tc .vmem S136x4096 .bf16) (harg9 : arg9.IsWhole) (hc0 : ¬cond0_0 i) (hc1 : cond0_1 i) (x0 : Vec Ideal S1x128x4096 .f32) (x1 : Vec Ideal S1x4096x4 .i32) (x2 : Vec Ideal S192x128 .f32) (x3 : Vec Ideal S192 .f32) (xs0 : Vec Ideal S4x128x1024 .f32) (xs1 : Vec Ideal S4x8x1024 .f32) (xs2 : Vec Ideal S136x4096 .bf16) (s : Fin 4) (ch : Fin 128) (n : Fin 1024) :
    (sout0_C_0 (F := Ideal) c i arg2 harg2 arg3 harg3 arg4 harg4 arg5 harg5 arg6 harg6 arg7 harg7 arg8 harg8 arg9 harg9 hc0 hc1 x0 x1 x2 x3 xs0 xs1 xs2 (ix3 s ch n) : EReal)
      = (xs0 (ix3 s ch n) : EReal)
        + ∑ k : Fin 4096, (sout0_C_2 (F := Ideal) c i arg2 harg2 arg3 harg3 arg4 harg4 arg5 harg5 arg6 harg6 arg7 harg7 arg8 harg8 arg9 harg9 hc0 hc1 x0 x1 x2 x3 xs0 xs1 xs2 (ix2 (Fin.castLE (by decide : 128 ≤ 136) ch) k) : EReal) * ind (x1 (ix3 0 k s)) n := by
  unfold sout0_C_0 sout0_C_2
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  match s with
  | ⟨0, _⟩ =>
    refine (acc_canon_slice_miss _ _ _ _ _ (by decide : (3 : ℕ) ≠ 0) ch n).trans ?_
    refine (acc_canon_slice_miss _ _ _ _ _ (by decide : (2 : ℕ) ≠ 0) ch n).trans ?_
    refine (acc_canon_slice_miss _ _ _ _ _ (by decide : (1 : ℕ) ≠ 0) ch n).trans ?_
    refine (acc_canon_slice_hit _ _ _ _ _ rfl rfl rfl ch n).trans ?_
    refine (acc_pay16_apply _ _ _ 0 ch n).trans ?_
    refine congrArg₂ (· + ·) ?_ (Finset.sum_congr rfl fun k _ => congrArg₂ (· * ·) ?_ (congrArg (ind · n) ?_))
    · exact acc_readAt_slice arg7 harg7 xs0 _ _ _ rfl rfl rfl 0 ch n
    · exact congrFun (acc_readAt_whole arg9 _ _ acc_zeros2 _) _
    · exact congrFun (acc_readAt_whole_unread arg3 harg3 x1 _ acc_zeros3 _) _
  | ⟨1, _⟩ =>
    refine (acc_canon_slice_miss _ _ _ _ _ (by decide : (3 : ℕ) ≠ 1) ch n).trans ?_
    refine (acc_canon_slice_miss _ _ _ _ _ (by decide : (2 : ℕ) ≠ 1) ch n).trans ?_
    refine (acc_canon_slice_hit _ _ _ _ _ rfl rfl rfl ch n).trans ?_
    refine (acc_pay20_apply _ _ _ 0 ch n).trans ?_
    refine congrArg₂ (· + ·) ?_ (Finset.sum_congr rfl fun k _ => congrArg₂ (· * ·) ?_ (congrArg (ind · n) ?_))
    · exact acc_readAt_slice arg7 harg7 xs0 _ _ _ rfl rfl rfl 0 ch n
    · exact congrFun (acc_readAt_whole arg9 _ _ acc_zeros2 _) _
    · exact congrFun (acc_readAt_whole_unread arg3 harg3 x1 _ acc_zeros3 _) _
  | ⟨2, _⟩ =>
    refine (acc_canon_slice_miss _ _ _ _ _ (by decide : (3 : ℕ) ≠ 2) ch n).trans ?_
    refine (acc_canon_slice_hit _ _ _ _ _ rfl rfl rfl ch n).trans ?_
    refine (acc_pay23_apply _ _ _ 0 ch n).trans ?_
    refine congrArg₂ (· + ·) ?_ (Finset.sum_congr rfl fun k _ => congrArg₂ (· * ·) ?_ (congrArg (ind · n) ?_))
    · exact acc_readAt_slice arg7 harg7 xs0 _ _ _ rfl rfl rfl 0 ch n
    · exact congrFun (acc_readAt_whole arg9 _ _ acc_zeros2 _) _
    · exact congrFun (acc_readAt_whole_unread arg3 harg3 x1 _ acc_zeros3 _) _
  | ⟨3, _⟩ =>
    refine (acc_canon_slice_hit _ _ _ _ _ rfl rfl rfl ch n).trans ?_
    refine (acc_pay26_apply _ _ _ 0 ch n).trans ?_
    refine congrArg₂ (· + ·) ?_ (Finset.sum_congr rfl fun k _ => congrArg₂ (· * ·) ?_ (congrArg (ind · n) ?_))
    · exact acc_readAt_slice arg7 harg7 xs0 _ _ _ rfl rfl rfl 0 ch n
    · exact congrFun (acc_readAt_whole arg9 _ _ acc_zeros2 _) _
    · exact congrFun (acc_readAt_whole_unread arg3 harg3 x1 _ acc_zeros3 _) _

end Cert.KernelIdeal.Step

end
-- ==== Proof.KStepCnt.lean ====
/-
  What one grid point leaves in the count accumulator: entry (scale s, row r, id n), for each of the eight
  identical rows, gains the sum over the tile's pixels of the widened tile's row 128 + r (the ones) times the
  indicator that the pixel's id at scale s is n; at an image's first tile the accumulator starts from zero.
-/
import proofs.«428727_j37907381354596_3_alg».proof.Proof.Gen.KernelIdeal.Frame
import proofs.«428727_j37907381354596_3_alg».proof.Proof.Spec
import Idealize.ShloMosaic.Lib.Pipeline.Value

set_option maxRecDepth 16384

noncomputable section

namespace Cert.KernelIdeal.Step

open Cert.KernelIdeal Cert.KernelIdeal.Gen Cert.Spec
open Idealize.ShloMosaic Idealize.ShloMosaic.TcCoe Idealize.ShloMosaic.ValueIdx Idealize.SL.Sem
open Idealize.ShloMosaic.Tactic Idealize.SL

/-- The one-bit compare of two words, widened to a word and read signed: one where they agree, else zero. -/
theorem cmp_word (a b : BitVec 32) :
    (((((IntOp.cmpi .eq a b).setWidth 32).toInt : ℤ) : ℝ) : EReal) = if a = b then 1 else 0 := by
  by_cases h : a = b
  · have e : IntOp.cmpi .eq a b = 1#1 := by simp only [IntOp.cmpi, h, beq_self_eq_true]; rfl
    rw [if_pos h, e]
    have : ((1#1 : BitVec 1).setWidth 32).toInt = 1 := by decide
    rw [this]; norm_cast
  · have e : IntOp.cmpi .eq a b = 0#1 := by
      simp only [IntOp.cmpi]
      have : (a == b) = false := by simpa using h
      rw [this]; rfl
    rw [if_neg h, e]
    have : ((0#1 : BitVec 1).setWidth 32).toInt = 0 := by decide
    rw [this]; norm_cast

/-- The one-hot matrix of column `col` of the id words, read at (pixel k, id n): the indicator that pixel k's
    id at that column is n. -/
theorem onehot_apply (v10 : IVec S4096x4 32) (off : Fin 2 → ℕ) (col : Fin 4) (hoff : off = ![0, col.val])
    (hsl : S4096x4.Slices off S4096x1) (k : Fin 4096) (n : Fin 1024) :
    (truncf .bf16 (sitofp .f32 (extui 32 (cmpi .eq
        (broadcastTo S4096x1024 (iota .tc S1x1024 32 [1] iota_S1x1024_d1_w32) broadcasts_S1x1024_S4096x1024)
        (broadcastTo S4096x1024 (extractStridedSlice S4096x1 off v10 hsl) broadcasts_S4096x1_S4096x1024)) natLt_1_32))
      bitsLt_bf16_f32 : FVec Ideal S4096x1024 .bf16) (ix2 k n) = ind (v10 (ix2 k col)) n := by
  subst hoff
  rw [truncf_apply, sitofp_apply, extui_apply]
  show (((((IntOp.cmpi .eq _ _).setWidth 32).toInt : ℤ) : ℝ) : EReal) = _
  rw [cmp_word]
  have e1 : broadcastTo S4096x1024 (iota .tc S1x1024 32 [1] iota_S1x1024_d1_w32) broadcasts_S1x1024_S4096x1024 (ix2 k n)
      = BitVec.ofNat 32 n.val := by
    refine (broadcastTo_apply _ _ (ix2 k n) (ix2 0 n) (fun a => ?_)).trans ?_
    · match a with
      | ⟨0, _⟩ => rfl
      | ⟨1, _⟩ => rfl
    · exact iota_single_apply _ _ _ _ _ _
  have e2 : broadcastTo S4096x1024 (extractStridedSlice S4096x1 ![0, col.val] v10 hsl) broadcasts_S4096x1_S4096x1024 (ix2 k n)
      = v10 (ix2 k col) := by
    refine (broadcastTo_apply _ _ (ix2 k n) (ix2 k 0) (fun a => ?_)).trans ?_
    · match a with
      | ⟨0, _⟩ => rfl
      | ⟨1, _⟩ => rfl
    · refine extractStridedSlice_apply _ _ _ _ (ix2 k col) (fun a => ?_)
      match a with
      | ⟨0, _⟩ => show k.val = 0 + k.val; omega
      | ⟨1, _⟩ => show col.val = col.val + 0; omega
  rw [e1, e2]
  rfl

/-- The dot's left operand index: row from the output index, column the contraction coordinate. -/
theorem lhs_dot_0 (i : S136x1024.Idx) (q : dot_S136x4096_S4096x1024_S136x1024_1_0_0_1_n_n.contr.Idx) :
    (dot_S136x4096_S4096x1024_S136x1024_1_0_0_1_n_n.lhsIdx i q 0).val = (i 0).val := by
  unfold DotDims.lhsIdx
  rw [dif_neg (show ¬(0 : Fin S136x4096.rank) ∈ dot_S136x4096_S4096x1024_S136x1024_1_0_0_1_n_n.lhsBatch by decide), dif_pos (show (0 : Fin S136x4096.rank) ∈ dot_S136x4096_S4096x1024_S136x1024_1_0_0_1_n_n.lhsNonContracting by decide)]
  rfl
theorem lhs_dot_1 (i : S136x1024.Idx) (q : dot_S136x4096_S4096x1024_S136x1024_1_0_0_1_n_n.contr.Idx) :
    (dot_S136x4096_S4096x1024_S136x1024_1_0_0_1_n_n.lhsIdx i q 1).val = (q ⟨0, by decide⟩).val :=
  dot_S136x4096_S4096x1024_S136x1024_1_0_0_1_n_n.lhsIdx_val_of_single rfl i q
/-- The dot's right operand index: row the contraction coordinate, column from the output index. -/
theorem rhs_dot_0 (i : S136x1024.Idx) (q : dot_S136x4096_S4096x1024_S136x1024_1_0_0_1_n_n.contr.Idx) :
    (dot_S136x4096_S4096x1024_S136x1024_1_0_0_1_n_n.rhsIdx i q 0).val = (q ⟨0, by decide⟩).val :=
  dot_S136x4096_S4096x1024_S136x1024_1_0_0_1_n_n.rhsIdx_val_of_single rfl i q
theorem rhs_dot_1 (i : S136x1024.Idx) (q : dot_S136x4096_S4096x1024_S136x1024_1_0_0_1_n_n.contr.Idx) :
    (dot_S136x4096_S4096x1024_S136x1024_1_0_0_1_n_n.rhsIdx i q 1).val = (i 1).val := by
  unfold DotDims.rhsIdx
  rw [dif_neg (show ¬(1 : Fin S4096x1024.rank) ∈ dot_S136x4096_S4096x1024_S136x1024_1_0_0_1_n_n.rhsBatch by decide), dif_pos (show (1 : Fin S4096x1024.rank) ∈ dot_S136x4096_S4096x1024_S136x1024_1_0_0_1_n_n.rhsNonContracting by decide)]
  rfl

/-- The (136×4096)·(4096×1024) product into a zero accumulator, read at (m, n): the sum over the 4096 pixels. -/
theorem mm_apply (aug : FVec Ideal S136x4096 .bf16) (rhs : FVec Ideal S4096x1024 .bf16) (m : Fin 136) (n : Fin 1024) :
    (matmul dot_S136x4096_S4096x1024_S136x1024_1_0_0_1_n_n none aug rhs (constant S136x1024 .f32 0x00000000#32) : FVec Ideal S136x1024 .f32) (ix2 m n)
      = ∑ k : Fin 4096, (aug (ix2 m k) : EReal) * rhs (ix2 k n) := by
  simp only [matmul]
  rw [Ideal.matmul_constant_zero_apply, ← Equiv.sum_comp (ValueIdx.contrEquiv1 dot_S136x4096_S4096x1024_S136x1024_1_0_0_1_n_n 4096 rfl rfl).symm]
  refine Finset.sum_congr rfl fun k _ => ?_
  have hk := ValueIdx.contrEquiv1_symm_val dot_S136x4096_S4096x1024_S136x1024_1_0_0_1_n_n 4096 rfl rfl k
  have el : dot_S136x4096_S4096x1024_S136x1024_1_0_0_1_n_n.lhsIdx (ix2 m n) ((ValueIdx.contrEquiv1 dot_S136x4096_S4096x1024_S136x1024_1_0_0_1_n_n 4096 rfl rfl).symm k) = ix2 m k := funext fun a => Fin.ext (by
    match a with
    | ⟨0, _⟩ => exact lhs_dot_0 _ _
    | ⟨1, _⟩ => exact (lhs_dot_1 _ _).trans hk)
  have er : dot_S136x4096_S4096x1024_S136x1024_1_0_0_1_n_n.rhsIdx (ix2 m n) ((ValueIdx.contrEquiv1 dot_S136x4096_S4096x1024_S136x1024_1_0_0_1_n_n 4096 rfl rfl).symm k) = ix2 k n := funext fun a => Fin.ext (by
    match a with
    | ⟨0, _⟩ => exact (rhs_dot_0 _ _).trans hk
    | ⟨1, _⟩ => exact rhs_dot_1 _ _)
  rw [el, er]

/-- A block stored with a leading unit axis reads the block at the remaining coordinates. -/
theorem addUnit_apply2 {α : Type} {a b : ℕ} (v : (⟨2, ![a, b]⟩ : Shape).Idx → α)
    (h : (⟨2, ![a, b]⟩ : Shape).ShapeCasts ⟨3, ![1, a, b]⟩) (r : Fin a) (n : Fin b) :
    shapeCast ⟨3, ![1, a, b]⟩ v h (ix3 0 r n) = v (ix2 r n) := by
  refine (shapeCast_addUnit_apply ![a, b] v h (ix3 0 r n)).trans (congrArg v (funext fun d => ?_))
  match d with
  | ⟨0, _⟩ => rfl
  | ⟨1, _⟩ => rfl

/-- A block viewed without its leading unit axis reads the block at coordinate zero there. -/
theorem dropUnit_apply2 {α : Type} {a b : ℕ} (v : (⟨3, ![1, a, b]⟩ : Shape).Idx → α)
    (h : (⟨3, ![1, a, b]⟩ : Shape).ShapeCasts ⟨2, ![a, b]⟩) (r : Fin a) (n : Fin b) :
    shapeCast ⟨2, ![a, b]⟩ v h (ix2 r n) = v (ix3 0 r n) := by
  refine (shapeCast_dropUnit_apply ![a, b] v h (ix2 r n)).trans (congrArg v (funext fun d => ?_))
  match d with
  | ⟨0, _⟩ => rfl
  | ⟨1, _⟩ => rfl
  | ⟨2, _⟩ => rfl

/-- Rows 128..135 of a 136-row matrix, read at (r, n): row 128 + r. -/
theorem row_slice (M : FVec Ideal S136x1024 .f32) (r : Fin 8) (n : Fin 1024) :
    extractStridedSlice S8x1024 ![128, 0] M slices_S136x1024_o128_0_S8x1024 (ix2 r n)
      = M (ix2 (⟨128 + r.val, by have := r.isLt; omega⟩ : Fin 136) n) := by
  refine extractStridedSlice_apply _ _ _ _ _ (fun a => ?_)
  match a with
  | ⟨0, _⟩ => rfl
  | ⟨1, _⟩ => show n.val = 0 + n.val; omega

/-- Row 128 + r of the product of the widened tile with the one-hot matrix of column `col` of the ids, at id n:
    the sum over the pixels of the tile's row 128 + r times the indicator that the pixel's id is n. -/
theorem cnt_row (v10 : IVec S4096x4 32) (off : Fin 2 → ℕ) (col : Fin 4) (hoff : off = ![0, col.val])
    (hsl : S4096x4.Slices off S4096x1) (aug : FVec Ideal S136x4096 .bf16) (r : Fin 8) (n : Fin 1024) :
    extractStridedSlice S8x1024 ![128, 0]
        (matmul dot_S136x4096_S4096x1024_S136x1024_1_0_0_1_n_n none aug (truncf .bf16 (sitofp .f32 (extui 32 (cmpi .eq
        (broadcastTo S4096x1024 (iota .tc S1x1024 32 [1] iota_S1x1024_d1_w32) broadcasts_S1x1024_S4096x1024)
        (broadcastTo S4096x1024 (extractStridedSlice S4096x1 off v10 hsl) broadcasts_S4096x1_S4096x1024)) natLt_1_32))
      bitsLt_bf16_f32 : FVec Ideal S4096x1024 .bf16) (constant S136x1024 .f32 0x00000000#32))
        slices_S136x1024_o128_0_S8x1024 (ix2 r n)
      = ∑ k : Fin 4096, (aug (ix2 (⟨128 + r.val, by have := r.isLt; omega⟩ : Fin 136) k) : EReal) * ind (v10 (ix2 k col)) n := by
  refine (row_slice _ r n).trans ?_
  refine (mm_apply aug _ _ n).trans ?_
  refine Finset.sum_congr rfl fun k _ => ?_
  exact congrArg (_ * ·) (onehot_apply v10 off col hoff hsl k n)

/-- The id words viewed without their leading unit axis. -/
theorem ids_apply (v9 : Vec Ideal S1x4096x4 .i32) (k : Fin 4096) (col : Fin 4) :
    (k0_pay14 v9 : IVec S4096x4 32) (ix2 k col) = v9 (ix3 0 k col) := by
  unfold k0_pay14
  exact dropUnit_apply2 (a := 4096) (b := 4) v9 _ k col

/-- Scale 0's new count slice at (r, n): the old entry plus the tile's count. -/
theorem cnt_pay0 (v9 : Vec Ideal S1x4096x4 .i32) (aug : Vec Ideal S136x4096 .bf16) (old : Vec Ideal S1x8x1024 .f32)
    (r : Fin 8) (n : Fin 1024) :
    (k0_pay18 (k0_pay17 v9 aug old) (ix3 0 r n) : EReal)
      = (old (ix3 0 r n) : EReal) + ∑ k : Fin 4096, (aug (ix2 (⟨128 + r.val, by have := r.isLt; omega⟩ : Fin 136) k) : EReal) * ind (v9 (ix3 0 k 0)) n := by
  unfold k0_pay18 k0_pay17 k0_pay15
  refine (addUnit_apply2 (a := 8) (b := 1024) _ _ r n).trans ?_
  refine (addf_apply _ _ _).trans ?_
  refine congrArg₂ (· + ·) (dropUnit_apply2 (a := 8) (b := 1024) _ _ r n) ?_
  refine (cnt_row (k0_pay14 v9) ![0, 0] 0 rfl _ aug r n).trans ?_
  refine Finset.sum_congr rfl fun k _ => ?_
  exact congrArg (fun w => _ * ind w n) (ids_apply v9 k 0)

/-- Scale 1's new count slice at (r, n). -/
theorem cnt_pay1 (v9 : Vec Ideal S1x4096x4 .i32) (aug : Vec Ideal S136x4096 .bf16) (old : Vec Ideal S1x8x1024 .f32)
    (r : Fin 8) (n : Fin 1024) :
    (k0_pay21 (k0_pay14 v9) (iota .tc S1x1024 32 [1] iota_S1x1024_d1_w32) aug old (ix3 0 r n) : EReal)
      = (old (ix3 0 r n) : EReal) + ∑ k : Fin 4096, (aug (ix2 (⟨128 + r.val, by have := r.isLt; omega⟩ : Fin 136) k) : EReal) * ind (v9 (ix3 0 k 1)) n := by
  unfold k0_pay21 k0_pay19
  refine (addUnit_apply2 (a := 8) (b := 1024) _ _ r n).trans ?_
  refine (addf_apply _ _ _).trans ?_
  refine congrArg₂ (· + ·) (dropUnit_apply2 (a := 8) (b := 1024) _ _ r n) ?_
  refine (cnt_row (k0_pay14 v9) ![0, 1] 1 rfl _ aug r n).trans ?_
  refine Finset.sum_congr rfl fun k _ => ?_
  exact congrArg (fun w => _ * ind w n) (ids_apply v9 k 1)

/-- Scale 2's new count slice at (r, n). -/
theorem cnt_pay2 (v9 : Vec Ideal S1x4096x4 .i32) (aug : Vec Ideal S136x4096 .bf16) (old : Vec Ideal S1x8x1024 .f32)
    (r : Fin 8) (n : Fin 1024) :
    (k0_pay24 (k0_pay22 (k0_pay14 v9) (iota .tc S1x1024 32 [1] iota_S1x1024_d1_w32) aug) old (ix3 0 r n) : EReal)
      = (old (ix3 0 r n) : EReal) + ∑ k : Fin 4096, (aug (ix2 (⟨128 + r.val, by have := r.isLt; omega⟩ : Fin 136) k) : EReal) * ind (v9 (ix3 0 k 2)) n := by
  unfold k0_pay24 k0_pay22
  refine (addUnit_apply2 (a := 8) (b := 1024) _ _ r n).trans ?_
  refine (addf_apply _ _ _).trans ?_
  refine congrArg₂ (· + ·) (dropUnit_apply2 (a := 8) (b := 1024) _ _ r n) ?_
  refine (cnt_row (k0_pay14 v9) ![0, 2] 2 rfl _ aug r n).trans ?_
  refine Finset.sum_congr rfl fun k _ => ?_
  exact congrArg (fun w => _ * ind w n) (ids_apply v9 k 2)

/-- Scale 3's new count slice at (r, n). -/
theorem cnt_pay3 (v9 : Vec Ideal S1x4096x4 .i32) (aug : Vec Ideal S136x4096 .bf16) (old : Vec Ideal S1x8x1024 .f32)
    (r : Fin 8) (n : Fin 1024) :
    (k0_pay1 (k0_pay27 (k0_pay14 v9) (iota .tc S1x1024 32 [1] iota_S1x1024_d1_w32) aug old) (ix3 0 r n) : EReal)
      = (old (ix3 0 r n) : EReal) + ∑ k : Fin 4096, (aug (ix2 (⟨128 + r.val, by have := r.isLt; omega⟩ : Fin 136) k) : EReal) * ind (v9 (ix3 0 k 3)) n := by
  unfold k0_pay1 k0_pay27 k0_pay25
  refine (addUnit_apply2 (a := 8) (b := 1024) _ _ r n).trans ?_
  refine (addf_apply _ _ _).trans ?_
  refine congrArg₂ (· + ·) (dropUnit_apply2 (a := 8) (b := 1024) _ _ r n) ?_
  refine (cnt_row (k0_pay14 v9) ![0, 3] 3 rfl _ aug r n).trans ?_
  refine Finset.sum_congr rfl fun k _ => ?_
  exact congrArg (fun w => _ * ind w n) (ids_apply v9 k 3)

/-- The index (s, r, n) of the count accumulator is position (0, r, n) of slice s. -/
theorem slice_emb (s : Fin 4) (off : Fin 3 → ℕ) (hoff : off = ![s.val, 0, 0])
    (inb : ∀ a, off a + (![1, 8, 1024] : Fin 3 → ℕ) a ≤ S4x8x1024.size a) (r : Fin 8) (n : Fin 1024) :
    (Rect.unit (s := S4x8x1024) off ![1, 8, 1024] inb).emb (ix3 0 r n) = ix3 s r n := by
  subst hoff
  funext a
  refine Fin.ext ?_
  match a with
  | ⟨0, _⟩ => show s.val + 1 * 0 = s.val; omega
  | ⟨1, _⟩ => show 0 + 1 * r.val = r.val; omega
  | ⟨2, _⟩ => show 0 + 1 * n.val = n.val; omega

/-- It lies in no other slice. -/
theorem not_mem_slice (t s : Fin 4) (hts : t ≠ s) (off : Fin 3 → ℕ) (hoff : off = ![t.val, 0, 0])
    (inb : ∀ a, off a + (![1, 8, 1024] : Fin 3 → ℕ) a ≤ S4x8x1024.size a) (r : Fin 8) (n : Fin 1024) :
    ix3 s r n ∉ (Rect.unit (s := S4x8x1024) off ![1, 8, 1024] inb).set := by
  subst hoff
  rw [Rect.mem_set_unit]
  intro h
  have h0 : t.val ≤ s.val ∧ s.val < t.val + 1 := h 0
  exact hts (Fin.ext (by omega))

/-- Under a last store to slice s, the accumulator at (s, r, n) is that store's payload at (0, r, n). -/
theorem canon_hit (s : Fin 4) (off : Fin 3 → ℕ) (hoff : off = ![s.val, 0, 0])
    (inb : ∀ a, off a + (![1, 8, 1024] : Fin 3 → ℕ) a ≤ S4x8x1024.size a) (w : Vec Ideal S1x8x1024 .f32)
    (L : List (View.Piece (Elt Ideal) S4x8x1024 .f32)) (r : Fin 8) (n : Fin 1024) :
    View.canon (⟨Rect.unit (s := S4x8x1024) off ![1, 8, 1024] inb, w⟩ :: L) (ix3 s r n) = w (ix3 0 r n) :=
  (congrArg _ (slice_emb s off hoff inb r n).symm).trans
    (View.canon_cons_emb (Rect.unit (s := S4x8x1024) off ![1, 8, 1024] inb) w L (ix3 0 r n))

/-- A store to another slice is passed over. -/
theorem canon_miss (t s : Fin 4) (hts : t ≠ s) (off : Fin 3 → ℕ) (hoff : off = ![t.val, 0, 0])
    (inb : ∀ a, off a + (![1, 8, 1024] : Fin 3 → ℕ) a ≤ S4x8x1024.size a) (w : Vec Ideal S1x8x1024 .f32)
    (L : List (View.Piece (Elt Ideal) S4x8x1024 .f32)) (r : Fin 8) (n : Fin 1024) :
    View.canon (⟨Rect.unit (s := S4x8x1024) off ![1, 8, 1024] inb, w⟩ :: L) (ix3 s r n) = View.canon L (ix3 s r n) :=
  View.canon_cons_of_not_mem ⟨Rect.unit (s := S4x8x1024) off ![1, 8, 1024] inb, w⟩ L (not_mem_slice t s hts off hoff inb r n)

/-- The four slice stores, newest first (3, 2, 1, 0), over any earlier stores: at (s, r, n) the accumulator holds
    slice s's payload at (0, r, n). -/
theorem canon4_0 (w3 w2 w1 w0 : Vec Ideal S1x8x1024 .f32) (L : List (View.Piece (Elt Ideal) S4x8x1024 .f32)) (r : Fin 8) (n : Fin 1024) :
    View.canon (Val := Elt Ideal) (⟨Rect.unit (s := S4x8x1024) ![3, 0, 0] ![1, 8, 1024] inb_S4x8x1024_S1x8x1024_3_0_0, w3⟩ :: ⟨Rect.unit (s := S4x8x1024) ![2, 0, 0] ![1, 8, 1024] inb_S4x8x1024_S1x8x1024_2_0_0, w2⟩ :: ⟨Rect.unit (s := S4x8x1024) ![1, 0, 0] ![1, 8, 1024] inb_S4x8x1024_S1x8x1024_1_0_0, w1⟩ :: ⟨Rect.unit (s := S4x8x1024) ![0, 0, 0] ![1, 8, 1024] inb_S4x8x1024_S1x8x1024_0_0_0, w0⟩ :: L) (ix3 0 r n) = w0 (ix3 0 r n) :=
  (canon_miss 3 0 (by decide) _ rfl _ w3 _ r n).trans <| (canon_miss 2 0 (by decide) _ rfl _ w2 _ r n).trans <|
    (canon_miss 1 0 (by decide) _ rfl _ w1 _ r n).trans <| canon_hit 0 _ rfl _ w0 _ r n
theorem canon4_1 (w3 w2 w1 w0 : Vec Ideal S1x8x1024 .f32) (L : List (View.Piece (Elt Ideal) S4x8x1024 .f32)) (r : Fin 8) (n : Fin 1024) :
    View.canon (Val := Elt Ideal) (⟨Rect.unit (s := S4x8x1024) ![3, 0, 0] ![1, 8, 1024] inb_S4x8x1024_S1x8x1024_3_0_0, w3⟩ :: ⟨Rect.unit (s := S4x8x1024) ![2, 0, 0] ![1, 8, 1024] inb_S4x8x1024_S1x8x1024_2_0_0, w2⟩ :: ⟨Rect.unit (s := S4x8x1024) ![1, 0, 0] ![1, 8, 1024] inb_S4x8x1024_S1x8x1024_1_0_0, w1⟩ :: ⟨Rect.unit (s := S4x8x1024) ![0, 0, 0] ![1, 8, 1024] inb_S4x8x1024_S1x8x1024_0_0_0, w0⟩ :: L) (ix3 1 r n) = w1 (ix3 0 r n) :=
  (canon_miss 3 1 (by decide) _ rfl _ w3 _ r n).trans <| (canon_miss 2 1 (by decide) _ rfl _ w2 _ r n).trans <|
    canon_hit 1 _ rfl _ w1 _ r n
theorem canon4_2 (w3 w2 w1 w0 : Vec Ideal S1x8x1024 .f32) (L : List (View.Piece (Elt Ideal) S4x8x1024 .f32)) (r : Fin 8) (n : Fin 1024) :
    View.canon (Val := Elt Ideal) (⟨Rect.unit (s := S4x8x1024) ![3, 0, 0] ![1, 8, 1024] inb_S4x8x1024_S1x8x1024_3_0_0, w3⟩ :: ⟨Rect.unit (s := S4x8x1024) ![2, 0, 0] ![1, 8, 1024] inb_S4x8x1024_S1x8x1024_2_0_0, w2⟩ :: ⟨Rect.unit (s := S4x8x1024) ![1, 0, 0] ![1, 8, 1024] inb_S4x8x1024_S1x8x1024_1_0_0, w1⟩ :: ⟨Rect.unit (s := S4x8x1024) ![0, 0, 0] ![1, 8, 1024] inb_S4x8x1024_S1x8x1024_0_0_0, w0⟩ :: L) (ix3 2 r n) = w2 (ix3 0 r n) :=
  (canon_miss 3 2 (by decide) _ rfl _ w3 _ r n).trans <| canon_hit 2 _ rfl _ w2 _ r n
theorem canon4_3 (w3 w2 w1 w0 : Vec Ideal S1x8x1024 .f32) (L : List (View.Piece (Elt Ideal) S4x8x1024 .f32)) (r : Fin 8) (n : Fin 1024) :
    View.canon (Val := Elt Ideal) (⟨Rect.unit (s := S4x8x1024) ![3, 0, 0] ![1, 8, 1024] inb_S4x8x1024_S1x8x1024_3_0_0, w3⟩ :: ⟨Rect.unit (s := S4x8x1024) ![2, 0, 0] ![1, 8, 1024] inb_S4x8x1024_S1x8x1024_2_0_0, w2⟩ :: ⟨Rect.unit (s := S4x8x1024) ![1, 0, 0] ![1, 8, 1024] inb_S4x8x1024_S1x8x1024_1_0_0, w1⟩ :: ⟨Rect.unit (s := S4x8x1024) ![0, 0, 0] ![1, 8, 1024] inb_S4x8x1024_S1x8x1024_0_0_0, w0⟩ :: L) (ix3 3 r n) = w3 (ix3 0 r n) :=
  canon_hit 3 _ rfl _ w3 _ r n

/-- A load of the whole id block reads the ids. -/
theorem ids_load (arg3 : Memref sig .tc .vmem S1x4096x4 .i32) (harg3 : arg3.IsWhole) (x1 : Vec Ideal S1x4096x4 .i32) :
    View.readAt (Elt Ideal) arg3.view
      (Rect.unit (s := S1x4096x4) ![0, 0, 0] S1x4096x4.size inb_S1x4096x4_S1x4096x4_0_0_0).toLoadRect (harg3.unread x1) = x1 := by
  rw [View.readAt_eq_ld, harg3.read_unread]
  exact View.ld_unit_zero (S := S1x4096x4) (by funext a; match a with | ⟨0, _⟩ => rfl | ⟨1, _⟩ => rfl | ⟨2, _⟩ => rfl) _ x1

/-- A load of slice s of the carried count accumulator, read at (0, r, n): the carried entry (s, r, n). -/
theorem old_load (arg8 : Memref sig .tc .vmem S4x8x1024 .f32) (harg8 : arg8.IsWhole) (xs1 : Vec Ideal S4x8x1024 .f32)
    (s : Fin 4) (off : Fin 3 → ℕ) (hoff : off = ![s.val, 0, 0])
    (inb : ∀ a, off a + (![1, 8, 1024] : Fin 3 → ℕ) a ≤ S4x8x1024.size a) (r : Fin 8) (n : Fin 1024) :
    View.readAt (Elt Ideal) arg8.view (Rect.unit (s := S4x8x1024) off ![1, 8, 1024] inb).toLoadRect (harg8.unread xs1) (ix3 0 r n)
      = xs1 (ix3 s r n) := by
  rw [View.readAt_eq_ld, harg8.read_unread]
  exact congrArg xs1 (slice_emb s off hoff inb r n)

/-- A load of the whole widened tile reads the buffer's contents. -/
theorem tile_load (arg9 : Memref sig .tc .vmem S136x4096 .bf16) (f : arg9.view.ty.Contents (Elt Ideal)) :
    View.readAt (Elt Ideal) arg9.view
      (Rect.unit (s := S136x4096) ![0, 0] S136x4096.size inb_S136x4096_S136x4096_0_0).toLoadRect f = arg9.view.read (Elt Ideal) f := by
  rw [View.readAt_eq_ld]
  exact View.ld_unit_zero (S := S136x4096) (by funext a; match a with | ⟨0, _⟩ => rfl | ⟨1, _⟩ => rfl) _ _

/-- The zero fill of the count accumulator is zero at every entry. -/
theorem zero_fill (j : S4x8x1024.Idx) : (k0_pay11 (F := Ideal) j : EReal) = 0 := by
  unfold k0_pay11
  refine (shapeCast_apply _ _ j j rfl).trans ?_
  exact Ideal.ofBits_zero_f32

/-- After the zero fill alone the accumulator is zero at every entry. -/
theorem canon_zero (j : S4x8x1024.Idx) :
    (View.canon (Val := Elt Ideal) (s := S4x8x1024) (e := .f32)
      [⟨Rect.unit (s := S4x8x1024) ![0, 0, 0] S4x8x1024.size inb_S4x8x1024_S4x8x1024_0_0_0, k0_pay11 (F := Ideal)⟩] j : EReal) = 0 :=
  (congrFun (View.canon_unit_zero (Val := Elt Ideal) (e := .f32) (S := S4x8x1024) (off := ![0, 0, 0]) (by funext a; match a with | ⟨0, _⟩ => rfl | ⟨1, _⟩ => rfl | ⟨2, _⟩ => rfl) inb_S4x8x1024_S4x8x1024_0_0_0
    (k0_pay11 (F := Ideal))) j).trans (zero_fill j)

/-- A load of slice s after earlier stores, read at (0, r, n): what those stores left at (s, r, n). -/
theorem old_cov (arg8 : Memref sig .tc .vmem S4x8x1024 .f32) (s : Fin 4) (off : Fin 3 → ℕ) (hoff : off = ![s.val, 0, 0])
    (inb : ∀ a, off a + (![1, 8, 1024] : Fin 3 → ℕ) a ≤ S4x8x1024.size a)
    (L : List (View.Piece (Elt Ideal) S4x8x1024 .f32)) (r : Fin 8) (n : Fin 1024) :
    arg8.view.readCov L (Rect.unit (s := S4x8x1024) off ![1, 8, 1024] inb).toLoadRect (ix3 0 r n) = View.canon L (ix3 s r n) := by
  rw [View.readCov_eq_canon']
  exact congrArg (View.canon L) (slice_emb s off hoff inb r n)

/-- A load of the whole widened tile after the stores that fill it reads what those stores leave. -/
theorem tile_cov (arg9 : Memref sig .tc .vmem S136x4096 .bf16) (L : List (View.Piece (Elt Ideal) S136x4096 .bf16)) :
    arg9.view.readCov L (Rect.unit (s := S136x4096) ![0, 0] S136x4096.size inb_S136x4096_S136x4096_0_0).toLoadRect
      = VS0_2.read (Elt Ideal) (VS0_2.writes (Elt Ideal) VS0_2.junk L) := by
  rw [View.readCov_eq_canon', View.read_writes_junk_eq_canon]
  exact View.ld_unit_zero (S := S136x4096) (by funext a; match a with | ⟨0, _⟩ => rfl | ⟨1, _⟩ => rfl) _ (View.canon L)

theorem cntA (c : Dev nD) (i : grid0.Coords) (arg2 : Memref sig .tc .vmem S1x128x4096 .f32) (harg2 : arg2.IsWhole) (arg3 : Memref sig .tc .vmem S1x4096x4 .i32) (harg3 : arg3.IsWhole) (arg4 : Memref sig .tc .vmem S192x128 .f32) (harg4 : arg4.IsWhole) (arg5 : Memref sig .tc .vmem S192 .f32) (harg5 : arg5.IsWhole) (arg6 : Memref sig .tc .vmem S4x1x1024x192 .f32) (harg6 : arg6.IsWhole) (arg7 : Memref sig .tc .vmem S4x128x1024 .f32) (harg7 : arg7.IsWhole) (arg8 : Memref sig .tc .vmem S4x8x1024 .f32) (harg8 : arg8.IsWhole) (arg9 : Memref sig .tc .vmem S136x4096 .bf16) (harg9 : arg9.IsWhole) (hc0 : cond0_0 i) (hc1 : ¬cond0_1 i) (x0 : Vec Ideal S1x128x4096 .f32) (x1 : Vec Ideal S1x4096x4 .i32) (x2 : Vec Ideal S192x128 .f32) (x3 : Vec Ideal S192 .f32) (s : Fin 4) (r : Fin 8) (n : Fin 1024) :
    (sout0_A_1 (F := Ideal) c i arg2 harg2 arg3 harg3 arg4 harg4 arg5 harg5 arg6 harg6 arg7 harg7 arg8 harg8 arg9 harg9 hc0 hc1 x0 x1 x2 x3 (ix3 s r n) : EReal)
      = ∑ k : Fin 4096, (sout0_A_2 (F := Ideal) c i arg2 harg2 arg3 harg3 arg4 harg4 arg5 harg5 arg6 harg6 arg7 harg7 arg8 harg8 arg9 harg9 hc0 hc1 x0 x1 x2 x3 (ix2 (⟨128 + r.val, by have := r.isLt; omega⟩ : Fin 136) k) : EReal) * ind (x1 (ix3 0 k s)) n := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold sout0_A_2
  unfold kernelRun0_A
  dsimp only
  sl_unfold_words
  match s with
  | ⟨0, _⟩ =>
    refine (canon4_0 _ _ _ _ _ r n).trans ?_
    refine (cnt_pay0 _ _ _ r n).trans ?_
    exact (congrArg₂ (· + ·) ((old_cov arg8 0 _ rfl _ _ r n).trans (canon_zero _))
      (Finset.sum_congr rfl fun k _ => congrArg₂ (· * ·) (congrFun (tile_cov arg9 _) _)
        (congrArg (fun v => ind (v (ix3 0 k 0)) n) (ids_load arg3 harg3 x1)))).trans (zero_add _)
  | ⟨1, _⟩ =>
    refine (canon4_1 _ _ _ _ _ r n).trans ?_
    refine (cnt_pay1 _ _ _ r n).trans ?_
    exact (congrArg₂ (· + ·) ((old_cov arg8 1 _ rfl _ _ r n).trans ((canon_miss 0 1 (by decide) _ rfl _ _ _ r n).trans (canon_zero _)))
      (Finset.sum_congr rfl fun k _ => congrArg₂ (· * ·) (congrFun (tile_cov arg9 _) _)
        (congrArg (fun v => ind (v (ix3 0 k 1)) n) (ids_load arg3 harg3 x1)))).trans (zero_add _)
  | ⟨2, _⟩ =>
    refine (canon4_2 _ _ _ _ _ r n).trans ?_
    refine (cnt_pay2 _ _ _ r n).trans ?_
    exact (congrArg₂ (· + ·) ((old_cov arg8 2 _ rfl _ _ r n).trans ((canon_miss 1 2 (by decide) _ rfl _ _ _ r n).trans ((canon_miss 0 2 (by decide) _ rfl _ _ _ r n).trans (canon_zero _))))
      (Finset.sum_congr rfl fun k _ => congrArg₂ (· * ·) (congrFun (tile_cov arg9 _) _)
        (congrArg (fun v => ind (v (ix3 0 k 2)) n) (ids_load arg3 harg3 x1)))).trans (zero_add _)
  | ⟨3, _⟩ =>
    refine (canon4_3 _ _ _ _ _ r n).trans ?_
    refine (cnt_pay3 _ _ _ r n).trans ?_
    exact (congrArg₂ (· + ·) ((old_cov arg8 3 _ rfl _ _ r n).trans ((canon_miss 2 3 (by decide) _ rfl _ _ _ r n).trans ((canon_miss 1 3 (by decide) _ rfl _ _ _ r n).trans ((canon_miss 0 3 (by decide) _ rfl _ _ _ r n).trans (canon_zero _)))))
      (Finset.sum_congr rfl fun k _ => congrArg₂ (· * ·) (congrFun (tile_cov arg9 _) _)
        (congrArg (fun v => ind (v (ix3 0 k 3)) n) (ids_load arg3 harg3 x1)))).trans (zero_add _)

theorem cntB (c : Dev nD) (i : grid0.Coords) (arg2 : Memref sig .tc .vmem S1x128x4096 .f32) (harg2 : arg2.IsWhole) (arg3 : Memref sig .tc .vmem S1x4096x4 .i32) (harg3 : arg3.IsWhole) (arg4 : Memref sig .tc .vmem S192x128 .f32) (harg4 : arg4.IsWhole) (arg5 : Memref sig .tc .vmem S192 .f32) (harg5 : arg5.IsWhole) (arg6 : Memref sig .tc .vmem S4x1x1024x192 .f32) (harg6 : arg6.IsWhole) (arg7 : Memref sig .tc .vmem S4x128x1024 .f32) (harg7 : arg7.IsWhole) (arg8 : Memref sig .tc .vmem S4x8x1024 .f32) (harg8 : arg8.IsWhole) (arg9 : Memref sig .tc .vmem S136x4096 .bf16) (harg9 : arg9.IsWhole) (hc0 : ¬cond0_0 i) (hc1 : ¬cond0_1 i) (x0 : Vec Ideal S1x128x4096 .f32) (x1 : Vec Ideal S1x4096x4 .i32) (x2 : Vec Ideal S192x128 .f32) (x3 : Vec Ideal S192 .f32) (xs0 : Vec Ideal S4x128x1024 .f32) (xs1 : Vec Ideal S4x8x1024 .f32) (xs2 : Vec Ideal S136x4096 .bf16) (s : Fin 4) (r : Fin 8) (n : Fin 1024) :
    (sout0_B_1 (F := Ideal) c i arg2 harg2 arg3 harg3 arg4 harg4 arg5 harg5 arg6 harg6 arg7 harg7 arg8 harg8 arg9 harg9 hc0 hc1 x0 x1 x2 x3 xs0 xs1 xs2 (ix3 s r n) : EReal)
      = (xs1 (ix3 s r n) : EReal)
        + ∑ k : Fin 4096, (sout0_B_2 (F := Ideal) c i arg2 harg2 arg3 harg3 arg4 harg4 arg5 harg5 arg6 harg6 arg7 harg7 arg8 harg8 arg9 harg9 hc0 hc1 x0 x1 x2 x3 xs0 xs1 xs2 (ix2 (⟨128 + r.val, by have := r.isLt; omega⟩ : Fin 136) k) : EReal) * ind (x1 (ix3 0 k s)) n := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold sout0_B_2
  unfold kernelRun0_B
  dsimp only
  sl_unfold_words
  match s with
  | ⟨0, _⟩ =>
    refine (canon4_0 _ _ _ _ _ r n).trans ?_
    refine (cnt_pay0 _ _ _ r n).trans ?_
    exact congrArg₂ (· + ·) (old_load arg8 harg8 xs1 0 _ rfl _ r n)
      (Finset.sum_congr rfl fun k _ => congrArg₂ (· * ·) (congrFun (tile_load arg9 _) _)
        (congrArg (fun v => ind (v (ix3 0 k 0)) n) (ids_load arg3 harg3 x1)))
  | ⟨1, _⟩ =>
    refine (canon4_1 _ _ _ _ _ r n).trans ?_
    refine (cnt_pay1 _ _ _ r n).trans ?_
    exact congrArg₂ (· + ·) (old_load arg8 harg8 xs1 1 _ rfl _ r n)
      (Finset.sum_congr rfl fun k _ => congrArg₂ (· * ·) (congrFun (tile_load arg9 _) _)
        (congrArg (fun v => ind (v (ix3 0 k 1)) n) (ids_load arg3 harg3 x1)))
  | ⟨2, _⟩ =>
    refine (canon4_2 _ _ _ _ _ r n).trans ?_
    refine (cnt_pay2 _ _ _ r n).trans ?_
    exact congrArg₂ (· + ·) (old_load arg8 harg8 xs1 2 _ rfl _ r n)
      (Finset.sum_congr rfl fun k _ => congrArg₂ (· * ·) (congrFun (tile_load arg9 _) _)
        (congrArg (fun v => ind (v (ix3 0 k 2)) n) (ids_load arg3 harg3 x1)))
  | ⟨3, _⟩ =>
    refine (canon4_3 _ _ _ _ _ r n).trans ?_
    refine (cnt_pay3 _ _ _ r n).trans ?_
    exact congrArg₂ (· + ·) (old_load arg8 harg8 xs1 3 _ rfl _ r n)
      (Finset.sum_congr rfl fun k _ => congrArg₂ (· * ·) (congrFun (tile_load arg9 _) _)
        (congrArg (fun v => ind (v (ix3 0 k 3)) n) (ids_load arg3 harg3 x1)))

theorem cntC (c : Dev nD) (i : grid0.Coords) (arg2 : Memref sig .tc .vmem S1x128x4096 .f32) (harg2 : arg2.IsWhole) (arg3 : Memref sig .tc .vmem S1x4096x4 .i32) (harg3 : arg3.IsWhole) (arg4 : Memref sig .tc .vmem S192x128 .f32) (harg4 : arg4.IsWhole) (arg5 : Memref sig .tc .vmem S192 .f32) (harg5 : arg5.IsWhole) (arg6 : Memref sig .tc .vmem S4x1x1024x192 .f32) (harg6 : arg6.IsWhole) (arg7 : Memref sig .tc .vmem S4x128x1024 .f32) (harg7 : arg7.IsWhole) (arg8 : Memref sig .tc .vmem S4x8x1024 .f32) (harg8 : arg8.IsWhole) (arg9 : Memref sig .tc .vmem S136x4096 .bf16) (harg9 : arg9.IsWhole) (hc0 : ¬cond0_0 i) (hc1 : cond0_1 i) (x0 : Vec Ideal S1x128x4096 .f32) (x1 : Vec Ideal S1x4096x4 .i32) (x2 : Vec Ideal S192x128 .f32) (x3 : Vec Ideal S192 .f32) (xs0 : Vec Ideal S4x128x1024 .f32) (xs1 : Vec Ideal S4x8x1024 .f32) (xs2 : Vec Ideal S136x4096 .bf16) (s : Fin 4) (r : Fin 8) (n : Fin 1024) :
    (sout0_C_1 (F := Ideal) c i arg2 harg2 arg3 harg3 arg4 harg4 arg5 harg5 arg6 harg6 arg7 harg7 arg8 harg8 arg9 harg9 hc0 hc1 x0 x1 x2 x3 xs0 xs1 xs2 (ix3 s r n) : EReal)
      = (xs1 (ix3 s r n) : EReal)
        + ∑ k : Fin 4096, (sout0_C_2 (F := Ideal) c i arg2 harg2 arg3 harg3 arg4 harg4 arg5 harg5 arg6 harg6 arg7 harg7 arg8 harg8 arg9 harg9 hc0 hc1 x0 x1 x2 x3 xs0 xs1 xs2 (ix2 (⟨128 + r.val, by have := r.isLt; omega⟩ : Fin 136) k) : EReal) * ind (x1 (ix3 0 k s)) n := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold sout0_C_2
  unfold kernelRun0_C
  dsimp only
  sl_unfold_words
  match s with
  | ⟨0, _⟩ =>
    refine (canon4_0 _ _ _ _ _ r n).trans ?_
    refine (cnt_pay0 _ _ _ r n).trans ?_
    exact congrArg₂ (· + ·) (old_load arg8 harg8 xs1 0 _ rfl _ r n)
      (Finset.sum_congr rfl fun k _ => congrArg₂ (· * ·) (congrFun (tile_load arg9 _) _)
        (congrArg (fun v => ind (v (ix3 0 k 0)) n) (ids_load arg3 harg3 x1)))
  | ⟨1, _⟩ =>
    refine (canon4_1 _ _ _ _ _ r n).trans ?_
    refine (cnt_pay1 _ _ _ r n).trans ?_
    exact congrArg₂ (· + ·) (old_load arg8 harg8 xs1 1 _ rfl _ r n)
      (Finset.sum_congr rfl fun k _ => congrArg₂ (· * ·) (congrFun (tile_load arg9 _) _)
        (congrArg (fun v => ind (v (ix3 0 k 1)) n) (ids_load arg3 harg3 x1)))
  | ⟨2, _⟩ =>
    refine (canon4_2 _ _ _ _ _ r n).trans ?_
    refine (cnt_pay2 _ _ _ r n).trans ?_
    exact congrArg₂ (· + ·) (old_load arg8 harg8 xs1 2 _ rfl _ r n)
      (Finset.sum_congr rfl fun k _ => congrArg₂ (· * ·) (congrFun (tile_load arg9 _) _)
        (congrArg (fun v => ind (v (ix3 0 k 2)) n) (ids_load arg3 harg3 x1)))
  | ⟨3, _⟩ =>
    refine (canon4_3 _ _ _ _ _ r n).trans ?_
    refine (cnt_pay3 _ _ _ r n).trans ?_
    exact congrArg₂ (· + ·) (old_load arg8 harg8 xs1 3 _ rfl _ r n)
      (Finset.sum_congr rfl fun k _ => congrArg₂ (· * ·) (congrFun (tile_load arg9 _) _)
        (congrArg (fun v => ind (v (ix3 0 k 3)) n) (ids_load arg3 harg3 x1)))

end Cert.KernelIdeal.Step

end
-- ==== Proof.KStepOut.lean ====
/-
  What an image's last grid point writes into the output block: entry (scale s, id n, feature e) is the
  convolution over the channels of the weight row e with the mean — the point's final sum accumulator over the
  larger of its final count (row 0) and one — plus the bias.
-/
import proofs.«428727_j37907381354596_3_alg».proof.Proof.Gen.KernelIdeal.Frame
import proofs.«428727_j37907381354596_3_alg».proof.Proof.Spec
import Idealize.ShloMosaic.Lib.ValueLayout

set_option maxRecDepth 16384

noncomputable section

namespace Cert.KernelIdeal.Step

open Cert.KernelIdeal Cert.KernelIdeal.Gen Cert.Spec
open Idealize.ShloMosaic Idealize.ShloMosaic.TcCoe Idealize.ShloMosaic.ValueIdx Idealize.SL.Sem
open Idealize.ShloMosaic.Tactic

/-! ## The convolution's contraction: the operand indices of the (192 × 128) · (128 × 1024) product -/

theorem lhs_conv_0 (i : S192x1024.Idx) (q : dot_S192x128_S128x1024_S192x1024_1_0_0_1_n_n.contr.Idx) :
    (dot_S192x128_S128x1024_S192x1024_1_0_0_1_n_n.lhsIdx i q 0).val = (i 0).val := by
  unfold DotDims.lhsIdx
  rw [dif_neg (show ¬(0 : Fin S192x128.rank) ∈ dot_S192x128_S128x1024_S192x1024_1_0_0_1_n_n.lhsBatch by decide), dif_pos (show (0 : Fin S192x128.rank) ∈ dot_S192x128_S128x1024_S192x1024_1_0_0_1_n_n.lhsNonContracting by decide)]
  rfl
theorem lhs_conv_1 (i : S192x1024.Idx) (q : dot_S192x128_S128x1024_S192x1024_1_0_0_1_n_n.contr.Idx) :
    (dot_S192x128_S128x1024_S192x1024_1_0_0_1_n_n.lhsIdx i q 1).val = (q ⟨0, by decide⟩).val :=
  dot_S192x128_S128x1024_S192x1024_1_0_0_1_n_n.lhsIdx_val_of_single rfl i q
theorem rhs_conv_0 (i : S192x1024.Idx) (q : dot_S192x128_S128x1024_S192x1024_1_0_0_1_n_n.contr.Idx) :
    (dot_S192x128_S128x1024_S192x1024_1_0_0_1_n_n.rhsIdx i q 0).val = (q ⟨0, by decide⟩).val :=
  dot_S192x128_S128x1024_S192x1024_1_0_0_1_n_n.rhsIdx_val_of_single rfl i q
theorem rhs_conv_1 (i : S192x1024.Idx) (q : dot_S192x128_S128x1024_S192x1024_1_0_0_1_n_n.contr.Idx) :
    (dot_S192x128_S128x1024_S192x1024_1_0_0_1_n_n.rhsIdx i q 1).val = (i 1).val := by
  unfold DotDims.rhsIdx
  rw [dif_neg (show ¬(1 : Fin S128x1024.rank) ∈ dot_S192x128_S128x1024_S192x1024_1_0_0_1_n_n.rhsBatch by decide), dif_pos (show (1 : Fin S128x1024.rank) ∈ dot_S192x128_S128x1024_S192x1024_1_0_0_1_n_n.rhsNonContracting by decide)]
  rfl

/-- The mean at (channel cc, id n): the sum accumulator over the larger of the count's row 0 and one. -/
theorem mean_apply (acc : Vec Ideal S1x128x1024 .f32) (cnt : Vec Ideal S1x8x1024 .f32) (cc : Fin 128) (n : Fin 1024) :
    (divf (shapeCast S128x1024 acc shapeCasts_S1x128x1024_S128x1024)
        (broadcastTo S128x1024
          (maximumf (extractStridedSlice S1x1024 ![0, 0] (shapeCast S8x1024 cnt shapeCasts_S1x8x1024_S8x1024) slices_S8x1024_o0_0_S1x1024)
            (broadcast S1x1024 (Scalar.ofBits (F := Ideal) .f32 0x3F800000#32)))
          broadcasts_S1x1024_S128x1024) (ix2 cc n) : EReal)
      = Ideal.div (acc (ix3 0 cc n)) (max (cnt (ix3 0 0 n)) oneLit) := by
  rw [divf_apply, shapeCast_1ab_ab_apply, broadcastTo_1b_ab_apply, maximumf_apply, broadcast_apply,
    slice2_axis0_apply 0 _ _ (0 : Fin 1) n (0 : Fin 8) rfl, shapeCast_1ab_ab_apply]
  rfl

/-- The product's entry (feature e, id n): the weight row e against the means' column n. -/
theorem pay8_apply (w' : FVec Ideal S192x128 .bf16) (acc : Vec Ideal S1x128x1024 .f32) (cnt : Vec Ideal S1x8x1024 .f32)
    (e : Fin 192) (n : Fin 1024) :
    (k0_pay8 (F := Ideal) w' acc cnt (ix2 e n) : EReal)
      = ∑ cc : Fin 128, (w' (ix2 e cc) : EReal) * Ideal.div (acc (ix3 0 cc n)) (max (cnt (ix3 0 0 n)) oneLit) := by
  unfold k0_pay8
  refine (Ideal.matmul_constant_zero_apply dot_S192x128_S128x1024_S192x1024_1_0_0_1_n_n none _ _ (ix2 e n)).trans ?_
  rw [← Equiv.sum_comp (contrEquiv1 dot_S192x128_S128x1024_S192x1024_1_0_0_1_n_n 128 rfl rfl).symm]
  refine Finset.sum_congr rfl fun k _ => ?_
  have hk := contrEquiv1_symm_val dot_S192x128_S128x1024_S192x1024_1_0_0_1_n_n 128 rfl rfl k
  have el : dot_S192x128_S128x1024_S192x1024_1_0_0_1_n_n.lhsIdx (ix2 e n) ((contrEquiv1 dot_S192x128_S128x1024_S192x1024_1_0_0_1_n_n 128 rfl rfl).symm k) = ix2 e k :=
    funext fun a => Fin.ext (by
      match a with
      | ⟨0, _⟩ => exact lhs_conv_0 _ _
      | ⟨1, _⟩ => exact (lhs_conv_1 _ _).trans hk)
  have er : dot_S192x128_S128x1024_S192x1024_1_0_0_1_n_n.rhsIdx (ix2 e n) ((contrEquiv1 dot_S192x128_S128x1024_S192x1024_1_0_0_1_n_n 128 rfl rfl).symm k) = ix2 k n :=
    funext fun a => Fin.ext (by
      match a with
      | ⟨0, _⟩ => exact (rhs_conv_0 _ _).trans hk
      | ⟨1, _⟩ => exact rhs_conv_1 _ _)
  rw [el, er]
  exact congrArg (fun z : EReal => (w' (ix2 e k) : EReal) * z) (mean_apply acc cnt k n)

/-- The bias, spread along the ids: entry (feature e, id n) is the bias at e. -/
theorem pay9_apply (bv : Vec Ideal S192 .f32) (e : Fin 192) (n : Fin 1024) :
    (k0_pay9 (F := Ideal) bv (ix2 e n) : EReal) = bv (ix1 e) := by
  unfold k0_pay9
  refine (broadcastTo_apply _ broadcasts_S192x1_S192x1024 (ix2 e n) (ix2 e (0 : Fin 1)) (fun a => match a with
    | ⟨0, _⟩ => by show e.val = if (192 : Nat) = 1 then 0 else e.val; rw [if_neg (by decide)]
    | ⟨1, _⟩ => by show 0 = if (1 : Nat) = 1 then 0 else n.val; rw [if_pos rfl])).trans ?_
  exact shapeCast_apply _ shapeCasts_S192_S192x1 (ix2 e (0 : Fin 1)) (ix1 e) (by
    rw [Shape.rowMajor_val_one, Shape.rowMajor_val_two]; show e.val = e.val * 1 + 0; omega)

/-- The stored block's entry (0, 0, id n, feature e): product plus bias at (e, n), the transposition undone. -/
theorem pay2_apply (A B : FVec Ideal S192x1024 .f32) (n : Fin 1024) (e : Fin 192) :
    (k0_pay2 (F := Ideal) A B (ix4 0 0 n e) : EReal) = A (ix2 e n) + B (ix2 e n) := by
  unfold k0_pay2
  refine (shapeCast_apply _ shapeCasts_S1024x192_S1x1x1024x192 (ix4 (0 : Fin 1) (0 : Fin 1) n e) (ix2 n e) (by
    rw [Shape.rowMajor_val_two, Shape.rowMajor_val_four]
    show n.val * 192 + e.val = (((0 * 1 + 0) * 1024 + n.val) * 192 + e.val); omega)).trans ?_
  exact transpose_ix2_apply _ transposes_S192x1024_p1_0_S1024x192 n e

/-- One scale's block from the weights, the bias, the sum accumulator's slice and the count accumulator's slice:
    entry (id n, feature e) is the convolution of the mean over the channels plus the bias. -/
theorem block_apply (w : Vec Ideal S192x128 .f32) (bv : Vec Ideal S192 .f32) (acc : Vec Ideal S1x128x1024 .f32)
    (cnt : Vec Ideal S1x8x1024 .f32) (n : Fin 1024) (e : Fin 192) :
    (k0_pay2 (F := Ideal) (k0_pay8 (k0_pay3 w) acc cnt) (k0_pay9 bv) (ix4 0 0 n e) : EReal)
      = (∑ cc : Fin 128, (w (ix2 e cc) : EReal) * Ideal.div (acc (ix3 0 cc n)) (max (cnt (ix3 0 0 n)) oneLit))
        + (bv (ix1 e) : EReal) := by
  rw [pay2_apply, pay8_apply, pay9_apply]
  rfl

/-- Scale 0's stored block is the same arithmetic: product plus bias, transposed. -/
theorem pay4_eq (w : Vec Ideal S192x128 .f32) (bv : Vec Ideal S192 .f32) (acc : Vec Ideal S1x128x1024 .f32)
    (cnt : Vec Ideal S1x8x1024 .f32) :
    k0_pay4 (F := Ideal) w bv acc cnt = k0_pay2 (k0_pay8 (k0_pay3 w) acc cnt) (k0_pay9 bv) := rfl
/-- Scale 1's stored block likewise. -/
theorem pay65_eq (w : Vec Ideal S192x128 .f32) (bv : Vec Ideal S192 .f32) (acc : Vec Ideal S1x128x1024 .f32)
    (cnt : Vec Ideal S1x8x1024 .f32) :
    k0_pay6 (F := Ideal) (k0_pay5 w bv acc cnt) = k0_pay2 (k0_pay8 (k0_pay3 w) acc cnt) (k0_pay9 bv) := rfl
/-- Scale 2's stored block likewise. -/
theorem pay7_eq (w : Vec Ideal S192x128 .f32) (bv : Vec Ideal S192 .f32) (acc : Vec Ideal S1x128x1024 .f32)
    (cnt : Vec Ideal S1x8x1024 .f32) :
    k0_pay7 (F := Ideal) (k0_pay3 w) bv acc cnt = k0_pay2 (k0_pay8 (k0_pay3 w) acc cnt) (k0_pay9 bv) := rfl

/-! ## Reading the run's loads and stores -/

/-- A load of a whole buffer before any store to it reads the contents it held. -/
theorem load_whole {S : Shape} {el : EltTy} (M : Memref sig .tc .vmem S el) (hM : M.IsWhole) (x : Vec Ideal S el)
    {off : Fin S.rank → Nat} (hoff : off = fun _ => 0) (inb : ∀ a, off a + S.size a ≤ S.size a) :
    View.readAt (Elt Ideal) M.view (Rect.unit off S.size inb).toLoadRect (hM.unread x) = x := by
  rw [View.readAt_eq_ld, hM.read_unread]
  exact View.ld_unit_zero hoff inb x

/-- The sum accumulator's slice of scale s, loaded after the run's stores: entry (0, cc, n) is what the stores
    leave at (s, cc, n). -/
theorem load_acc_slice (v : View sig .tc .vmem S4x128x1024 .f32) (L : List (View.Piece (Elt Ideal) S4x128x1024 .f32))
    (s : Fin 4) {off : Fin 3 → Nat} (hoff : off = ![s.val, 0, 0])
    (inb : ∀ a, off a + S1x128x1024.size a ≤ S4x128x1024.size a) (cc : Fin 128) (n : Fin 1024) :
    v.readCov L (Rect.unit (s := S4x128x1024) off S1x128x1024.size inb).toLoadRect (ix3 0 cc n) = View.canon L (ix3 s cc n) := by
  subst hoff
  rw [View.readCov_eq_canon']
  refine congrArg (View.canon L) (funext fun a => Fin.ext ?_)
  match a with
  | ⟨0, _⟩ => show s.val + 1 * 0 = s.val; omega
  | ⟨1, _⟩ => show 0 + 1 * cc.val = cc.val; omega
  | ⟨2, _⟩ => show 0 + 1 * n.val = n.val; omega

/-- The count accumulator's slice of scale s likewise: entry (0, r, n) is what the stores leave at (s, r, n). -/
theorem load_cnt_slice (v : View sig .tc .vmem S4x8x1024 .f32) (L : List (View.Piece (Elt Ideal) S4x8x1024 .f32))
    (s : Fin 4) {off : Fin 3 → Nat} (hoff : off = ![s.val, 0, 0])
    (inb : ∀ a, off a + S1x8x1024.size a ≤ S4x8x1024.size a) (r : Fin 8) (n : Fin 1024) :
    v.readCov L (Rect.unit (s := S4x8x1024) off S1x8x1024.size inb).toLoadRect (ix3 0 r n) = View.canon L (ix3 s r n) := by
  subst hoff
  rw [View.readCov_eq_canon']
  refine congrArg (View.canon L) (funext fun a => Fin.ext ?_)
  match a with
  | ⟨0, _⟩ => show s.val + 1 * 0 = s.val; omega
  | ⟨1, _⟩ => show 0 + 1 * r.val = r.val; omega
  | ⟨2, _⟩ => show 0 + 1 * n.val = n.val; omega

/-- Under the store of scale s's block, the output block's entry (s, 0, n, e) is the stored block's (0, 0, n, e). -/
theorem canon_out_hit (s : Fin 4) {off : Fin 4 → Nat} (hoff : off = ![s.val, 0, 0, 0])
    (inb : ∀ a, off a + (![1, 1, 1024, 192] : Fin 4 → Nat) a ≤ S4x1x1024x192.size a)
    (w : (Rect.unit (s := S4x1x1024x192) off ![1, 1, 1024, 192] inb).shape.Idx → Elt Ideal .f32)
    (L : List (View.Piece (Elt Ideal) S4x1x1024x192 .f32)) (n : Fin 1024) (e : Fin 192) :
    View.canon (⟨Rect.unit off ![1, 1, 1024, 192] inb, w⟩ :: L) (ix4 s 0 n e) = w (ix4 0 0 n e) := by
  subst hoff
  have h : (ix4 s 0 n e : S4x1x1024x192.Idx)
      = (Rect.unit (s := S4x1x1024x192) ![s.val, 0, 0, 0] ![1, 1, 1024, 192] inb).emb (ix4 0 0 n e) :=
    funext fun a => Fin.ext (by
      match a with
      | ⟨0, _⟩ => show s.val = s.val + 1 * 0; omega
      | ⟨1, _⟩ => show 0 = 0 + 1 * 0; omega
      | ⟨2, _⟩ => show n.val = 0 + 1 * n.val; omega
      | ⟨3, _⟩ => show e.val = 0 + 1 * e.val; omega)
  rw [h]
  exact View.canon_cons_emb _ _ _ _

/-- Another scale's store leaves the entry alone. -/
theorem canon_out_miss (s t : Fin 4) (hst : s ≠ t) {off : Fin 4 → Nat} (hoff : off = ![t.val, 0, 0, 0])
    (inb : ∀ a, off a + (![1, 1, 1024, 192] : Fin 4 → Nat) a ≤ S4x1x1024x192.size a)
    (w : (Rect.unit (s := S4x1x1024x192) off ![1, 1, 1024, 192] inb).shape.Idx → Elt Ideal .f32)
    (L : List (View.Piece (Elt Ideal) S4x1x1024x192 .f32)) (n : Fin 1024) (e : Fin 192) :
    View.canon (⟨Rect.unit off ![1, 1, 1024, 192] inb, w⟩ :: L) (ix4 s 0 n e) = View.canon L (ix4 s 0 n e) := by
  subst hoff
  refine View.canon_cons_of_not_mem _ _ ?_
  intro hm
  have hm' : ix4 s 0 n e ∈ (Rect.unit (s := S4x1x1024x192) ![t.val, 0, 0, 0] ![1, 1, 1024, 192] inb).set := hm
  have h0 := (Rect.mem_set_unit.mp hm') 0
  have h1 : t.val ≤ s.val ∧ s.val < t.val + 1 := h0
  exact hst (Fin.ext (by omega))

/-! ## The output block -/

theorem outC (c : Dev nD) (i : grid0.Coords) (arg2 : Memref sig .tc .vmem S1x128x4096 .f32) (harg2 : arg2.IsWhole) (arg3 : Memref sig .tc .vmem S1x4096x4 .i32) (harg3 : arg3.IsWhole) (arg4 : Memref sig .tc .vmem S192x128 .f32) (harg4 : arg4.IsWhole) (arg5 : Memref sig .tc .vmem S192 .f32) (harg5 : arg5.IsWhole) (arg6 : Memref sig .tc .vmem S4x1x1024x192 .f32) (harg6 : arg6.IsWhole) (arg7 : Memref sig .tc .vmem S4x128x1024 .f32) (harg7 : arg7.IsWhole) (arg8 : Memref sig .tc .vmem S4x8x1024 .f32) (harg8 : arg8.IsWhole) (arg9 : Memref sig .tc .vmem S136x4096 .bf16) (harg9 : arg9.IsWhole) (hc0 : ¬cond0_0 i) (hc1 : cond0_1 i) (x0 : Vec Ideal S1x128x4096 .f32) (x1 : Vec Ideal S1x4096x4 .i32) (x2 : Vec Ideal S192x128 .f32) (x3 : Vec Ideal S192 .f32) (xs0 : Vec Ideal S4x128x1024 .f32) (xs1 : Vec Ideal S4x8x1024 .f32) (xs2 : Vec Ideal S136x4096 .bf16) (s : Fin 4) (n : Fin 1024) (e : Fin 192) :
    (out0_C_4 (F := Ideal) c i arg2 harg2 arg3 harg3 arg4 harg4 arg5 harg5 arg6 harg6 arg7 harg7 arg8 harg8 arg9 harg9 hc0 hc1 x0 x1 x2 x3 xs0 xs1 xs2 (ix4 s 0 n e) : EReal)
      = (∑ cc : Fin 128, (x2 (ix2 e cc) : EReal)
            * Ideal.div (sout0_C_0 (F := Ideal) c i arg2 harg2 arg3 harg3 arg4 harg4 arg5 harg5 arg6 harg6 arg7 harg7 arg8 harg8 arg9 harg9 hc0 hc1 x0 x1 x2 x3 xs0 xs1 xs2 (ix3 s cc n) : EReal)
                (max (sout0_C_1 (F := Ideal) c i arg2 harg2 arg3 harg3 arg4 harg4 arg5 harg5 arg6 harg6 arg7 harg7 arg8 harg8 arg9 harg9 hc0 hc1 x0 x1 x2 x3 xs0 xs1 xs2 (ix3 s 0 n) : EReal) oneLit))
        + (x3 (ix1 e) : EReal) := by
  rw [show out0_C_4 (F := Ideal) c i arg2 harg2 arg3 harg3 arg4 harg4 arg5 harg5 arg6 harg6 arg7 harg7 arg8 harg8 arg9 harg9 hc0 hc1 x0 x1 x2 x3 xs0 xs1 xs2 = View.canon (kernelRun0_C c i arg2 harg2 arg3 harg3 arg4 harg4 arg5 harg5 arg6 harg6 arg7 harg7 arg8 harg8 arg9 harg9 hc0 hc1 x0 x1 x2 x3 xs0 xs1 xs2).1 from View.read_writes_junk_eq_canon _ _,
    show sout0_C_0 (F := Ideal) c i arg2 harg2 arg3 harg3 arg4 harg4 arg5 harg5 arg6 harg6 arg7 harg7 arg8 harg8 arg9 harg9 hc0 hc1 x0 x1 x2 x3 xs0 xs1 xs2 = View.canon (kernelRun0_C c i arg2 harg2 arg3 harg3 arg4 harg4 arg5 harg5 arg6 harg6 arg7 harg7 arg8 harg8 arg9 harg9 hc0 hc1 x0 x1 x2 x3 xs0 xs1 xs2).2.1 from View.read_writes_junk_eq_canon _ _,
    show sout0_C_1 (F := Ideal) c i arg2 harg2 arg3 harg3 arg4 harg4 arg5 harg5 arg6 harg6 arg7 harg7 arg8 harg8 arg9 harg9 hc0 hc1 x0 x1 x2 x3 xs0 xs1 xs2 = View.canon (kernelRun0_C c i arg2 harg2 arg3 harg3 arg4 harg4 arg5 harg5 arg6 harg6 arg7 harg7 arg8 harg8 arg9 harg9 hc0 hc1 x0 x1 x2 x3 xs0 xs1 xs2).2.2.1 from View.read_writes_junk_eq_canon _ _]
  unfold kernelRun0_C
  dsimp only
  sl_unfold_words
  match s with
  | ⟨0, hs⟩ =>
    refine ((canon_out_miss ⟨0, hs⟩ 3 (Fin.ne_of_val_ne (show (0 : ℕ) ≠ 3 by decide)) rfl _ _ _ n e).trans ((canon_out_miss ⟨0, hs⟩ 2 (Fin.ne_of_val_ne (show (0 : ℕ) ≠ 2 by decide)) rfl _ _ _ n e).trans ((canon_out_miss ⟨0, hs⟩ 1 (Fin.ne_of_val_ne (show (0 : ℕ) ≠ 1 by decide)) rfl _ _ _ n e).trans (canon_out_hit ⟨0, hs⟩ rfl _ _ _ n e)))).trans ?_
    refine (congrFun (pay4_eq _ _ _ _) _).trans ((block_apply _ _ _ _ n e).trans ?_)
    refine congrArg₂ (· + ·) (Finset.sum_congr rfl fun cc _ => congrArg₂ (· * ·) ?_ (congrArg₂ Ideal.div ?_ (congrArg (max · oneLit) ?_))) ?_
    · exact congrFun (load_whole arg4 harg4 x2 (by decide) _) _
    · exact load_acc_slice _ _ ⟨0, hs⟩ rfl _ cc n
    · exact load_cnt_slice _ _ ⟨0, hs⟩ rfl _ 0 n
    · exact congrFun (load_whole arg5 harg5 x3 (by decide) _) _
  | ⟨1, hs⟩ =>
    refine ((canon_out_miss ⟨1, hs⟩ 3 (Fin.ne_of_val_ne (show (1 : ℕ) ≠ 3 by decide)) rfl _ _ _ n e).trans ((canon_out_miss ⟨1, hs⟩ 2 (Fin.ne_of_val_ne (show (1 : ℕ) ≠ 2 by decide)) rfl _ _ _ n e).trans (canon_out_hit ⟨1, hs⟩ rfl _ _ _ n e))).trans ?_
    refine (congrFun (pay65_eq _ _ _ _) _).trans ((block_apply _ _ _ _ n e).trans ?_)
    refine congrArg₂ (· + ·) (Finset.sum_congr rfl fun cc _ => congrArg₂ (· * ·) ?_ (congrArg₂ Ideal.div ?_ (congrArg (max · oneLit) ?_))) ?_
    · exact congrFun (load_whole arg4 harg4 x2 (by decide) _) _
    · exact load_acc_slice _ _ ⟨1, hs⟩ rfl _ cc n
    · exact load_cnt_slice _ _ ⟨1, hs⟩ rfl _ 0 n
    · exact congrFun (load_whole arg5 harg5 x3 (by decide) _) _
  | ⟨2, hs⟩ =>
    refine ((canon_out_miss ⟨2, hs⟩ 3 (Fin.ne_of_val_ne (show (2 : ℕ) ≠ 3 by decide)) rfl _ _ _ n e).trans (canon_out_hit ⟨2, hs⟩ rfl _ _ _ n e)).trans ?_
    refine (congrFun (pay7_eq _ _ _ _) _).trans ((block_apply _ _ _ _ n e).trans ?_)
    refine congrArg₂ (· + ·) (Finset.sum_congr rfl fun cc _ => congrArg₂ (· * ·) ?_ (congrArg₂ Ideal.div ?_ (congrArg (max · oneLit) ?_))) ?_
    · exact congrFun (load_whole arg4 harg4 x2 (by decide) _) _
    · exact load_acc_slice _ _ ⟨2, hs⟩ rfl _ cc n
    · exact load_cnt_slice _ _ ⟨2, hs⟩ rfl _ 0 n
    · exact congrFun (load_whole arg5 harg5 x3 (by decide) _) _
  | ⟨3, hs⟩ =>
    refine (canon_out_hit ⟨3, hs⟩ rfl _ _ _ n e).trans ?_
    refine ((block_apply _ _ _ _ n e).trans ?_)
    refine congrArg₂ (· + ·) (Finset.sum_congr rfl fun cc _ => congrArg₂ (· * ·) ?_ (congrArg₂ Ideal.div ?_ (congrArg (max · oneLit) ?_))) ?_
    · exact congrFun (load_whole arg4 harg4 x2 (by decide) _) _
    · exact load_acc_slice _ _ ⟨3, hs⟩ rfl _ cc n
    · exact load_cnt_slice _ _ ⟨3, hs⟩ rfl _ 0 n
    · exact congrFun (load_whole arg5 harg5 x3 (by decide) _) _

end Cert.KernelIdeal.Step

end
-- ==== Proof.KInv.lean ====
/-
  What the carried scratch holds after every grid point, and what an image's last point writes out.

  After tile `t % 64` of image `t / 64` the sum accumulator holds, at (scale, channel, id), the segment sum over
  the image's first `t % 64 + 1` tiles, the count accumulator (each of its eight rows) the segment count over
  the same tiles, and rows 128 to 135 of the widened tile buffer hold the constant one: the first tile starts the
  accumulators from zero and writes the ones, every later tile adds its share to what the tile before left and
  keeps the ones.  At the image's last tile all 64 tiles are in, and the block written out is the token array:
  the convolution of the mean (sum over the larger of count and one) plus the bias.
-/
import proofs.«428727_j37907381354596_3_alg».proof.Proof.Gen.KernelIdeal.Frame
import proofs.«428727_j37907381354596_3_alg».proof.Proof.Spec
import proofs.«428727_j37907381354596_3_alg».proof.Proof.KBlocks
import proofs.«428727_j37907381354596_3_alg».proof.Proof.KStepAug
import proofs.«428727_j37907381354596_3_alg».proof.Proof.KStepAcc
import proofs.«428727_j37907381354596_3_alg».proof.Proof.KStepCnt
import proofs.«428727_j37907381354596_3_alg».proof.Proof.KStepOut

set_option maxRecDepth 16384

noncomputable section

namespace Cert.KernelIdeal.Inv

open Cert.KernelIdeal Cert.KernelIdeal.Gen Cert.Spec Cert.KernelIdeal.Blocks Cert.KernelIdeal.Step
open Idealize.ShloMosaic Idealize.ShloMosaic.TcCoe Idealize.ShloMosaic.ValueIdx Idealize.SL.Sem

variable (m : (ℓ : Loc nD τ sig) → Buf (Elt Ideal) ℓ)

/-- The region's arrays as plain functions of coordinates. -/
def XV (c : Dev nD) : Fin 8 → Fin 128 → Fin 262144 → EReal := fun b ch p => xarr m c (ix3 b ch p)
def SgV (c : Dev nD) : Fin 8 → Fin 4 → Fin 262144 → BitVec 32 := fun b s p => sarr m c (ix3 b p s)
def WV (c : Dev nD) : Fin 192 → Fin 128 → EReal := fun e ch => warr m c (ix2 e ch)
def BV (c : Dev nD) : Fin 192 → EReal := fun e => barr m c (ix1 e)

/-- The image a grid point belongs to. -/
def img (n : ℕ) (hn : n < cfg0.N) : Fin 8 :=
  ⟨n / 64, by have h : n < 512 := lt_of_lt_of_eq hn (show cfg0.N = 512 from N_0); omega⟩

/-- The scratch after point `n`, at literal types. -/
abbrev outAt (c : Dev nD) (n : ℕ) (hn : n < cfg0.N) : Vec Ideal S4x1x1024x192 .f32 := (outsAt0 m c n hn).1
abbrev accAt (c : Dev nD) (n : ℕ) (hn : n < cfg0.N) : Vec Ideal S4x128x1024 .f32 := (outsAt0 m c n hn).2.1
abbrev cntAt (c : Dev nD) (n : ℕ) (hn : n < cfg0.N) : Vec Ideal S4x8x1024 .f32 := (outsAt0 m c n hn).2.2.1
abbrev augAt (c : Dev nD) (n : ℕ) (hn : n < cfg0.N) : Vec Ideal S136x4096 .bf16 := (outsAt0 m c n hn).2.2.2

/-- A tile's share of a segment sum, read off the point's blocks. -/
theorem tileSum_blocks (c : Dev nD) (t : Fin cfg0.N) (s : Fin 4) (ch : Fin 128) (nn : Fin 1024) :
    ∑ k : Fin 4096, (xblk m c t (ix3 0 ch k) : EReal) * ind (sblk m c t (ix3 0 k s)) nn
      = tileSum (XV m c) (SgV m c) (img t.val t.isLt) s ch nn (t.val % 64) := by
  unfold tileSum
  refine Finset.sum_congr rfl fun k _ => ?_
  have hp : pix (t.val % 64) k = ⟨(t.val % 64) * 4096 + k.val, pixel_lt t k⟩ :=
    Fin.ext (pix_val _ (Nat.mod_lt _ (by decide)) k)
  rw [xblk_apply, sblk_apply, hp]
  rfl

/-- A tile's share of a segment count, read off the point's id block. -/
theorem tileCnt_blocks (c : Dev nD) (t : Fin cfg0.N) (s : Fin 4) (nn : Fin 1024) :
    ∑ k : Fin 4096, (1 : EReal) * ind (sblk m c t (ix3 0 k s)) nn
      = tileCnt (SgV m c) (img t.val t.isLt) s nn (t.val % 64) := by
  unfold tileCnt
  refine Finset.sum_congr rfl fun k _ => ?_
  have hp : pix (t.val % 64) k = ⟨(t.val % 64) * 4096 + k.val, pixel_lt t k⟩ :=
    Fin.ext (pix_val _ (Nat.mod_lt _ (by decide)) k)
  rw [sblk_apply, hp, one_mul]
  rfl

/-- The three facts about the scratch after point `n`. -/
def Holds (c : Dev nD) (n : ℕ) (hn : n < cfg0.N) : Prop :=
  (∀ (s : Fin 4) (ch : Fin 128) (nn : Fin 1024),
      (accAt m c n hn (ix3 s ch nn) : EReal) = segSum (XV m c) (SgV m c) (img n hn) s ch nn (n % 64 + 1))
  ∧ (∀ (s : Fin 4) (r : Fin 8) (nn : Fin 1024),
      (cntAt m c n hn (ix3 s r nn) : EReal) = segCnt (SgV m c) (img n hn) s nn (n % 64 + 1))
  ∧ (∀ (r : Fin 136) (k : Fin 4096), 128 ≤ r.val → (augAt m c n hn (ix2 r k) : EReal) = 1)

/-- An image's first tile. -/
theorem holds_first (c : Dev nD) (t : Fin cfg0.N) (h0 : t.val % 64 = 0) : Holds m c t.val t.isLt := by
  have h1 : ¬t.val % 64 = 63 := by omega
  have haug : ∀ (r : Fin 136) (k : Fin 4096),
      (augAt m c t.val t.isLt (ix2 r k) : EReal)
        = if h : r.val < 128 then (xblk m c t (ix3 0 ⟨r.val, h⟩ k) : EReal) else 1 := by
    intro r k
    show ((outsAt0 m c t.val t.isLt).2.2.2 (ix2 r k) : EReal) = _
    rw [outsAt0_A m c t h0 h1]; dsimp only
    exact augA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) r k
  refine ⟨fun s ch nn => ?_, fun s r nn => ?_, fun r k hr => ?_⟩
  · show ((outsAt0 m c t.val t.isLt).2.1 (ix3 s ch nn) : EReal) = _
    rw [outsAt0_A m c t h0 h1]; dsimp only
    refine (accA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) s ch nn).trans ?_
    have e : ∀ k : Fin 4096, (sout0_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (ix2 (Fin.castLE (by decide : 128 ≤ 136) ch) k) : EReal)
        = (xblk m c t (ix3 0 ch k) : EReal) := by
      intro k
      have := haug (Fin.castLE (by decide : 128 ≤ 136) ch) k
      rw [dif_pos (show (Fin.castLE (by decide : 128 ≤ 136) ch).val < 128 from ch.isLt)] at this
      refine Eq.trans ?_ this
      show _ = ((outsAt0 m c t.val t.isLt).2.2.2 _ : EReal)
      rw [outsAt0_A m c t h0 h1]
    simp only [e]
    rw [tileSum_blocks, h0, segSum_succ, segSum_zero, zero_add]
  · show ((outsAt0 m c t.val t.isLt).2.2.1 (ix3 s r nn) : EReal) = _
    rw [outsAt0_A m c t h0 h1]; dsimp only
    refine (cntA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) s r nn).trans ?_
    have e : ∀ k : Fin 4096, (sout0_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (ix2 (⟨128 + r.val, by have := r.isLt; omega⟩ : Fin 136) k) : EReal)
        = 1 := by
      intro k
      have := haug (⟨128 + r.val, by have := r.isLt; omega⟩ : Fin 136) k
      rw [dif_neg (show ¬(128 + r.val < 128) by omega)] at this
      refine Eq.trans ?_ this
      show _ = ((outsAt0 m c t.val t.isLt).2.2.2 _ : EReal)
      rw [outsAt0_A m c t h0 h1]
    simp only [e]
    rw [tileCnt_blocks, h0, segCnt_succ, segCnt_zero, zero_add]
  · rw [haug r k, dif_neg (by omega)]

/-- A later tile that is not the image's last: its share is added to what the tile before left. -/
theorem holds_next_B (c : Dev nD) (t : Fin cfg0.N) (h0 : ¬t.val % 64 = 0) (h1 : ¬t.val % 64 = 63)
    (ih : Holds m c (t.val - 1) (Nat.lt_of_le_of_lt (Nat.sub_le _ _) t.isLt)) : Holds m c t.val t.isLt := by
  obtain ⟨ihA, ihC, ihU⟩ := ih
  have himg : img (t.val - 1) (Nat.lt_of_le_of_lt (Nat.sub_le _ _) t.isLt) = img t.val t.isLt :=
    Fin.ext (by show (t.val - 1) / 64 = t.val / 64; omega)
  have hmod : (t.val - 1) % 64 + 1 = t.val % 64 := by omega
  have haug : ∀ (r : Fin 136) (k : Fin 4096),
      (augAt m c t.val t.isLt (ix2 r k) : EReal)
        = if h : r.val < 128 then (xblk m c t (ix3 0 ⟨r.val, h⟩ k) : EReal)
          else (augAt m c (t.val - 1) (Nat.lt_of_le_of_lt (Nat.sub_le _ _) t.isLt) (ix2 r k) : EReal) := by
    intro r k
    show ((outsAt0 m c t.val t.isLt).2.2.2 (ix2 r k) : EReal) = _
    rw [outsAt0_B m c t h0 h1]; dsimp only
    exact augB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r k
  refine ⟨fun s ch nn => ?_, fun s r nn => ?_, fun r k hr => ?_⟩
  · show ((outsAt0 m c t.val t.isLt).2.1 (ix3 s ch nn) : EReal) = _
    rw [outsAt0_B m c t h0 h1]; dsimp only
    refine (accB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 s ch nn).trans ?_
    have e : ∀ k : Fin 4096, (sout0_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (ix2 (Fin.castLE (by decide : 128 ≤ 136) ch) k) : EReal)
        = (xblk m c t (ix3 0 ch k) : EReal) := by
      intro k
      have := haug (Fin.castLE (by decide : 128 ≤ 136) ch) k
      rw [dif_pos (show (Fin.castLE (by decide : 128 ≤ 136) ch).val < 128 from ch.isLt)] at this
      refine Eq.trans ?_ this
      show _ = ((outsAt0 m c t.val t.isLt).2.2.2 _ : EReal)
      rw [outsAt0_B m c t h0 h1]
    simp only [e]
    rw [tileSum_blocks, ← hmod, segSum_succ, ← himg]
    exact congrArg (· + _) (ihA s ch nn)
  · show ((outsAt0 m c t.val t.isLt).2.2.1 (ix3 s r nn) : EReal) = _
    rw [outsAt0_B m c t h0 h1]; dsimp only
    refine (cntB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 s r nn).trans ?_
    have e : ∀ k : Fin 4096, (sout0_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (ix2 (⟨128 + r.val, by have := r.isLt; omega⟩ : Fin 136) k) : EReal)
        = 1 := by
      intro k
      have := haug (⟨128 + r.val, by have := r.isLt; omega⟩ : Fin 136) k
      rw [dif_neg (show ¬(128 + r.val < 128) by omega), ihU _ k (show 128 ≤ 128 + r.val by omega)] at this
      refine Eq.trans ?_ this
      show _ = ((outsAt0 m c t.val t.isLt).2.2.2 _ : EReal)
      rw [outsAt0_B m c t h0 h1]
    simp only [e]
    rw [tileCnt_blocks, ← hmod, segCnt_succ, ← himg]
    exact congrArg (· + _) (ihC s r nn)
  · rw [haug r k, dif_neg (by omega)]
    exact ihU r k hr

/-- A later tile, the image's last: its share is added to what the tile before left. -/
theorem holds_next_C (c : Dev nD) (t : Fin cfg0.N) (h0 : ¬t.val % 64 = 0) (h1 : t.val % 64 = 63)
    (ih : Holds m c (t.val - 1) (Nat.lt_of_le_of_lt (Nat.sub_le _ _) t.isLt)) : Holds m c t.val t.isLt := by
  obtain ⟨ihA, ihC, ihU⟩ := ih
  have himg : img (t.val - 1) (Nat.lt_of_le_of_lt (Nat.sub_le _ _) t.isLt) = img t.val t.isLt :=
    Fin.ext (by show (t.val - 1) / 64 = t.val / 64; omega)
  have hmod : (t.val - 1) % 64 + 1 = t.val % 64 := by omega
  have haug : ∀ (r : Fin 136) (k : Fin 4096),
      (augAt m c t.val t.isLt (ix2 r k) : EReal)
        = if h : r.val < 128 then (xblk m c t (ix3 0 ⟨r.val, h⟩ k) : EReal)
          else (augAt m c (t.val - 1) (Nat.lt_of_le_of_lt (Nat.sub_le _ _) t.isLt) (ix2 r k) : EReal) := by
    intro r k
    show ((outsAt0 m c t.val t.isLt).2.2.2 (ix2 r k) : EReal) = _
    rw [outsAt0_C m c t h0 h1]; dsimp only
    exact augC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r k
  refine ⟨fun s ch nn => ?_, fun s r nn => ?_, fun r k hr => ?_⟩
  · show ((outsAt0 m c t.val t.isLt).2.1 (ix3 s ch nn) : EReal) = _
    rw [outsAt0_C m c t h0 h1]; dsimp only
    refine (accC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 s ch nn).trans ?_
    have e : ∀ k : Fin 4096, (sout0_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (ix2 (Fin.castLE (by decide : 128 ≤ 136) ch) k) : EReal)
        = (xblk m c t (ix3 0 ch k) : EReal) := by
      intro k
      have := haug (Fin.castLE (by decide : 128 ≤ 136) ch) k
      rw [dif_pos (show (Fin.castLE (by decide : 128 ≤ 136) ch).val < 128 from ch.isLt)] at this
      refine Eq.trans ?_ this
      show _ = ((outsAt0 m c t.val t.isLt).2.2.2 _ : EReal)
      rw [outsAt0_C m c t h0 h1]
    simp only [e]
    rw [tileSum_blocks, ← hmod, segSum_succ, ← himg]
    exact congrArg (· + _) (ihA s ch nn)
  · show ((outsAt0 m c t.val t.isLt).2.2.1 (ix3 s r nn) : EReal) = _
    rw [outsAt0_C m c t h0 h1]; dsimp only
    refine (cntC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 s r nn).trans ?_
    have e : ∀ k : Fin 4096, (sout0_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (ix2 (⟨128 + r.val, by have := r.isLt; omega⟩ : Fin 136) k) : EReal)
        = 1 := by
      intro k
      have := haug (⟨128 + r.val, by have := r.isLt; omega⟩ : Fin 136) k
      rw [dif_neg (show ¬(128 + r.val < 128) by omega), ihU _ k (show 128 ≤ 128 + r.val by omega)] at this
      refine Eq.trans ?_ this
      show _ = ((outsAt0 m c t.val t.isLt).2.2.2 _ : EReal)
      rw [outsAt0_C m c t h0 h1]
    simp only [e]
    rw [tileCnt_blocks, ← hmod, segCnt_succ, ← himg]
    exact congrArg (· + _) (ihC s r nn)
  · rw [haug r k, dif_neg (by omega)]
    exact ihU r k hr

/-- After every grid point the scratch holds the image's partial sums, partial counts and the ones. -/
theorem holds (c : Dev nD) : ∀ (n : ℕ) (hn : n < cfg0.N), Holds m c n hn := by
  intro n
  induction n with
  | zero => intro hn; exact holds_first m c ⟨0, hn⟩ rfl
  | succ n ih =>
    intro hn
    by_cases h0 : (n + 1) % 64 = 0
    · exact holds_first m c ⟨n + 1, hn⟩ h0
    · by_cases h1 : (n + 1) % 64 = 63
      · exact holds_next_C m c ⟨n + 1, hn⟩ h0 h1 (ih (Nat.lt_of_succ_lt hn))
      · exact holds_next_B m c ⟨n + 1, hn⟩ h0 h1 (ih (Nat.lt_of_succ_lt hn))

/-- What an image's last tile writes into the output block: the image's token array. -/
theorem out_last (c : Dev nD) (t : Fin cfg0.N) (h1 : t.val % 64 = 63) (s : Fin 4) (nn : Fin 1024) (e : Fin 192) :
    (outAt m c t.val t.isLt (ix4 s 0 nn e) : EReal) = tok (XV m c) (SgV m c) (WV m c) (BV m c) (img t.val t.isLt) s nn e := by
  have h0 : ¬t.val % 64 = 0 := by omega
  obtain ⟨hA, hC, -⟩ := holds m c t.val t.isLt
  have h64 : t.val % 64 + 1 = 64 := by omega
  show ((outsAt0 m c t.val t.isLt).1 (ix4 s 0 nn e) : EReal) = _
  rw [outsAt0_C m c t h0 h1]; dsimp only
  refine (outC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 s nn e).trans ?_
  have eA : ∀ cc : Fin 128, (sout0_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (ix3 s cc nn) : EReal)
      = segSum (XV m c) (SgV m c) (img t.val t.isLt) s cc nn 64 := by
    intro cc
    have hA' := hA s cc nn
    rw [h64] at hA'
    refine Eq.trans ?_ hA'
    show _ = ((outsAt0 m c t.val t.isLt).2.1 _ : EReal)
    rw [outsAt0_C m c t h0 h1]
  have eC : (sout0_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (ix3 s 0 nn) : EReal)
      = segCnt (SgV m c) (img t.val t.isLt) s nn 64 := by
    have hC' := hC s 0 nn
    rw [h64] at hC'
    refine Eq.trans ?_ hC'
    show _ = ((outsAt0 m c t.val t.isLt).2.2.1 _ : EReal)
    rw [outsAt0_C m c t h0 h1]
  simp only [eA, eC]
  unfold tok mean
  have hw : ∀ cc : Fin 128, (iblk m c 2 t (ix2 e cc) : EReal) = WV m c e cc := fun cc => wblk_apply m c t e cc
  have hb : (iblk m c 3 t (ix1 e) : EReal) = BV m c e := bblk_apply m c t e
  simp only [hw, hb]

end Cert.KernelIdeal.Inv

end
-- ==== Proof.KFinal.lean ====
/-
  The output array after the whole grid.  The output window's block of image `b` is written back once, at the
  image's last tile, and holds the image's token array; the eight images' blocks tile the array, so the array
  ends as the token array of every scale, image, superpixel and feature.
-/
import proofs.«428727_j37907381354596_3_alg».proof.Proof.Gen.KernelIdeal.Frame
import proofs.«428727_j37907381354596_3_alg».proof.Proof.Spec
import proofs.«428727_j37907381354596_3_alg».proof.Proof.KBlocks
import proofs.«428727_j37907381354596_3_alg».proof.Proof.KInv

set_option maxRecDepth 16384

noncomputable section

namespace Cert.KernelIdeal.Final

open Cert.KernelIdeal Cert.KernelIdeal.Gen Cert.Spec Cert.KernelIdeal.Blocks Cert.KernelIdeal.Inv
open Idealize.ShloMosaic Idealize.ShloMosaic.TcCoe Idealize.ShloMosaic.ValueIdx Idealize.SL.Sem

variable (m : (ℓ : Loc nD τ sig) → Buf (Elt Ideal) ℓ)

/-- The token array, scale-major: entry (scale, image, superpixel, feature). -/
def TokArr (c : Dev nD) : Vec Ideal S4x8x1024x192 .f32 := fun j =>
  tok (XV m c) (SgV m c) (WV m c) (BV m c) ⟨(j 1).val, (j 1).isLt⟩ ⟨(j 0).val, (j 0).isLt⟩ ⟨(j 2).val, (j 2).isLt⟩ ⟨(j 3).val, (j 3).isLt⟩

/-- The token only depends on the values of its four indices. -/
theorem tok_congr (X : Fin 8 → Fin 128 → Fin 262144 → EReal) (Sg : Fin 8 → Fin 4 → Fin 262144 → BitVec 32)
    (W : Fin 192 → Fin 128 → EReal) (B : Fin 192 → EReal)
    {b b' : Fin 8} {s s' : Fin 4} {n n' : Fin 1024} {e e' : Fin 192}
    (hb : b.val = b'.val) (hs : s.val = s'.val) (hn : n.val = n'.val) (he : e.val = e'.val) :
    tok X Sg W B b s n e = tok X Sg W B b' s' n' e' := by
  obtain rfl := Fin.ext hb
  obtain rfl := Fin.ext hs
  obtain rfl := Fin.ext hn
  obtain rfl := Fin.ext he
  rfl

/-- The output window's printed index map over the grid: block (0, image, 0, 0). -/
theorem idx_facts4 : ∀ t : Fin cfg0.N,
    win0_4.index t (0 : Fin 4) = 0 ∧ win0_4.index t (1 : Fin 4) = t.val / 64
    ∧ win0_4.index t (2 : Fin 4) = 0 ∧ win0_4.index t (3 : Fin 4) = 0 :=
  (by decide +kernel : ∀ t : Fin grid0.N, _)

/-- At an image's last tile, entry (scale, 0, superpixel, feature) of the output block is the token array's entry
    at the index the block places it at: (scale, image, superpixel, feature). -/
theorem blk_point (c : Dev nD) (t : Fin cfg0.N) (h1 : t.val % 64 = 63) (s : Fin 4) (nn : Fin 1024) (e : Fin 192) :
    outAt m c t.val t.isLt (ix4 s 0 nn e) = TokArr m c (((cfg0.win 4).blk t).view.emb (ix4 s 0 nn e)) := by
  obtain ⟨e0, e1, e2, e3⟩ := idx_facts4 t
  refine (out_last m c t h1 s nn e).trans ?_
  unfold TokArr
  refine tok_congr _ _ _ _ ?_ ?_ ?_ ?_
  · show t.val / 64 = win0_4.index t (1 : Fin 4) * 1 + 1 * 0; omega
  · show s.val = win0_4.index t (0 : Fin 4) * 4 + 1 * s.val; omega
  · show nn.val = win0_4.index t (2 : Fin 4) * 1024 + 1 * nn.val; omega
  · show e.val = win0_4.index t (3 : Fin 4) * 192 + 1 * e.val; omega

/-- The same at every index of the block: its second coordinate ranges over one value. -/
theorem blk_point' (c : Dev nD) (t : Fin cfg0.N) (h1 : t.val % 64 = 63) (y : S4x1x1024x192.Idx) :
    outAt m c t.val t.isLt y = TokArr m c (((cfg0.win 4).blk t).view.emb y) := by
  have ey := eq_ix4 y
  have hz : @Eq (Fin 1) (y 1) 0 := Fin.fin_one_eq_zero _
  rw [hz] at ey
  rw [ey]
  exact blk_point m c t h1 (y 0) (y 2) (y 3)

/-- What an image's last tile writes back is the image's block of the token array. -/
theorem flushed4_eq (c : Dev nD) (t : Fin cfg0.N) (hf : (cfg0.win 4).flush t = true) :
    (dats m 0 c).flushed 4 t = ((cfg0.win 4).blk t).view.read (Elt Ideal) (TokArr m c) := by
  have h1 : t.val % 64 = 63 := (flush0_4 t).mp hf
  show (cfg0.win 4).cut (grid0.coords t) ((dats m 0 c).after 4 t) = _
  rw [after0_4]
  funext y
  exact blk_point' m c t h1 y

/-- An index of the array is in point `t`'s block iff each coordinate is in the block's range on its axis. -/
theorem mem_blk4 (t : Fin cfg0.N) (i : S4x8x1024x192.Idx) :
    i ∈ ((cfg0.win 4).blk t).view.set ↔ ∀ a : Fin 4, win0_4.index t a * S4x1x1024x192.size a ≤ (i a).val ∧ (i a).val < win0_4.index t a * S4x1x1024x192.size a + S4x1x1024x192.size a := by
  show i ∈ ((View.whole main_v3).slice (win0_4.rect t)).set ↔ _
  rw [View.set_slice_whole, Rect.mem_set_unit]
  exact Iff.rfl

/-- Every index (scale, image, superpixel, feature) of the array lies in the block written back at the image's last
    tile, grid point 64 · image + 63. -/
theorem cover4 (i : S4x8x1024x192.Idx) :
    ∃ t : Fin cfg0.N, (cfg0.win 4).flush t = true ∧ i ∈ ((cfg0.win 4).blk t).view.set := by
  have hi0 : (i 0).val < 4 := (i 0).isLt
  have hi1 : (i 1).val < 8 := (i 1).isLt
  have hi2 : (i 2).val < 1024 := (i 2).isLt
  have hi3 : (i 3).val < 192 := (i 3).isLt
  have hN : cfg0.N = 512 := N_0
  obtain ⟨t, ht⟩ : ∃ t : Fin cfg0.N, t.val = 64 * (i 1).val + 63 :=
    ⟨⟨64 * (i 1).val + 63, lt_of_lt_of_eq (by omega) hN.symm⟩, rfl⟩
  obtain ⟨e0, e1, e2, e3⟩ := idx_facts4 t
  refine ⟨t, (flush0_4 t).mpr (by omega), ?_⟩
  rw [mem_blk4]
  intro a
  match a with
  | ⟨0, _⟩ => show win0_4.index t (0 : Fin 4) * 4 ≤ (i 0).val ∧ (i 0).val < win0_4.index t (0 : Fin 4) * 4 + 4; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 192 ≤ (i 3).val ∧ (i 3).val < win0_4.index t (3 : Fin 4) * 192 + 192; omega

/-- The output array ends as the token array. -/
theorem final4 (c : Dev nD) : (dats m 0 c).arrAt 4 cfg0.N = TokArr m c :=
  (dats m 0 c).arrAt_eq_of_cover 4 (TokArr m c) (fun t hf => flushed4_eq m c t hf) (cover4)

end Cert.KernelIdeal.Final

end
-- ==== Proof.KTail.lean ====
/-
  The host lines around the region.  Before it: the images are reshaped to channel-major rows of 262144 pixels
  and the ids reshaped and transposed to one row a pixel, one column a scale.  After it: the class row (class
  token plus positional embedding, through the convolution and the bias) is computed once and each scale's token
  array is that row prepended to the scale's slice of the region's output.
-/
import proofs.«428727_j37907381354596_3_alg».proof.Proof.Gen.KernelIdeal.Frame
import proofs.«428727_j37907381354596_3_alg».proof.Proof.Spec
import proofs.«428727_j37907381354596_3_alg».proof.Proof.KBlocks
import proofs.«428727_j37907381354596_3_alg».proof.Proof.KInv
import proofs.«428727_j37907381354596_3_alg».proof.Proof.KFinal
import Idealize.ShloMosaic.Lib.StableHlo.Run
import Idealize.ShloMosaic.Lib.ValueLayout

set_option maxRecDepth 16384

noncomputable section

namespace Cert.KernelIdeal.Tail

open Cert.KernelIdeal Cert.KernelIdeal.Gen Cert.Spec Cert.KernelIdeal.Blocks Cert.KernelIdeal.Inv Cert.KernelIdeal.Final
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-! ## The lines before the region -/

/-- The image array the region finds is the flattening of the image argument. -/
theorem xarr_host (c : Dev nD) :
    (xarr m c : S8x128x262144.Idx → EReal)
      = shapeCast _ (m ((c.tc : Thread nD τ).loc main_arg0)) shapeCasts_S8x128x512x512_S8x128x262144 := by
  show StableHlo.after hostOps0 (fun b => m (c, b)) (Proc.devRef .tc main_v0) = _
  after_results
  rfl

/-- Pixel `p` of the flattened image is row `p / 512`, column `p % 512`. -/
theorem xarr_apply (c : Dev nD) (b : Fin 8) (ch : Fin 128) (p : Fin 262144) :
    (xarr m c (ix3 b ch p) : EReal)
      = m ((c.tc : Thread nD τ).loc main_arg0)
          (ix4 b ch ⟨p.val / 512, by have := p.isLt; omega⟩ ⟨p.val % 512, Nat.mod_lt _ (by decide)⟩) := by
  rw [xarr_host]
  refine shapeCast_apply _ shapeCasts_S8x128x512x512_S8x128x262144 (ix3 b ch p) _ ?_
  rewrite [Shape.rowMajor_val_four, Shape.rowMajor_val_three]
  have h0 := b.isLt; have h1 := ch.isLt; have h2 := p.isLt
  show ((b.val * 128 + ch.val) * 512 + p.val / 512) * 512 + p.val % 512 = (b.val * 128 + ch.val) * 262144 + p.val
  omega

/-- The id array the region finds is the flattening of the id argument with the scale axis moved last. -/
theorem sarr_host (c : Dev nD) :
    (sarr m c : S8x262144x4.Idx → BitVec 32)
      = transpose S8x262144x4 [0, 2, 1]
          (shapeCast S8x4x262144 (m ((c.tc : Thread nD τ).loc main_arg1)) shapeCasts_S8x4x512x512_S8x4x262144)
          transposes_S8x4x262144_S8x262144x4_0_2_1 := by
  show StableHlo.after hostOps0 (fun b => m (c, b)) (Proc.devRef .tc main_v2) = _
  after_results
  rfl

theorem sarr_apply (c : Dev nD) (b : Fin 8) (p : Fin 262144) (s : Fin 4) :
    (sarr m c (ix3 b p s) : BitVec 32)
      = m ((c.tc : Thread nD τ).loc main_arg1)
          (ix4 b s ⟨p.val / 512, by have := p.isLt; omega⟩ ⟨p.val % 512, Nat.mod_lt _ (by decide)⟩) := by
  rw [sarr_host]
  refine (transpose_apply [0, 2, 1] _ transposes_S8x4x262144_S8x262144x4_0_2_1 (ix3 b p s) (ix3 b s p) (fun a => match a with
    | ⟨0, _⟩ => rfl
    | ⟨1, _⟩ => rfl
    | ⟨2, _⟩ => rfl)).trans ?_
  refine shapeCast_apply _ shapeCasts_S8x4x512x512_S8x4x262144 (ix3 b s p) _ ?_
  rewrite [Shape.rowMajor_val_four, Shape.rowMajor_val_three]
  have h0 := b.isLt; have h1 := s.isLt; have h2 := p.isLt
  show ((b.val * 4 + s.val) * 512 + p.val / 512) * 512 + p.val % 512 = (b.val * 4 + s.val) * 262144 + p.val
  omega

/-- The image array the region finds is the argument, pixels flattened. -/
theorem XV_eq (c : Dev nD) : XV m c = Xof (m ((c.tc : Thread nD τ).loc main_arg0)) := by
  funext b ch p
  exact xarr_apply m c b ch p

/-- The id array the region finds is the argument, pixels flattened and the scale axis moved last. -/
theorem SgV_eq (c : Dev nD) : SgV m c = Sgof (m ((c.tc : Thread nD τ).loc main_arg1)) := by
  funext b s p
  exact sarr_apply m c b p s

/-- The weights and the bias the region finds are the arguments. -/
theorem WV_eq (c : Dev nD) : WV m c = fun e ch => (m ((c.tc : Thread nD τ).loc main_arg4)) (ix2 e ch) := by
  funext e ch
  exact congrFun (V_main_arg4 m c) (ix2 e ch)

theorem BV_eq (c : Dev nD) : BV m c = fun e => (m ((c.tc : Thread nD τ).loc main_arg5)) (ix1 e) := by
  funext e
  exact congrFun (V_main_arg5 m c) (ix1 e)

/-! ## The class row -/

theorem lhs_cls_0 (i : S1x192.Idx) (q : dot_S1x128_S128x192_S1x192_1_0_0_1_n_n.contr.Idx) :
    (dot_S1x128_S128x192_S1x192_1_0_0_1_n_n.lhsIdx i q 0).val = (i 0).val := by
  unfold DotDims.lhsIdx
  rw [dif_neg (show ¬(0 : Fin S1x128.rank) ∈ dot_S1x128_S128x192_S1x192_1_0_0_1_n_n.lhsBatch by decide), dif_pos (show (0 : Fin S1x128.rank) ∈ dot_S1x128_S128x192_S1x192_1_0_0_1_n_n.lhsNonContracting by decide)]
  rfl
theorem lhs_cls_1 (i : S1x192.Idx) (q : dot_S1x128_S128x192_S1x192_1_0_0_1_n_n.contr.Idx) :
    (dot_S1x128_S128x192_S1x192_1_0_0_1_n_n.lhsIdx i q 1).val = (q ⟨0, by decide⟩).val :=
  dot_S1x128_S128x192_S1x192_1_0_0_1_n_n.lhsIdx_val_of_single rfl i q
theorem rhs_cls_0 (i : S1x192.Idx) (q : dot_S1x128_S128x192_S1x192_1_0_0_1_n_n.contr.Idx) :
    (dot_S1x128_S128x192_S1x192_1_0_0_1_n_n.rhsIdx i q 0).val = (q ⟨0, by decide⟩).val :=
  dot_S1x128_S128x192_S1x192_1_0_0_1_n_n.rhsIdx_val_of_single rfl i q
theorem rhs_cls_1 (i : S1x192.Idx) (q : dot_S1x128_S128x192_S1x192_1_0_0_1_n_n.contr.Idx) :
    (dot_S1x128_S128x192_S1x192_1_0_0_1_n_n.rhsIdx i q 1).val = (i 1).val := by
  unfold DotDims.rhsIdx
  rw [dif_neg (show ¬(1 : Fin S128x192.rank) ∈ dot_S1x128_S128x192_S1x192_1_0_0_1_n_n.rhsBatch by decide), dif_pos (show (1 : Fin S128x192.rank) ∈ dot_S1x128_S128x192_S1x192_1_0_0_1_n_n.rhsNonContracting by decide)]
  rfl

/-- The host's product of a row of 128 by a 128 × 192 matrix, at a column: the sum over the 128 channels. -/
theorem dot_cls_apply (l : FVec Ideal S1x128 .bf16) (r : FVec Ideal S128x192 .bf16)
    (z : Fin 1) (e : Fin 192) :
    (Host.dotGeneral (F := Ideal) dot_S1x128_S128x192_S1x192_1_0_0_1_n_n none l r : FVec Ideal S1x192 .f32) (ix2 z e)
      = ∑ k : Fin 128, (l (ix2 z k) : EReal) * (r (ix2 k e) : EReal) := by
  simp only [Host.dotGeneral]
  rw [Ideal.dotGeneral_apply, ← Equiv.sum_comp (ValueIdx.contrEquiv1 dot_S1x128_S128x192_S1x192_1_0_0_1_n_n 128 rfl rfl).symm]
  refine Finset.sum_congr rfl fun k _ => ?_
  have hk := ValueIdx.contrEquiv1_symm_val dot_S1x128_S128x192_S1x192_1_0_0_1_n_n 128 rfl rfl k
  have el : dot_S1x128_S128x192_S1x192_1_0_0_1_n_n.lhsIdx (ix2 z e) ((ValueIdx.contrEquiv1 dot_S1x128_S128x192_S1x192_1_0_0_1_n_n 128 rfl rfl).symm k) = ix2 z k := funext fun a => Fin.ext (by
    match a with
    | ⟨0, _⟩ => exact lhs_cls_0 _ _
    | ⟨1, _⟩ => exact (lhs_cls_1 _ _).trans hk)
  have er : dot_S1x128_S128x192_S1x192_1_0_0_1_n_n.rhsIdx (ix2 z e) ((ValueIdx.contrEquiv1 dot_S1x128_S128x192_S1x192_1_0_0_1_n_n 128 rfl rfl).symm k) = ix2 k e := funext fun a => Fin.ext (by
    match a with
    | ⟨0, _⟩ => exact (rhs_cls_0 _ _).trans hk
    | ⟨1, _⟩ => exact rhs_cls_1 _ _)
  rw [el, er]

/-- The class row as the host lines compute it from the class token, its positional embedding, the weights and the
    bias: one row of 192 features, repeated for the eight images. -/
def clsChain (a2 a3 : FVec Ideal S1x128 .f32) (a4 : FVec Ideal S192x128 .f32)
    (a5 : FVec Ideal S192 .f32) : FVec Ideal S8x1x192 .f32 :=
  broadcastInDim S8x1x192 ![0, 1, 2] bcast_S1x1x192_S8x1x192_0_1_2
    (broadcastInDim S1x1x192 ![1, 2] bcast_S1x192_S1x1x192_1_2
      (addf (F := Ideal)
        (Host.dotGeneral (F := Ideal) dot_S1x128_S128x192_S1x192_1_0_0_1_n_n none
          (truncf (F := Ideal) FTy.bf16 (addf (F := Ideal) a2 a3) bitsLt_bf16_f32)
          (truncf (F := Ideal) FTy.bf16 (transpose S128x192 [1, 0] a4 transposes_S192x128_S128x192_1_0) bitsLt_bf16_f32))
        (broadcastInDim S1x192 ![1] bcast_S192_S1x192_1 a5)))

/-- Every entry of the class row is the class token's feature: the convolution of class token plus positional
    embedding over the channels, plus the bias. -/
theorem clsChain_apply (a2 a3 : FVec Ideal S1x128 .f32) (a4 : FVec Ideal S192x128 .f32)
    (a5 : FVec Ideal S192 .f32) (b : Fin 8) (z : Fin 1) (e : Fin 192) :
    (clsChain a2 a3 a4 a5 (ix3 b z e) : EReal)
      = clsTok (fun k => a2 (ix2 0 k)) (fun k => a3 (ix2 0 k)) (fun e k => a4 (ix2 e k)) (fun e => a5 (ix1 e)) e := by
  unfold clsChain clsTok
  refine (broadcastInDim_apply _ bcast_S1x1x192_S8x1x192_0_1_2 _ (ix3 b z e) (ix3 0 0 e) (fun a => match a with
    | ⟨0, _⟩ => by show 0 = if (1 : Nat) = 1 then 0 else b.val; rw [if_pos rfl]
    | ⟨1, _⟩ => by show 0 = if (1 : Nat) = 1 then 0 else z.val; rw [if_pos rfl]
    | ⟨2, _⟩ => by show e.val = if (192 : Nat) = 1 then 0 else e.val; rw [if_neg (by decide)])).trans ?_
  refine (broadcastInDim_apply _ bcast_S1x192_S1x1x192_1_2 _ (ix3 0 0 e) (ix2 0 e) (fun a => match a with
    | ⟨0, _⟩ => by show 0 = if (1 : Nat) = 1 then 0 else 0; rw [if_pos rfl]
    | ⟨1, _⟩ => by show e.val = if (192 : Nat) = 1 then 0 else e.val; rw [if_neg (by decide)])).trans ?_
  rw [addf_apply, dot_cls_apply]
  congr 1
  · refine Finset.sum_congr rfl fun k _ => ?_
    rw [truncf_apply, truncf_apply, addf_apply]
    congr 1
    exact transpose_apply [1, 0] a4 transposes_S192x128_S128x192_1_0 (ix2 k e) (ix2 e k) (fun a => match a with
      | ⟨0, _⟩ => rfl
      | ⟨1, _⟩ => rfl)
  · exact broadcastInDim_apply _ bcast_S192_S1x192_1 a5 (ix2 0 e) (ix1 e) (fun a => match a with
      | ⟨0, _⟩ => by show e.val = if (192 : Nat) = 1 then 0 else e.val; rw [if_neg (by decide)])

/-! ## The class row prepended to a scale's slice -/

/-- The class row prepended to scale `s`'s slice of a scale-major array, read at (image, row, feature): row 0 is
    the class row, row `r` ≥ 1 is row `r - 1` of the slice. -/
theorem concat_apply (row : FVec Ideal S8x1x192 .f32) (y : FVec Ideal S4x8x1024x192 .f32)
    (off : Fin S4x8x1024x192.rank → ℕ) (h : S4x8x1024x192.Slices off S1x8x1024x192) (s : Fin 4)
    (h0 : off 0 = s.val) (h1 : off 1 = 0) (h2 : off 2 = 0) (h3 : off 3 = 0)
    (b : Fin 8) (r : Fin 1025) (e : Fin 192) :
    (concatenate S8x1025x192 1
        [⟨S8x1x192, row⟩,
         ⟨S8x1024x192, shapeCast S8x1024x192 (extractStridedSlice S1x8x1024x192 off y h) shapeCasts_S1x8x1024x192_S8x1024x192⟩]
        concatenates_S8x1x192_S8x1024x192_S8x1025x192_d1 (ix3 b r e) : EReal)
      = if hr : r.val = 0 then row (ix3 b 0 e)
        else y (ix4 s b ⟨r.val - 1, by have := r.isLt; omega⟩ e) := by
  have hlt := r.isLt
  by_cases hr : r.val = 0
  · rw [dif_pos hr]
    exact concatenate_pair_apply_left 1 row _ concatenates_S8x1x192_S8x1024x192_S8x1025x192_d1 (ix3 b r e) rfl (ix3 b 0 e)
      (fun a => match a with
        | ⟨0, _⟩ => rfl
        | ⟨1, _⟩ => hr.symm
        | ⟨2, _⟩ => rfl)
  · rw [dif_neg hr]
    refine (concatenate_pair_apply_right 1 row _ concatenates_S8x1x192_S8x1024x192_S8x1025x192_d1 (ix3 b r e) rfl rfl
      (ix3 b ⟨r.val - 1, by omega⟩ e)
      (fun a => match a with
        | ⟨0, _⟩ => fun _ => rfl
        | ⟨1, _⟩ => fun hne => absurd rfl hne
        | ⟨2, _⟩ => fun _ => rfl)
      (show r.val - 1 + 1 = r.val by omega)).trans ?_
    refine (shapeCast_apply _ shapeCasts_S1x8x1024x192_S8x1024x192 (ix3 b ⟨r.val - 1, by omega⟩ e)
      (ix4 0 b ⟨r.val - 1, by omega⟩ e) ?_).trans ?_
    · rewrite [Shape.rowMajor_val_four, Shape.rowMajor_val_three]
      show ((0 * 8 + b.val) * 1024 + (r.val - 1)) * 192 + e.val = (b.val * 1024 + (r.val - 1)) * 192 + e.val
      omega
    · exact extractStridedSlice_apply off y h (ix4 0 b ⟨r.val - 1, by omega⟩ e) (ix4 s b ⟨r.val - 1, by omega⟩ e)
        (fun a => match a with
          | ⟨0, _⟩ => by show s.val = off 0 + 0; omega
          | ⟨1, _⟩ => by show b.val = off 1 + b.val; omega
          | ⟨2, _⟩ => by show r.val - 1 = off 2 + (r.val - 1); omega
          | ⟨3, _⟩ => by show e.val = off 3 + e.val; omega)

/-! ## What the lines after the region find, and the four scales -/

theorem tail_arg2 (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne _ c (V0 m c) _ main_arg2 (by exact (by decide : ∀ w, Pipeline.arrRef spec0 w ≠ main_arg2))).trans
    (V_main_arg2 m c)
theorem tail_arg3 (c : Dev nD) :
    Pipeline.withArrays (cfgs 0).spec c (V0 m c) (fun w => (dats m 0 c).arrAt w (cfgs 0).N) (Proc.devRef .tc main_arg3)
      = m ((c.tc : Thread nD τ).loc main_arg3) :=
  (Pipeline.withArrays_of_ne _ c (V0 m c) _ main_arg3 (by exact (by decide : ∀ w, Pipeline.arrRef spec0 w ≠ main_arg3))).trans
    (V_main_arg3 m c)
theorem tail_arg4 (c : Dev nD) :
    Pipeline.withArrays (cfgs 0).spec c (V0 m c) (fun w => (dats m 0 c).arrAt w (cfgs 0).N) (Proc.devRef .tc main_arg4)
      = m ((c.tc : Thread nD τ).loc main_arg4) :=
  (Pipeline.withArrays_arr spec0 launch0.win.arr_inj c _ _ 2).trans
    (((dats m 0 c).arrAt_in 2 rfl cfg0.N).trans ((A_eq m c 2).trans (V_main_arg4 m c)))
theorem tail_arg5 (c : Dev nD) :
    Pipeline.withArrays (cfgs 0).spec c (V0 m c) (fun w => (dats m 0 c).arrAt w (cfgs 0).N) (Proc.devRef .tc main_arg5)
      = m ((c.tc : Thread nD τ).loc main_arg5) :=
  (Pipeline.withArrays_arr spec0 launch0.win.arr_inj c _ _ 3).trans
    (((dats m 0 c).arrAt_in 3 rfl cfg0.N).trans ((A_eq m c 3).trans (V_main_arg5 m c)))
/-- The region's output array is the token array. -/
theorem tail_v3 (c : Dev nD) :
    Pipeline.withArrays (cfgs 0).spec c (V0 m c) (fun w => (dats m 0 c).arrAt w (cfgs 0).N) (Proc.devRef .tc main_v3)
      = TokArr m c :=
  (Pipeline.withArrays_arr spec0 launch0.win.arr_inj c _ _ 4).trans (final4 m c)

/-- The class row prepended to scale `s`'s slice of the token array is the specification's token array of scale `s`. -/
theorem tail_scale (c : Dev nD) (off : Fin S4x8x1024x192.rank → ℕ) (h : S4x8x1024x192.Slices off S1x8x1024x192) (s : Fin 4)
    (h0 : off 0 = s.val) (h1 : off 1 = 0) (h2 : off 2 = 0) (h3 : off 3 = 0) :
    concatenate S8x1025x192 1
        [⟨S8x1x192, clsChain (m ((c.tc : Thread nD τ).loc main_arg2)) (m ((c.tc : Thread nD τ).loc main_arg3))
            (m ((c.tc : Thread nD τ).loc main_arg4)) (m ((c.tc : Thread nD τ).loc main_arg5))⟩,
         ⟨S8x1024x192, shapeCast S8x1024x192 (extractStridedSlice S1x8x1024x192 off (TokArr m c) h) shapeCasts_S1x8x1024x192_S8x1024x192⟩]
        concatenates_S8x1x192_S8x1024x192_S8x1025x192_d1
      = GArr s (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext j
  obtain ⟨b, r, e, rfl⟩ : ∃ (b : Fin 8) (r : Fin 1025) (e : Fin 192), j = ix3 b r e := ⟨j 0, j 1, j 2, eq_ix3 j⟩
  refine (concat_apply _ _ off h s h0 h1 h2 h3 b r e).trans ?_
  unfold GArr G
  by_cases hr : r.val = 0
  · rw [dif_pos hr, dif_pos (show (⟨(ix3 b r e 1).val, (ix3 b r e 1).isLt⟩ : Fin 1025).val = 0 from hr)]
    exact clsChain_apply _ _ _ _ b 0 e
  · rw [dif_neg hr, dif_neg (show ¬ (⟨(ix3 b r e 1).val, (ix3 b r e 1).isLt⟩ : Fin 1025).val = 0 from hr)]
    unfold TokArr
    rw [XV_eq, SgV_eq, WV_eq, BV_eq]

/-- After the lines that follow the region, each scale's result is the specification's token array. -/
theorem tail_v15 (c : Dev nD) :
    Pipeline.afterTail₀ cfgs (dats m) 0 (V0 m) [hostOps1] c main_v15 = GArr 0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v15) = _
  after_results
  rw [tail_arg2, tail_arg3, tail_arg4, tail_arg5, tail_v3]
  exact tail_scale m c ![0, 0, 0, 0] slices_S4x8x1024x192_S1x8x1024x192_0_0_0_0 0 rfl rfl rfl rfl

theorem tail_v18 (c : Dev nD) :
    Pipeline.afterTail₀ cfgs (dats m) 0 (V0 m) [hostOps1] c main_v18 = GArr 1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v18) = _
  after_results
  rw [tail_arg2, tail_arg3, tail_arg4, tail_arg5, tail_v3]
  exact tail_scale m c ![1, 0, 0, 0] slices_S4x8x1024x192_S1x8x1024x192_1_0_0_0 1 rfl rfl rfl rfl

theorem tail_v21 (c : Dev nD) :
    Pipeline.afterTail₀ cfgs (dats m) 0 (V0 m) [hostOps1] c main_v21 = GArr 2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v21) = _
  after_results
  rw [tail_arg2, tail_arg3, tail_arg4, tail_arg5, tail_v3]
  exact tail_scale m c ![2, 0, 0, 0] slices_S4x8x1024x192_S1x8x1024x192_2_0_0_0 2 rfl rfl rfl rfl

theorem tail_v24 (c : Dev nD) :
    Pipeline.afterTail₀ cfgs (dats m) 0 (V0 m) [hostOps1] c main_v24 = GArr 3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v24) = _
  after_results
  rw [tail_arg2, tail_arg3, tail_arg4, tail_arg5, tail_v3]
  exact tail_scale m c ![3, 0, 0, 0] slices_S4x8x1024x192_S1x8x1024x192_3_0_0_0 3 rfl rfl rfl rfl

end Cert.KernelIdeal.Tail

end
-- ==== Proof.KRun.lean ====
/-
  The idealized kernel's run with its results named: every weakly fair execution terminates with each scale's
  result at the specification's token array of the arguments, the ids handed back as they came, and the
  arguments unchanged.  The frame run gives every buffer after the lines that follow the region; the four
  results are read there.
-/
import proofs.«428727_j37907381354596_3_alg».proof.Proof.Gen.KernelIdeal.Frame
import proofs.«428727_j37907381354596_3_alg».proof.Proof.Spec
import proofs.«428727_j37907381354596_3_alg».proof.Proof.KFinal
import proofs.«428727_j37907381354596_3_alg».proof.Proof.KTail

set_option maxRecDepth 16384

noncomputable section

namespace Cert.KernelIdeal.KRun

open Cert.KernelIdeal Cert.KernelIdeal.Gen Cert.Spec Cert.KernelIdeal.Tail
open Idealize.ShloMosaic Idealize.ShloMosaic.TcCoe Idealize.ShloMosaic.ValueIdx Idealize.SL.Sem

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v15) = GArr 0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v18) = GArr 1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v21) = GArr 2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v24) = GArr 3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v15 (Pipeline.mem_restRefs_of main_v15 (by decide) (by decide))).trans (tail_v15 m c),
      ((h c).2 main_v18 (Pipeline.mem_restRefs_of main_v18 (by decide) (by decide))).trans (tail_v18 m c),
      ((h c).2 main_v21 (Pipeline.mem_restRefs_of main_v21 (by decide) (by decide))).trans (tail_v21 m c),
      ((h c).2 main_v24 (Pipeline.mem_restRefs_of main_v24 (by decide) (by decide))).trans (tail_v24 m c),
      ((h c).2 main_arg1 (Pipeline.mem_restRefs_of main_arg1 (by decide) (by decide))).trans (W_main_arg1 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c)))⟩)
    (run_main m ρ)

end Cert.KernelIdeal.KRun

end
-- ==== Proof.RefScatter.lean ====
/-
  The reference's two accumulating scatters read at an index.  Row `i` of the result is the operand's row plus
  the sum of the update rows `r` whose scatter index, read signed, is `i`: an index outside the operand's 8192
  rows lands nowhere, and the window is one row wide, so on the channel axis an update's entry lands at its own
  channel.
-/
import proofs.«428727_j37907381354596_3_alg».proof.Proof.Gen.ReferenceIdeal.Read
import proofs.«428727_j37907381354596_3_alg».proof.Proof.Spec
import Idealize.ShloMosaic.Lib.ValueIdxRank1

set_option maxRecDepth 16384

noncomputable section

namespace Cert.ReferenceIdeal.RefValue

open Cert.ReferenceIdeal Cert.ReferenceIdeal.Gen Cert.Spec
open Idealize.ShloMosaic Idealize.ShloMosaic.TcCoe Idealize.ShloMosaic.ValueIdx Idealize.SL.Sem Idealize.ShloMosaic.StableHlo

/-! ## The row-and-channel scatter: operand 8192 × 128, one index word per update row, updates 2097152 × 128 -/

local notation "d1" => scatter_S8192x128_S2097152x1_S2097152x128_1_0_0_1

/-- Update index `j` reads its one start-index component at row `j 0` of the index array: the update's row
    coordinate goes on the index array's row axis, the component number (always 0: the index vector has length 1)
    on its second axis. -/
theorem scatterSum_siIdx (j : S2097152x128.Idx) (c : Fin (d1).scatterDimsToOperandDims.length) :
    (d1).siIdx j c = ix2 (j 0) 0 := by
  funext b
  match b with
  | ⟨0, _⟩ => rfl
  | ⟨1, _⟩ =>
    apply Fin.ext
    have := c.isLt
    show c.val = 0
    have h : (d1).scatterDimsToOperandDims.length = 1 := rfl
    omega

/-- On the row axis (the one scattered axis) the window starts at the index word of the update's row, read signed. -/
theorem scatterSum_start0 (j : S2097152x128.Idx) (idx : IVec S2097152x1 32) :
    (d1).start j idx 0 = (idx (ix2 (j 0) 0)).toInt := by
  unfold ScatterDims.start
  rw [dif_pos (by decide)]
  exact congrArg (fun v => (idx v).toInt) (scatterSum_siIdx j _)

/-- The channel axis is not scattered: the window starts at 0 there. -/
theorem scatterSum_start1 (j : S2097152x128.Idx) (idx : IVec S2097152x1 32) :
    (d1).start j idx 1 = 0 := by
  rfl

/-- The row axis is an inserted window axis: the window coordinate is 0 there. -/
theorem scatterSum_window0 (j : S2097152x128.Idx) : (d1).window j 0 = 0 := by
  rfl

/-- On the channel axis the window coordinate is the update's own channel. -/
theorem scatterSum_window1 (j : S2097152x128.Idx) : (d1).window j 1 = (j 1).val := by
  rfl

/-- Update `j` lands at row `i`, channel `k` exactly when its row's index word, read signed, is `i` and its channel
    is `k` (being equal to `i < 8192` already puts the start inside the operand). -/
theorem scatterSum_resultIdx_iff (j : S2097152x128.Idx) (idx : IVec S2097152x1 32) (i : Fin 8192) (k : Fin 128) :
    (d1).resultIdx? j idx = some (ix2 i k) ↔ ((idx (ix2 (j 0) 0)).toInt = (i.val : Int) ∧ (j 1).val = k.val) := by
  unfold ScatterDims.resultIdx?
  constructor
  · intro h
    split at h
    · rename_i hall
      have h' := Option.some.inj h
      have h0 := congrArg (fun f => (f 0).val) h'
      have h1 := congrArg (fun f => (f 1).val) h'
      simp only [scatterSum_start0, scatterSum_start1, scatterSum_window0, scatterSum_window1] at h0 h1
      have a0 := (hall 0).1
      rw [scatterSum_start0, scatterSum_window0] at a0
      constructor
      · show _ = ((i : Nat) : Int)
        have : ((ix2 i k : S8192x128.Idx) 0).val = i.val := rfl
        omega
      · have : ((ix2 i k : S8192x128.Idx) 1).val = k.val := rfl
        omega
    · exact absurd h (by simp)
  · rintro ⟨h0, h1⟩
    have hi := i.isLt
    have hk := k.isLt
    have hall : ∀ a, 0 ≤ (d1).start j idx a + (d1).window j a ∧ (d1).start j idx a + (d1).window j a < S8192x128.size a := by
      intro a
      match a with
      | ⟨0, _⟩ =>
        show 0 ≤ (d1).start j idx 0 + (d1).window j 0 ∧ (d1).start j idx 0 + (d1).window j 0 < ((8192 : Nat) : Int)
        rw [scatterSum_start0, scatterSum_window0, h0]; omega
      | ⟨1, _⟩ =>
        show 0 ≤ (d1).start j idx 1 + (d1).window j 1 ∧ (d1).start j idx 1 + (d1).window j 1 < ((128 : Nat) : Int)
        rw [scatterSum_start1, scatterSum_window1, h1]; omega
    rw [dif_pos hall]
    congr 1
    funext a
    match a with
    | ⟨0, _⟩ =>
      apply Fin.ext
      show ((d1).start j idx 0 + (d1).window j 0).toNat = i.val
      rw [scatterSum_start0, scatterSum_window0, h0]; omega
    | ⟨1, _⟩ =>
      apply Fin.ext
      show ((d1).start j idx 1 + (d1).window j 1).toNat = k.val
      rw [scatterSum_start1, scatterSum_window1, h1]; omega

/-- The sum over the updates landing at (`i`, `k`) is split by update row `r` and channel `b`; within a row only
    channel `b = k` can land there, and it does exactly when the row's index word is `i`. -/
theorem scatterSum_apply (x : FVec Ideal S8192x128 .f32) (idx : IVec S2097152x1 32) (upd : FVec Ideal S2097152x128 .f32)
    (i : Fin 8192) (k : Fin 128) :
    (Host.scatterAdd (F := Ideal) scatter_S8192x128_S2097152x1_S2097152x128_1_0_0_1 x idx upd (ix2 i k) : EReal)
      = (x (ix2 i k) : EReal)
        + ∑ r : Fin 2097152, if (idx (ix2 r 0)).toInt = (i.val : Int) then (upd (ix2 r k) : EReal) else 0 := by
  unfold Host.scatterAdd
  rw [Ideal.hostScatterAdd_def]
  unfold Ideal.hostScatterAdd
  refine congrArg (fun t : EReal => (x (ix2 i k) : EReal) + t) ?_
  rw [Finset.sum_filter, sum_idx2]
  refine Finset.sum_congr rfl fun r _ => ?_
  simp only [scatterSum_resultIdx_iff]
  show (∑ b : Fin 128, if (idx (ix2 r 0)).toInt = (i.val : Int) ∧ b.val = k.val then upd (ix2 r b) else 0) = _
  by_cases h : (idx (ix2 r 0)).toInt = (i.val : Int)
  · simp only [h, true_and, if_true, Fin.val_inj]
    rw [Finset.sum_ite_eq' Finset.univ k]
    simp
  · simp only [h, false_and, if_false]
    exact Finset.sum_const_zero

/-! ## The row scatter: operand 8192, one index word per update, updates 2097152 -/

local notation "d2" => scatter_S8192_S2097152x1_S2097152_n_0_0_1

/-- Update `j` reads its one start-index component at row `j 0` of the index array. -/
theorem scatterCnt_siIdx (j : S2097152.Idx) (c : Fin (d2).scatterDimsToOperandDims.length) :
    (d2).siIdx j c = ix2 (j 0) 0 := by
  funext b
  match b with
  | ⟨0, _⟩ => rfl
  | ⟨1, _⟩ =>
    apply Fin.ext
    have := c.isLt
    show c.val = 0
    have h : (d2).scatterDimsToOperandDims.length = 1 := rfl
    omega

/-- On the operand's one axis the window starts at the update's index word, read signed. -/
theorem scatterCnt_start0 (j : S2097152.Idx) (idx : IVec S2097152x1 32) :
    (d2).start j idx 0 = (idx (ix2 (j 0) 0)).toInt := by
  unfold ScatterDims.start
  rw [dif_pos (by decide)]
  exact congrArg (fun v => (idx v).toInt) (scatterCnt_siIdx j _)

/-- The operand's one axis is an inserted window axis: the window coordinate is 0. -/
theorem scatterCnt_window0 (j : S2097152.Idx) : (d2).window j 0 = 0 := by
  rfl

/-- Update `j` lands at row `i` exactly when its index word, read signed, is `i`. -/
theorem scatterCnt_resultIdx_iff (j : S2097152.Idx) (idx : IVec S2097152x1 32) (i : Fin 8192) :
    (d2).resultIdx? j idx = some (ix1 i) ↔ (idx (ix2 (j 0) 0)).toInt = (i.val : Int) := by
  unfold ScatterDims.resultIdx?
  constructor
  · intro h
    split at h
    · rename_i hall
      have h' := Option.some.inj h
      have h0 := congrArg (fun f => (f 0).val) h'
      simp only [scatterCnt_start0, scatterCnt_window0] at h0
      have a0 := (hall 0).1
      rw [scatterCnt_start0, scatterCnt_window0] at a0
      show _ = ((i : Nat) : Int)
      have : ((ix1 i : S8192.Idx) 0).val = i.val := rfl
      omega
    · exact absurd h (by simp)
  · intro h0
    have hi := i.isLt
    have hall : ∀ a, 0 ≤ (d2).start j idx a + (d2).window j a ∧ (d2).start j idx a + (d2).window j a < S8192.size a := by
      intro a
      match a with
      | ⟨0, _⟩ =>
        show 0 ≤ (d2).start j idx 0 + (d2).window j 0 ∧ (d2).start j idx 0 + (d2).window j 0 < ((8192 : Nat) : Int)
        rw [scatterCnt_start0, scatterCnt_window0, h0]; omega
    rw [dif_pos hall]
    congr 1
    funext a
    match a with
    | ⟨0, _⟩ =>
      apply Fin.ext
      show ((d2).start j idx 0 + (d2).window j 0).toNat = i.val
      rw [scatterCnt_start0, scatterCnt_window0, h0]; omega

/-- A rank-1 index set is its one coordinate's range, so a sum over it is the sum over the coordinate. -/
private theorem sum_idx1 {M : Type*} [AddCommMonoid M] {n : Nat} (f : (⟨1, ![n]⟩ : Shape).Idx → M) :
    ∑ j, f j = ∑ r : Fin n, f (ix1 r) := by
  rw [← Equiv.sum_comp (idxEquiv1 (n := n)).symm f]
  rfl

/-- The sum over the updates landing at row `i`, re-indexed by the update's one coordinate. -/
theorem scatterCnt_apply (x : FVec Ideal S8192 .f32) (idx : IVec S2097152x1 32) (upd : FVec Ideal S2097152 .f32)
    (i : Fin 8192) :
    (Host.scatterAdd (F := Ideal) scatter_S8192_S2097152x1_S2097152_n_0_0_1 x idx upd (ix1 i) : EReal)
      = (x (ix1 i) : EReal)
        + ∑ r : Fin 2097152, if (idx (ix2 r 0)).toInt = (i.val : Int) then (upd (ix1 r) : EReal) else 0 := by
  unfold Host.scatterAdd
  rw [Ideal.hostScatterAdd_def]
  unfold Ideal.hostScatterAdd
  refine congrArg (fun t : EReal => (x (ix1 i) : EReal) + t) ?_
  rw [Finset.sum_filter, sum_idx1]
  refine Finset.sum_congr rfl fun r _ => ?_
  simp only [scatterCnt_resultIdx_iff]

end Cert.ReferenceIdeal.RefValue

end
-- ==== Proof.RefSum.lean ====
/-
  Re-indexing a sum over the 8 · 262144 flattened pixels of a batch.  When only image `b`'s pixels contribute,
  the sum over all rows is the sum over that image's 64 tiles of the sum over a tile's 4096 pixels.
-/
import proofs.«428727_j37907381354596_3_alg».proof.Proof.Spec
import Mathlib.Algebra.BigOperators.Fin
import Mathlib.Algebra.BigOperators.Intervals
import Mathlib.Data.Fintype.BigOperators

noncomputable section

namespace Cert.Spec

/-- Row `b · 262144 + p` of the flattened batch: pixel `p` of image `b`. -/
def row (b : Fin 8) (p : Fin 262144) : Fin 2097152 := ⟨b.val * 262144 + p.val, by have := b.isLt; have := p.isLt; omega⟩

theorem row_val (b : Fin 8) (p : Fin 262144) : (row b p).val = b.val * 262144 + p.val := rfl

/-- The flattened rows are the pairs (image, pixel): a row `r` is pixel `r % 262144` of image `r / 262144`. -/
def rowEquiv : Fin 8 × Fin 262144 ≃ Fin 2097152 where
  toFun x := row x.1 x.2
  invFun r := (⟨r.val / 262144, by have := r.isLt; omega⟩, ⟨r.val % 262144, by omega⟩)
  left_inv x := by
    obtain ⟨a, p⟩ := x
    have ha := a.isLt
    have hp := p.isLt
    refine Prod.ext (Fin.ext ?_) (Fin.ext ?_)
    · show (a.val * 262144 + p.val) / 262144 = a.val
      omega
    · show (a.val * 262144 + p.val) % 262144 = p.val
      omega
  right_inv r := by
    refine Fin.ext ?_
    show r.val / 262144 * 262144 + r.val % 262144 = r.val
    omega

theorem rowEquiv_apply (a : Fin 8) (p : Fin 262144) : rowEquiv (a, p) = row a p := rfl

/-- The pixels of an image are the pairs (tile, pixel of the tile): pixel `p` is pixel `p % 4096` of tile
    `p / 4096`. -/
def tileEquiv : Fin 64 × Fin 4096 ≃ Fin 262144 where
  toFun x := pix x.1.val x.2
  invFun p := (⟨p.val / 4096, by have := p.isLt; omega⟩, ⟨p.val % 4096, by omega⟩)
  left_inv x := by
    obtain ⟨t, k⟩ := x
    have ht := t.isLt
    have hk := k.isLt
    have h := pix_val t.val ht k
    refine Prod.ext (Fin.ext ?_) (Fin.ext ?_)
    · show (pix t.val k).val / 4096 = t.val
      rw [h]
      omega
    · show (pix t.val k).val % 4096 = k.val
      rw [h]
      omega
  right_inv p := by
    have hp := p.isLt
    refine Fin.ext ?_
    show (pix (p.val / 4096) ⟨p.val % 4096, _⟩).val = p.val
    rw [pix_val _ (by omega)]
    show p.val / 4096 * 4096 + p.val % 4096 = p.val
    omega

theorem tileEquiv_apply (t : Fin 64) (k : Fin 4096) : tileEquiv (t, k) = pix t.val k := rfl

/-- A sum over the pixels of an image, tile by tile. -/
theorem sum_pixels_by_tile {M : Type*} [AddCommMonoid M] (g : Fin 262144 → M) :
    ∑ p : Fin 262144, g p = ∑ t ∈ Finset.range 64, ∑ k : Fin 4096, g (pix t k) := by
  rw [← Equiv.sum_comp tileEquiv g]
  rw [Finset.sum_range (fun t => ∑ k : Fin 4096, g (pix t k))]
  exact Fintype.sum_prod_type' (fun (t : Fin 64) (k : Fin 4096) => g (pix t.val k))

/-- A sum over all flattened rows, image by image. -/
theorem sum_rows_by_image {M : Type*} [AddCommMonoid M] (f : Fin 2097152 → M) :
    ∑ r : Fin 2097152, f r = ∑ a : Fin 8, ∑ p : Fin 262144, f (row a p) := by
  rw [← Equiv.sum_comp rowEquiv f]
  exact Fintype.sum_prod_type' (fun (a : Fin 8) (p : Fin 262144) => f (row a p))

/-- A sum over all flattened rows of a function that vanishes off image `b` is the sum over `b`'s tiles and
    each tile's pixels. -/
theorem sum_rows_of_image {M : Type*} [AddCommMonoid M] (f : Fin 2097152 → M) (b : Fin 8)
    (hf : ∀ r : Fin 2097152, r.val / 262144 ≠ b.val → f r = 0) :
    ∑ r : Fin 2097152, f r = ∑ t ∈ Finset.range 64, ∑ k : Fin 4096, f (row b (pix t k)) := by
  rw [sum_rows_by_image f]
  -- only image `b` contributes: every row of another image `a` has quotient `a ≠ b`
  rw [Fintype.sum_eq_single b]
  · exact sum_pixels_by_tile (fun p => f (row b p))
  · intro a hab
    refine Finset.sum_eq_zero ?_
    intro p _
    refine hf (row a p) ?_
    have ha := a.isLt
    have hp := p.isLt
    have hne : a.val ≠ b.val := fun h => hab (Fin.ext h)
    show (a.val * 262144 + p.val) / 262144 ≠ b.val
    omega

end Cert.Spec

end
-- ==== Proof.RefScale.lean ====
/-
  The reference's token array of each scale is the specification's.  Per scale the reference offsets the ids
  of image `b` by `1024 · b`, scatter-adds the pixels' channel rows (and ones) into 8192 rows, divides the sums by
  the larger of the count and one, prepends the class row and convolves.  With every id in `[0, 1024)` the offset
  id of a pixel of image `b'` is `1024 · b + n` exactly when `b' = b` and the id is `n`, so row `1024 · b + n`
  collects image `b`'s pixels of id `n`: the segment sum and count.
-/
import proofs.«428727_j37907381354596_3_alg».proof.Proof.Gen.ReferenceIdeal.Read
import proofs.«428727_j37907381354596_3_alg».proof.Proof.Spec
import proofs.«428727_j37907381354596_3_alg».proof.Proof.RefScatter
import proofs.«428727_j37907381354596_3_alg».proof.Proof.RefSum

set_option maxRecDepth 16384

noncomputable section

namespace Cert.ReferenceIdeal.RefValue

open Cert.ReferenceIdeal Cert.ReferenceIdeal.Gen Cert.Spec
open Idealize.ShloMosaic Idealize.ShloMosaic.TcCoe Idealize.ShloMosaic.ValueIdx Idealize.SL.Sem Idealize.ShloMosaic.StableHlo

/-- The float literal `1.0` is the extended real one. -/
theorem ofBits_one_f32 : Ideal.ofBits .f32 0x3F800000#32 = 1 := by
  simp [Ideal.ofBits, Ideal.ieee, -EReal.coe_mul]; norm_num

/-- An id in `[0, 1024)` offset by `1024 · c`, `c < 8`, does not wrap: read signed it is the id plus the offset. -/
theorem offset_toInt (a : BitVec 32) (h0 : 0 ≤ a.toInt) (h1 : a.toInt < 1024) (c : ℕ) (hc : c < 8) :
    (IntOp.addi a (IntOp.muli (BitVec.ofNat 32 c) 1024#32)).toInt = (a.toNat : ℤ) + 1024 * c ∧ a.toNat < 1024 := by
  unfold IntOp.addi IntOp.muli
  rw [BitVec.toInt_eq_toNat_cond] at h0 h1 ⊢
  rw [BitVec.toNat_add, BitVec.toNat_mul, BitVec.toNat_ofNat]
  have := a.isLt
  simp at *
  split_ifs at * <;> omega

/-- The offset id of a pixel of image `c` is row `1024 · b + n` exactly when `c = b` and the id is `n`. -/
theorem offset_eq_iff (a : BitVec 32) (h0 : 0 ≤ a.toInt) (h1 : a.toInt < 1024) (c : ℕ) (hc : c < 8) (b : Fin 8) (n : Fin 1024)
    (i : Fin 8192) (hi : i.val = b.val * 1024 + n.val) :
    (IntOp.addi a (IntOp.muli (BitVec.ofNat 32 c) 1024#32)).toInt = (i.val : ℤ) ↔ (c = b.val ∧ BitVec.ofNat 32 n.val = a) := by
  obtain ⟨e, hlt⟩ := offset_toInt a h0 h1 c hc
  rw [e, hi]
  have hn := n.isLt
  constructor
  · intro h
    have h' : a.toNat + 1024 * c = b.val * 1024 + n.val := by exact_mod_cast h
    refine ⟨by omega, ?_⟩
    apply BitVec.eq_of_toNat_eq
    rw [BitVec.toNat_ofNat]
    have : n.val % 2 ^ 32 = n.val := Nat.mod_eq_of_lt (by omega)
    omega
  · rintro ⟨rfl, rfl⟩
    rw [BitVec.toNat_ofNat]
    have : n.val % 2 ^ 32 = n.val := Nat.mod_eq_of_lt (by omega)
    rw [this]; push_cast; ring

/-- Every flattened row is a pixel of an image. -/
theorem exists_row (r : Fin 2097152) : ∃ (b : Fin 8) (p : Fin 262144), r = row b p ∧ b.val = r.val / 262144 := by
  have := r.isLt
  refine ⟨⟨r.val / 262144, by omega⟩, ⟨r.val % 262144, Nat.mod_lt _ (by decide)⟩, Fin.ext ?_, rfl⟩
  rw [row_val]; show r.val = r.val / 262144 * 262144 + r.val % 262144; omega

/-- The scatter's sum over the rows: with in-range ids offset per image, row `1024 · b + n` collects image `b`'s
    pixels of id `n`. -/
theorem scatter_rows (ids : Fin 8 → Fin 262144 → BitVec 32)
    (hids : ∀ b p, 0 ≤ (ids b p).toInt ∧ (ids b p).toInt < 1024)
    (idx : IVec S2097152x1 32)
    (hidx : ∀ (b : Fin 8) (p : Fin 262144), idx (ix2 (row b p) 0)
      = IntOp.addi (ids b p) (IntOp.muli (BitVec.ofNat 32 b.val) 1024#32))
    (u : Fin 2097152 → EReal) (b : Fin 8) (n : Fin 1024) (i : Fin 8192) (hi : i.val = b.val * 1024 + n.val) :
    (∑ r : Fin 2097152, if (idx (ix2 r 0)).toInt = (i.val : Int) then u r else 0)
      = ∑ t ∈ Finset.range 64, ∑ k : Fin 4096, u (row b (pix t k)) * ind (ids b (pix t k)) n := by
  rw [sum_rows_of_image _ b ?_]
  · refine Finset.sum_congr rfl fun t _ => Finset.sum_congr rfl fun k _ => ?_
    have hiff := offset_eq_iff _ (hids b (pix t k)).1 (hids b (pix t k)).2 _ b.isLt b n i hi
    rw [hidx]
    unfold ind
    by_cases h : BitVec.ofNat 32 n.val = ids b (pix t k)
    · rw [if_pos (hiff.mpr ⟨rfl, h⟩), if_pos h, mul_one]
    · rw [if_neg (fun hh => h (hiff.mp hh).2), if_neg h, mul_zero]
  · intro r hr
    obtain ⟨b', p, rfl, hb'⟩ := exists_row r
    have hiff := offset_eq_iff _ (hids b' p).1 (hids b' p).2 _ b'.isLt b n i hi
    rw [hidx, if_neg]
    intro hh; exact hr (by rw [← hb']; exact (hiff.mp hh).1)

/-- Scale 0's scatter index of pixel `p` of image `b`: its id offset by `1024 · b`. -/
theorem v17_row (x1 : (⟨S8x4x512x512, .i32⟩ : BufTy).Contents (Elt Ideal)) (b : Fin 8) (p : Fin 262144) :
    Read.val_main_v17 (F := Ideal) x1 (ix2 (row b p) 0)
      = IntOp.addi (Sgof x1 b 0 p) (IntOp.muli (BitVec.ofNat 32 b.val) 1024#32) := by
  rw [Read.val_main_v17_apply, Read.val_main_v15_apply, Read.val_main_v14_apply, Read.val_main_v12_apply,
    Read.val_main_v11_apply, Read.val_main_v4_apply, Read.val_main_v3_apply, Read.val_main_v13_apply,
    Read.val_main_v8_apply, Read.val_main_v7_apply, Read.val_main_v5_apply, Read.val_main_v6_apply,
    Read.val_main_c_apply]
  have hb := b.isLt
  have hp := p.isLt
  have e1 : Read.idx_main_v3 (Read.idx_main_v4 (Read.idx_main_v11 (Read.idx_main_v12 (Read.idx_main_v15 (Read.idx_main_v17 (ix2 (row b p) 0))))))
      = ix4 b 0 ⟨p.val / 512, by omega⟩ ⟨p.val % 512, Nat.mod_lt _ (by decide)⟩ :=
    funext fun a => match a with
      | ⟨0, _⟩ => Fin.ext (by show (_ : ℕ) = b.val; dsimp only [row]; omega)
      | ⟨1, _⟩ => Fin.ext (by show (_ : ℕ) = 0; dsimp only [row]; omega)
      | ⟨2, _⟩ => Fin.ext (by show (_ : ℕ) = p.val / 512; dsimp only [row]; omega)
      | ⟨3, _⟩ => Fin.ext (by show (_ : ℕ) = p.val % 512; dsimp only [row]; omega)
  have e2 : ((Read.idx_main_v8 (Read.idx_main_v13 (Read.idx_main_v15 (Read.idx_main_v17 (ix2 (row b p) 0))))) 0).val = b.val := by
    show (_ : ℕ) = b.val; dsimp only [row]; omega
  rw [e1, e2]
  rfl

/-- The count's scatter index is the sum's. -/
theorem v20_row (x1 : (⟨S8x4x512x512, .i32⟩ : BufTy).Contents (Elt Ideal)) (b : Fin 8) (p : Fin 262144) :
    Read.val_main_v20 (F := Ideal) x1 (ix2 (row b p) 0)
      = IntOp.addi (Sgof x1 b 0 p) (IntOp.muli (BitVec.ofNat 32 b.val) 1024#32) := v17_row x1 b p

/-- The flattened position `(262144 · b + p) · 128 + c` splits back into the image, the pixel and the channel. -/
theorem arith_rowchan (b p c : ℕ) (hb : b < 8) (hp : p < 262144) (hc : c < 128) :
    ((b * 262144 + p) * 128 + c) / 33554432 = b ∧ ((b * 262144 + p) * 128 + c) / 128 % 262144 = p
      ∧ ((b * 262144 + p) * 128 + c) % 128 = c := by
  refine ⟨by omega, by omega, by omega⟩

/-- The flattened position `(128 · b + c) · 262144 + p` splits back into the image, the channel, the pixel's row and
    its column. -/
theorem arith_chanpix (b p c : ℕ) (hb : b < 8) (hp : p < 262144) (hc : c < 128) :
    ((b * 128 + c) * 262144 + p) / 33554432 = b ∧ ((b * 128 + c) * 262144 + p) / 262144 % 128 = c
      ∧ ((b * 128 + c) * 262144 + p) / 512 % 512 = p / 512 ∧ ((b * 128 + c) * 262144 + p) % 512 = p % 512 := by
  refine ⟨by omega, by omega, by omega, by omega⟩

/-- The updates' row of pixel `p` of image `b` is the pixel's channels. -/
theorem v2_row (x0 : (⟨S8x128x512x512, .f32⟩ : BufTy).Contents (Elt Ideal)) (b : Fin 8) (p : Fin 262144) (c : Fin 128) :
    (Read.val_main_v2 (F := Ideal) x0 (ix2 (row b p) c) : EReal) = Xof x0 b c p := by
  rw [Read.val_main_v2_apply, Read.val_main_v1_apply, Read.val_main_v0_apply]
  have hb := b.isLt
  have hp := p.isLt
  have hc := c.isLt
  obtain ⟨k0, k1, k2, k3⟩ := arith_chanpix b.val p.val c.val hb hp hc
  obtain ⟨hA, hB, hC⟩ := arith_rowchan b.val p.val c.val hb hp hc
  have e1 : ∀ i : S2097152x128.Idx, (i 0).val = b.val * 262144 + p.val → (i 1).val = c.val →
      Read.idx_main_v0 (Read.idx_main_v1 (Read.idx_main_v2 i))
        = ix4 b c ⟨p.val / 512, by omega⟩ ⟨p.val % 512, Nat.mod_lt _ (by decide)⟩ := fun i h0 h1 => by
    funext a
    match a with
      | ⟨0, _⟩ => exact Fin.ext (by show (_ : ℕ) = b.val; dsimp only; rw [h0, h1, hA, hB, hC]; exact k0)
      | ⟨1, _⟩ => exact Fin.ext (by show (_ : ℕ) = c.val; dsimp only; rw [h0, h1, hA, hB, hC]; exact k1)
      | ⟨2, _⟩ => exact Fin.ext (by show (_ : ℕ) = p.val / 512; dsimp only; rw [h0, h1, hA, hB, hC]; exact k2)
      | ⟨3, _⟩ => exact Fin.ext (by show (_ : ℕ) = p.val % 512; dsimp only; rw [h0, h1, hA, hB, hC]; exact k3)
  rw [e1 _ rfl rfl]
  rfl

/-- The counted updates are ones. -/
theorem v10_at (r : Fin 2097152) : (Read.val_main_v10 (F := Ideal) (ix1 r) : EReal) = 1 := by
  rw [Read.val_main_v10_apply, Read.val_main_cst_apply]
  exact ofBits_one_f32

/-- The sums are scattered into zeros. -/
theorem v16_at (i : S8192x128.Idx) : (Read.val_main_v16 (F := Ideal) i : EReal) = 0 := by
  rw [Read.val_main_v16_apply, Read.val_main_cst_0_apply]
  exact Ideal.ofBits_zero_f32

/-- The counts are scattered into zeros. -/
theorem v19_at (i : S8192.Idx) : (Read.val_main_v19 (F := Ideal) i : EReal) = 0 := by
  rw [Read.val_main_v19_apply, Read.val_main_cst_1_apply]
  exact Ideal.ofBits_zero_f32

/-- Row `1024 · b + n` of scale 0's scattered sums is the segment sum. -/
theorem v18_at (x0 : (⟨S8x128x512x512, .f32⟩ : BufTy).Contents (Elt Ideal)) (x1 : (⟨S8x4x512x512, .i32⟩ : BufTy).Contents (Elt Ideal))
    (hr : InRange x1) (b : Fin 8) (n : Fin 1024) (c : Fin 128) (i : Fin 8192) (hi : i.val = b.val * 1024 + n.val) :
    (Read.val_main_v18 (F := Ideal) x0 x1 (ix2 i c) : EReal) = segSum (Xof x0) (Sgof x1) b 0 c n 64 := by
  unfold Read.val_main_v18
  refine (scatterSum_apply _ _ _ i c).trans ?_
  rw [v16_at, zero_add]
  refine (scatter_rows (fun b p => Sgof x1 b 0 p) (fun b p => hr _) _ (v17_row x1)
    (fun r => (Read.val_main_v2 (F := Ideal) x0 (ix2 r c) : EReal)) b n i hi).trans ?_
  unfold segSum tileSum
  refine Finset.sum_congr rfl fun t _ => Finset.sum_congr rfl fun k _ => ?_
  rw [v2_row]

/-- Row `1024 · b + n` of scale 0's scattered ones is the segment count. -/
theorem v21_at (x1 : (⟨S8x4x512x512, .i32⟩ : BufTy).Contents (Elt Ideal))
    (hr : InRange x1) (b : Fin 8) (n : Fin 1024) (i : Fin 8192) (hi : i.val = b.val * 1024 + n.val) :
    (Read.val_main_v21 (F := Ideal) x1 (ix1 i) : EReal) = segCnt (Sgof x1) b 0 n 64 := by
  unfold Read.val_main_v21
  refine (scatterCnt_apply _ _ _ i).trans ?_
  rw [v19_at, zero_add]
  refine (scatter_rows (fun b p => Sgof x1 b 0 p) (fun b p => hr _) _ (v20_row x1)
    (fun r => (Read.val_main_v10 (F := Ideal) (ix1 r) : EReal)) b n i hi).trans ?_
  unfold segCnt tileCnt
  refine Finset.sum_congr rfl fun t _ => Finset.sum_congr rfl fun k _ => ?_
  rw [v10_at, one_mul]

/-- Row `1024 · b + n` of scale 0's quotient is the segment mean. -/
theorem v26_at (x0 : (⟨S8x128x512x512, .f32⟩ : BufTy).Contents (Elt Ideal)) (x1 : (⟨S8x4x512x512, .i32⟩ : BufTy).Contents (Elt Ideal))
    (hr : InRange x1) (b : Fin 8) (n : Fin 1024) (c : Fin 128) (i : Fin 8192) (hi : i.val = b.val * 1024 + n.val) :
    (Read.val_main_v26 (F := Ideal) x0 x1 (ix2 i c) : EReal) = mean (Xof x0) (Sgof x1) b 0 c n := by
  rw [Read.val_main_v26_apply, Read.val_main_v25_apply, Read.val_main_v24_apply, Read.val_main_v23_apply,
    Read.val_main_v22_apply, Read.val_main_cst_2_apply]
  have e1 : Read.idx_main_v24 (Read.idx_main_v25 (ix2 i c)) = ix1 i := funext fun a => match a with | ⟨0, _⟩ => rfl
  rw [e1, v18_at x0 x1 hr b n c i hi, v21_at x1 hr b n i hi]
  rfl

/-- Superpixel `n`'s row of image `b` in scale 0's mean array. -/
theorem v27_at (x0 : (⟨S8x128x512x512, .f32⟩ : BufTy).Contents (Elt Ideal)) (x1 : (⟨S8x4x512x512, .i32⟩ : BufTy).Contents (Elt Ideal))
    (hr : InRange x1) (b : Fin 8) (n : Fin 1024) (c : Fin 128) :
    (Read.val_main_v27 (F := Ideal) x0 x1 (ix3 b n c) : EReal) = mean (Xof x0) (Sgof x1) b 0 c n := by
  rw [Read.val_main_v27_apply]
  have hb := b.isLt
  have hn := n.isLt
  have hc := c.isLt
  have e1 : ∀ i : S8x1024x128.Idx, (i 0).val = b.val → (i 1).val = n.val → (i 2).val = c.val →
      Read.idx_main_v27 i = ix2 (⟨b.val * 1024 + n.val, by omega⟩ : Fin 8192) c := fun i h0 h1 h2 =>
    funext fun a => match a with
      | ⟨0, _⟩ => Fin.ext (by show (_ : ℕ) = b.val * 1024 + n.val; dsimp only; rw [h0, h1, h2]; omega)
      | ⟨1, _⟩ => Fin.ext (by show (_ : ℕ) = c.val; dsimp only; rw [h0, h1, h2]; omega)
  rw [e1 _ rfl rfl rfl]
  exact v26_at x0 x1 hr b n c _ rfl

/-- Row 0 of the joined array is the class token plus its positional embedding. -/
theorem v30_row0 (x0 : (⟨S8x128x512x512, .f32⟩ : BufTy).Contents (Elt Ideal)) (x1 : (⟨S8x4x512x512, .i32⟩ : BufTy).Contents (Elt Ideal))
    (x2 x3 : (⟨S1x128, .f32⟩ : BufTy).Contents (Elt Ideal)) (b : Fin 8) (c : Fin 128) :
    (Read.val_main_v30 (F := Ideal) x0 x1 x2 x3 (ix3 b (0 : Fin 1025) c) : EReal) = (x2 (ix2 0 c) : EReal) + x3 (ix2 0 c) := by
  unfold Read.val_main_v30
  refine (concatenate_pair_apply_left (1 : Fin S8x1025x128.rank) _ _ concatenates_S8x1x128_S8x1024x128_S8x1025x128_d1
    (ix3 b (0 : Fin 1025) c) rfl (ix3 b (0 : Fin 1) c) (fun a => match a with | ⟨0, _⟩ => rfl | ⟨1, _⟩ => rfl | ⟨2, _⟩ => rfl)).trans ?_
  rw [Read.val_main_v29_apply, Read.val_main_v28_apply, Read.val_main_v9_apply]
  have e1 : Read.idx_main_v28 (Read.idx_main_v29 (ix3 b (0 : Fin 1) c)) = ix2 0 c :=
    funext fun a => match a with | ⟨0, _⟩ => rfl | ⟨1, _⟩ => rfl
  rw [e1]
  rfl

/-- Row `n + 1` of the joined array is superpixel `n`'s row of the mean array. -/
theorem v30_succ (x0 : (⟨S8x128x512x512, .f32⟩ : BufTy).Contents (Elt Ideal)) (x1 : (⟨S8x4x512x512, .i32⟩ : BufTy).Contents (Elt Ideal))
    (x2 x3 : (⟨S1x128, .f32⟩ : BufTy).Contents (Elt Ideal)) (b : Fin 8) (n : Fin 1024) (c : Fin 128) :
    Read.val_main_v30 (F := Ideal) x0 x1 x2 x3 (ix3 b (⟨n.val + 1, by have := n.isLt; omega⟩ : Fin 1025) c)
      = Read.val_main_v27 (F := Ideal) x0 x1 (ix3 b n c) := by
  unfold Read.val_main_v30
  exact concatenate_pair_apply_right (1 : Fin S8x1025x128.rank) _ _ concatenates_S8x1x128_S8x1024x128_S8x1025x128_d1
    (ix3 b (⟨n.val + 1, by have := n.isLt; omega⟩ : Fin 1025) c) rfl rfl (ix3 b n c)
    (fun a ha => match a, ha with | ⟨0, _⟩, _ => rfl | ⟨1, _⟩, ha => absurd rfl ha | ⟨2, _⟩, _ => rfl) rfl

/-- A nonzero row of the token array is a superpixel's. -/
theorem exists_succ_row (r : Fin 1025) (h : r.val ≠ 0) :
    ∃ n : Fin 1024, r = (⟨n.val + 1, Nat.succ_lt_succ n.isLt⟩ : Fin 1025) := by
  have := r.isLt
  exact ⟨⟨r.val - 1, by omega⟩, Fin.ext (by show r.val = r.val - 1 + 1; omega)⟩

/-- Scale 0's token array at explicit coordinates. -/
theorem v34_at (x0 : (⟨S8x128x512x512, .f32⟩ : BufTy).Contents (Elt Ideal)) (x1 : (⟨S8x4x512x512, .i32⟩ : BufTy).Contents (Elt Ideal))
    (x2 x3 : (⟨S1x128, .f32⟩ : BufTy).Contents (Elt Ideal)) (x4 : (⟨S192x128, .f32⟩ : BufTy).Contents (Elt Ideal))
    (x5 : (⟨S192, .f32⟩ : BufTy).Contents (Elt Ideal)) (hr : InRange x1) (b : Fin 8) (r : Fin 1025) (e : Fin 192) :
    (Read.val_main_v34 (F := Ideal) x0 x1 x2 x3 x4 x5 (ix3 b r e) : EReal)
      = G (Xof x0) (Sgof x1) (fun c => x2 (ix2 0 c)) (fun c => x3 (ix2 0 c)) (fun e c => x4 (ix2 e c))
          (fun e => x5 (ix1 e)) 0 b r e := by
  rw [Read.val_main_v34_apply, Read.val_main_v31_apply, Read.val_main_v33_apply, Read.val_main_v32_apply]
  have el : ∀ k : Fin 128, Read.lidx_main_v31 (ix3 b r e) k = ix3 b r k := fun k =>
    funext fun a => match a with | ⟨0, _⟩ => rfl | ⟨1, _⟩ => rfl | ⟨2, _⟩ => rfl
  have er : ∀ k : Fin 128, Read.ridx_main_v31 (ix3 b r e) k = ix2 e k := fun k =>
    funext fun a => match a with | ⟨0, _⟩ => rfl | ⟨1, _⟩ => rfl
  have eb : Read.idx_main_v32 (Read.idx_main_v33 (ix3 b r e)) = ix1 e :=
    funext fun a => match a with | ⟨0, _⟩ => rfl
  simp only [el, er, eb]
  show (∑ k : Fin 128, (Read.val_main_v30 (F := Ideal) x0 x1 x2 x3 (ix3 b r k) : EReal) * x4 (ix2 e k)) + x5 (ix1 e) = _
  unfold G
  by_cases h0 : r.val = 0
  · rw [dif_pos h0]
    have hr0 : r = (0 : Fin 1025) := Fin.ext h0
    subst hr0
    unfold clsTok
    refine congrArg (· + (x5 (ix1 e) : EReal)) (Finset.sum_congr rfl fun k _ => ?_)
    rw [v30_row0]
  · rw [dif_neg h0]
    obtain ⟨n, rfl⟩ := exists_succ_row r h0
    unfold tok
    refine congrArg (· + (x5 (ix1 e) : EReal)) (Finset.sum_congr rfl fun k _ => ?_)
    rw [v30_succ, v27_at x0 x1 hr b n k, mul_comm]
    rfl

theorem val_main_v34_eq (x0 : (⟨S8x128x512x512, .f32⟩ : BufTy).Contents (Elt Ideal)) (x1 : (⟨S8x4x512x512, .i32⟩ : BufTy).Contents (Elt Ideal))
    (x2 x3 : (⟨S1x128, .f32⟩ : BufTy).Contents (Elt Ideal)) (x4 : (⟨S192x128, .f32⟩ : BufTy).Contents (Elt Ideal))
    (x5 : (⟨S192, .f32⟩ : BufTy).Contents (Elt Ideal)) (hr : InRange x1) :
    Read.val_main_v34 (F := Ideal) x0 x1 x2 x3 x4 x5 = GArr 0 x0 x1 x2 x3 x4 x5 := by
  funext j
  rw [eq_ix3 j]
  exact v34_at x0 x1 x2 x3 x4 x5 hr (j 0) (j 1) (j 2)

/-- The id array with scale `s`'s ids at every scale. -/
def scaleOf (s : Fin 4) (x1 : (⟨S8x4x512x512, .i32⟩ : BufTy).Contents (Elt Ideal)) :
    (⟨S8x4x512x512, .i32⟩ : BufTy).Contents (Elt Ideal) :=
  fun i => x1 (ix4 (⟨(i 0).val, (i 0).isLt⟩ : Fin 8) s (⟨(i 2).val, (i 2).isLt⟩ : Fin 512) (⟨(i 3).val, (i 3).isLt⟩ : Fin 512))

/-- Copying a scale keeps every id in range. -/
theorem inRange_scaleOf (s : Fin 4) (x1 : (⟨S8x4x512x512, .i32⟩ : BufTy).Contents (Elt Ideal)) (hr : InRange x1) :
    InRange (scaleOf s x1) := fun i => hr _

/-- The specification at scale 0 of the copied ids is the specification at scale `s`. -/
theorem GArr_scaleOf (s : Fin 4) (x0 : (⟨S8x128x512x512, .f32⟩ : BufTy).Contents (Elt Ideal)) (x1 : (⟨S8x4x512x512, .i32⟩ : BufTy).Contents (Elt Ideal))
    (x2 x3 : (⟨S1x128, .f32⟩ : BufTy).Contents (Elt Ideal)) (x4 : (⟨S192x128, .f32⟩ : BufTy).Contents (Elt Ideal))
    (x5 : (⟨S192, .f32⟩ : BufTy).Contents (Elt Ideal)) :
    GArr 0 x0 (scaleOf s x1) x2 x3 x4 x5 = GArr s x0 x1 x2 x3 x4 x5 := by
  have hSg : ∀ b p, Sgof (scaleOf s x1) b 0 p = Sgof x1 b s p := fun _ _ => rfl
  funext j
  simp only [GArr, G, tok, mean, segSum, segCnt, tileSum, tileCnt, hSg]

/-- The flattened position `(8 · s + i₁) · 262144 + i₂` splits back into the scale, the image, the pixel's row and
    its column. -/
theorem slice_arith (s i1 i2 : ℕ) (hs : s < 4) (h1 : i1 < 8) (h2 : i2 < 262144) :
    ((s * 8 + i1) * 262144 + i2) / 2097152 = s ∧ ((s * 8 + i1) * 262144 + i2) / 262144 % 8 = i1
      ∧ ((s * 8 + i1) * 262144 + i2) / 512 % 512 = i2 / 512 ∧ ((s * 8 + i1) * 262144 + i2) % 512 = i2 % 512 := by
  refine ⟨by omega, by omega, by omega, by omega⟩

/-- Scale 1's slice of the ids is scale 0's slice of the copied ids. -/
theorem v35_eq (x1 : (⟨S8x4x512x512, .i32⟩ : BufTy).Contents (Elt Ideal)) :
    Read.val_main_v35 (F := Ideal) x1 = Read.val_main_v11 (F := Ideal) (scaleOf 1 x1) := by
  funext i
  rw [Read.val_main_v35_apply, Read.val_main_v4_apply, Read.val_main_v3_apply,
    Read.val_main_v11_apply, Read.val_main_v4_apply, Read.val_main_v3_apply]
  unfold scaleOf
  have h0 : (i 0).val = 0 := by have : (i 0).val < 1 := (i 0).isLt; omega
  have h1 : (i 1).val < 8 := (i 1).isLt
  have h2 : (i 2).val < 262144 := (i 2).isLt
  obtain ⟨a0, a1, a2, a3⟩ := slice_arith 1 (i 1).val (i 2).val (by omega) h1 h2
  obtain ⟨c0, c1, c2, c3⟩ := slice_arith 0 (i 1).val (i 2).val (by omega) h1 h2
  refine congrArg x1 (funext fun a => ?_)
  match a with
  | ⟨0, _⟩ => exact Fin.ext (by show (_ : ℕ) = (_ : ℕ); dsimp only; rw [h0]; exact a1.trans c1.symm)
  | ⟨1, _⟩ => exact Fin.ext (by show (_ : ℕ) = 1; dsimp only; rw [h0]; exact a0)
  | ⟨2, _⟩ => exact Fin.ext (by show (_ : ℕ) = (_ : ℕ); dsimp only; rw [h0]; exact a2.trans c2.symm)
  | ⟨3, _⟩ => exact Fin.ext (by show (_ : ℕ) = (_ : ℕ); dsimp only; rw [h0]; exact a3.trans c3.symm)

/-- Scale 1's token array is scale 0's of the copied ids: the same operations on the slice. -/
theorem v58_eq_v34 (x0 : (⟨S8x128x512x512, .f32⟩ : BufTy).Contents (Elt Ideal)) (x1 : (⟨S8x4x512x512, .i32⟩ : BufTy).Contents (Elt Ideal))
    (x2 x3 : (⟨S1x128, .f32⟩ : BufTy).Contents (Elt Ideal)) (x4 : (⟨S192x128, .f32⟩ : BufTy).Contents (Elt Ideal))
    (x5 : (⟨S192, .f32⟩ : BufTy).Contents (Elt Ideal)) :
    Read.val_main_v58 (F := Ideal) x0 x1 x2 x3 x4 x5 = Read.val_main_v34 (F := Ideal) x0 (scaleOf 1 x1) x2 x3 x4 x5 := by
  unfold Read.val_main_v58 Read.val_main_v55 Read.val_main_v54 Read.val_main_v51 Read.val_main_v50 Read.val_main_v42 Read.val_main_v41 Read.val_main_v49 Read.val_main_v48 Read.val_main_v47 Read.val_main_v45 Read.val_main_v44 Read.val_main_v39 Read.val_main_v38 Read.val_main_v36
  rw [v35_eq]
  rfl

/-- Scale 2's slice of the ids is scale 0's slice of the copied ids. -/
theorem v59_eq (x1 : (⟨S8x4x512x512, .i32⟩ : BufTy).Contents (Elt Ideal)) :
    Read.val_main_v59 (F := Ideal) x1 = Read.val_main_v11 (F := Ideal) (scaleOf 2 x1) := by
  funext i
  rw [Read.val_main_v59_apply, Read.val_main_v4_apply, Read.val_main_v3_apply,
    Read.val_main_v11_apply, Read.val_main_v4_apply, Read.val_main_v3_apply]
  unfold scaleOf
  have h0 : (i 0).val = 0 := by have : (i 0).val < 1 := (i 0).isLt; omega
  have h1 : (i 1).val < 8 := (i 1).isLt
  have h2 : (i 2).val < 262144 := (i 2).isLt
  obtain ⟨a0, a1, a2, a3⟩ := slice_arith 2 (i 1).val (i 2).val (by omega) h1 h2
  obtain ⟨c0, c1, c2, c3⟩ := slice_arith 0 (i 1).val (i 2).val (by omega) h1 h2
  refine congrArg x1 (funext fun a => ?_)
  match a with
  | ⟨0, _⟩ => exact Fin.ext (by show (_ : ℕ) = (_ : ℕ); dsimp only; rw [h0]; exact a1.trans c1.symm)
  | ⟨1, _⟩ => exact Fin.ext (by show (_ : ℕ) = 2; dsimp only; rw [h0]; exact a0)
  | ⟨2, _⟩ => exact Fin.ext (by show (_ : ℕ) = (_ : ℕ); dsimp only; rw [h0]; exact a2.trans c2.symm)
  | ⟨3, _⟩ => exact Fin.ext (by show (_ : ℕ) = (_ : ℕ); dsimp only; rw [h0]; exact a3.trans c3.symm)

/-- Scale 2's token array is scale 0's of the copied ids: the same operations on the slice. -/
theorem v82_eq_v34 (x0 : (⟨S8x128x512x512, .f32⟩ : BufTy).Contents (Elt Ideal)) (x1 : (⟨S8x4x512x512, .i32⟩ : BufTy).Contents (Elt Ideal))
    (x2 x3 : (⟨S1x128, .f32⟩ : BufTy).Contents (Elt Ideal)) (x4 : (⟨S192x128, .f32⟩ : BufTy).Contents (Elt Ideal))
    (x5 : (⟨S192, .f32⟩ : BufTy).Contents (Elt Ideal)) :
    Read.val_main_v82 (F := Ideal) x0 x1 x2 x3 x4 x5 = Read.val_main_v34 (F := Ideal) x0 (scaleOf 2 x1) x2 x3 x4 x5 := by
  unfold Read.val_main_v82 Read.val_main_v79 Read.val_main_v78 Read.val_main_v75 Read.val_main_v74 Read.val_main_v66 Read.val_main_v65 Read.val_main_v73 Read.val_main_v72 Read.val_main_v71 Read.val_main_v69 Read.val_main_v68 Read.val_main_v63 Read.val_main_v62 Read.val_main_v60
  rw [v59_eq]
  rfl

/-- Scale 3's slice of the ids is scale 0's slice of the copied ids. -/
theorem v83_eq (x1 : (⟨S8x4x512x512, .i32⟩ : BufTy).Contents (Elt Ideal)) :
    Read.val_main_v83 (F := Ideal) x1 = Read.val_main_v11 (F := Ideal) (scaleOf 3 x1) := by
  funext i
  rw [Read.val_main_v83_apply, Read.val_main_v4_apply, Read.val_main_v3_apply,
    Read.val_main_v11_apply, Read.val_main_v4_apply, Read.val_main_v3_apply]
  unfold scaleOf
  have h0 : (i 0).val = 0 := by have : (i 0).val < 1 := (i 0).isLt; omega
  have h1 : (i 1).val < 8 := (i 1).isLt
  have h2 : (i 2).val < 262144 := (i 2).isLt
  obtain ⟨a0, a1, a2, a3⟩ := slice_arith 3 (i 1).val (i 2).val (by omega) h1 h2
  obtain ⟨c0, c1, c2, c3⟩ := slice_arith 0 (i 1).val (i 2).val (by omega) h1 h2
  refine congrArg x1 (funext fun a => ?_)
  match a with
  | ⟨0, _⟩ => exact Fin.ext (by show (_ : ℕ) = (_ : ℕ); dsimp only; rw [h0]; exact a1.trans c1.symm)
  | ⟨1, _⟩ => exact Fin.ext (by show (_ : ℕ) = 3; dsimp only; rw [h0]; exact a0)
  | ⟨2, _⟩ => exact Fin.ext (by show (_ : ℕ) = (_ : ℕ); dsimp only; rw [h0]; exact a2.trans c2.symm)
  | ⟨3, _⟩ => exact Fin.ext (by show (_ : ℕ) = (_ : ℕ); dsimp only; rw [h0]; exact a3.trans c3.symm)

/-- Scale 3's token array is scale 0's of the copied ids: the same operations on the slice. -/
theorem v106_eq_v34 (x0 : (⟨S8x128x512x512, .f32⟩ : BufTy).Contents (Elt Ideal)) (x1 : (⟨S8x4x512x512, .i32⟩ : BufTy).Contents (Elt Ideal))
    (x2 x3 : (⟨S1x128, .f32⟩ : BufTy).Contents (Elt Ideal)) (x4 : (⟨S192x128, .f32⟩ : BufTy).Contents (Elt Ideal))
    (x5 : (⟨S192, .f32⟩ : BufTy).Contents (Elt Ideal)) :
    Read.val_main_v106 (F := Ideal) x0 x1 x2 x3 x4 x5 = Read.val_main_v34 (F := Ideal) x0 (scaleOf 3 x1) x2 x3 x4 x5 := by
  unfold Read.val_main_v106 Read.val_main_v103 Read.val_main_v102 Read.val_main_v99 Read.val_main_v98 Read.val_main_v90 Read.val_main_v89 Read.val_main_v97 Read.val_main_v96 Read.val_main_v95 Read.val_main_v93 Read.val_main_v92 Read.val_main_v87 Read.val_main_v86 Read.val_main_v84
  rw [v83_eq]
  rfl

theorem val_main_v58_eq (x0 : (⟨S8x128x512x512, .f32⟩ : BufTy).Contents (Elt Ideal)) (x1 : (⟨S8x4x512x512, .i32⟩ : BufTy).Contents (Elt Ideal))
    (x2 x3 : (⟨S1x128, .f32⟩ : BufTy).Contents (Elt Ideal)) (x4 : (⟨S192x128, .f32⟩ : BufTy).Contents (Elt Ideal))
    (x5 : (⟨S192, .f32⟩ : BufTy).Contents (Elt Ideal)) (hr : InRange x1) :
    Read.val_main_v58 (F := Ideal) x0 x1 x2 x3 x4 x5 = GArr 1 x0 x1 x2 x3 x4 x5 := by
  rw [v58_eq_v34, val_main_v34_eq x0 (scaleOf 1 x1) x2 x3 x4 x5 (inRange_scaleOf 1 x1 hr), GArr_scaleOf]

theorem val_main_v82_eq (x0 : (⟨S8x128x512x512, .f32⟩ : BufTy).Contents (Elt Ideal)) (x1 : (⟨S8x4x512x512, .i32⟩ : BufTy).Contents (Elt Ideal))
    (x2 x3 : (⟨S1x128, .f32⟩ : BufTy).Contents (Elt Ideal)) (x4 : (⟨S192x128, .f32⟩ : BufTy).Contents (Elt Ideal))
    (x5 : (⟨S192, .f32⟩ : BufTy).Contents (Elt Ideal)) (hr : InRange x1) :
    Read.val_main_v82 (F := Ideal) x0 x1 x2 x3 x4 x5 = GArr 2 x0 x1 x2 x3 x4 x5 := by
  rw [v82_eq_v34, val_main_v34_eq x0 (scaleOf 2 x1) x2 x3 x4 x5 (inRange_scaleOf 2 x1 hr), GArr_scaleOf]

theorem val_main_v106_eq (x0 : (⟨S8x128x512x512, .f32⟩ : BufTy).Contents (Elt Ideal)) (x1 : (⟨S8x4x512x512, .i32⟩ : BufTy).Contents (Elt Ideal))
    (x2 x3 : (⟨S1x128, .f32⟩ : BufTy).Contents (Elt Ideal)) (x4 : (⟨S192x128, .f32⟩ : BufTy).Contents (Elt Ideal))
    (x5 : (⟨S192, .f32⟩ : BufTy).Contents (Elt Ideal)) (hr : InRange x1) :
    Read.val_main_v106 (F := Ideal) x0 x1 x2 x3 x4 x5 = GArr 3 x0 x1 x2 x3 x4 x5 := by
  rw [v106_eq_v34, val_main_v34_eq x0 (scaleOf 3 x1) x2 x3 x4 x5 (inRange_scaleOf 3 x1 hr), GArr_scaleOf]

end Cert.ReferenceIdeal.RefValue

end
-- ==== Proof.RefSeg.lean ====
/-
  The reference hands the ids back through two transposes and two reshapes that undo each other: the array
  it returns is the argument.
-/
import proofs.«428727_j37907381354596_3_alg».proof.Proof.Gen.ReferenceIdeal.Read
import proofs.«428727_j37907381354596_3_alg».proof.Proof.Spec

set_option maxRecDepth 16384

noncomputable section

namespace Cert.ReferenceIdeal.RefValue

open Cert.ReferenceIdeal Cert.ReferenceIdeal.Gen Cert.Spec
open Idealize.ShloMosaic Idealize.ShloMosaic.TcCoe Idealize.ShloMosaic.ValueIdx Idealize.SL.Sem Idealize.ShloMosaic.StableHlo

/-- The four index maps composed: flatten the last two axes, swap the first two, unflatten, swap back.
    With `N = ((i 0 * 4 + i 1) * 512 + i 2) * 512 + i 3` the flattened offset, `N / 262144 = i 0 * 4 + i 1`,
    `N / 1048576 = i 0` and `N % 262144 = i 2 * 512 + i 3` because `i 2 < 512` and `i 3 < 512`; after the swap the
    offset is `(i 1 * 8 + i 0) * 262144 + (i 2 * 512 + i 3)`, whose four digits are `i 1, i 0, i 2, i 3`. -/
theorem idx_chain (i : S8x4x512x512.Idx) :
    Read.idx_main_v3 (Read.idx_main_v4 (Read.idx_main_v107 (Read.idx_main_v108 i))) = i := by
  have h0 : (i 0).val < 8 := (i 0).isLt
  have h1 : (i 1).val < 4 := (i 1).isLt
  have h2 : (i 2).val < 512 := (i 2).isLt
  have h3 : (i 3).val < 512 := (i 3).isLt
  have e1 : ((((i 0).val * 4 + (i 1).val) * 512 + (i 2).val) * 512 + (i 3).val) / 262144
      = (i 0).val * 4 + (i 1).val := by omega
  have e2 : ((((i 0).val * 4 + (i 1).val) * 512 + (i 2).val) * 512 + (i 3).val) / 1048576 = (i 0).val := by omega
  have e3 : ((((i 0).val * 4 + (i 1).val) * 512 + (i 2).val) * 512 + (i 3).val) % 262144
      = (i 2).val * 512 + (i 3).val := by omega
  have e4 : ((i 0).val * 4 + (i 1).val) % 4 = (i 1).val := by omega
  funext a
  apply Fin.ext
  match a with
  | ⟨0, _⟩ =>
    show ((((((i 0).val * 4 + (i 1).val) * 512 + (i 2).val) * 512 + (i 3).val) / 262144 % 4 * 8
        + ((((i 0).val * 4 + (i 1).val) * 512 + (i 2).val) * 512 + (i 3).val) / 1048576) * 262144
        + ((((i 0).val * 4 + (i 1).val) * 512 + (i 2).val) * 512 + (i 3).val) % 262144) / 262144 % 8 = (i 0).val
    rw [e1, e2, e3, e4]
    omega
  | ⟨1, _⟩ =>
    show ((((((i 0).val * 4 + (i 1).val) * 512 + (i 2).val) * 512 + (i 3).val) / 262144 % 4 * 8
        + ((((i 0).val * 4 + (i 1).val) * 512 + (i 2).val) * 512 + (i 3).val) / 1048576) * 262144
        + ((((i 0).val * 4 + (i 1).val) * 512 + (i 2).val) * 512 + (i 3).val) % 262144) / 2097152 = (i 1).val
    rw [e1, e2, e3, e4]
    omega
  | ⟨2, _⟩ =>
    show ((((((i 0).val * 4 + (i 1).val) * 512 + (i 2).val) * 512 + (i 3).val) / 262144 % 4 * 8
        + ((((i 0).val * 4 + (i 1).val) * 512 + (i 2).val) * 512 + (i 3).val) / 1048576) * 262144
        + ((((i 0).val * 4 + (i 1).val) * 512 + (i 2).val) * 512 + (i 3).val) % 262144) / 512 % 512 = (i 2).val
    rw [e1, e2, e3, e4]
    omega
  | ⟨3, _⟩ =>
    show ((((((i 0).val * 4 + (i 1).val) * 512 + (i 2).val) * 512 + (i 3).val) / 262144 % 4 * 8
        + ((((i 0).val * 4 + (i 1).val) * 512 + (i 2).val) * 512 + (i 3).val) / 1048576) * 262144
        + ((((i 0).val * 4 + (i 1).val) * 512 + (i 2).val) * 512 + (i 3).val) % 262144) % 512 = (i 3).val
    rw [e1, e2, e3, e4]
    omega

theorem val_main_v108_eq (x1 : (⟨S8x4x512x512, .i32⟩ : BufTy).Contents (Elt Ideal)) :
    Read.val_main_v108 (F := Ideal) x1 = x1 := by
  funext i
  rw [Read.val_main_v108_apply, Read.val_main_v107_apply, Read.val_main_v4_apply, Read.val_main_v3_apply]
  exact congrArg x1 (idx_chain i)

end Cert.ReferenceIdeal.RefValue

end
-- ==== Proof.RefRun.lean ====
/-
  The reference's run with its results named: every weakly fair execution terminates with each scale's result
  at the specification's token array of the arguments (given that every id is a superpixel id), the ids handed
  back as they came, and the arguments unchanged.
-/
import proofs.«428727_j37907381354596_3_alg».proof.Proof.Gen.ReferenceIdeal.Run
import proofs.«428727_j37907381354596_3_alg».proof.Proof.Gen.ReferenceIdeal.Read
import proofs.«428727_j37907381354596_3_alg».proof.Proof.Spec
import proofs.«428727_j37907381354596_3_alg».proof.Proof.RefScale
import proofs.«428727_j37907381354596_3_alg».proof.Proof.RefSeg

set_option maxRecDepth 16384

noncomputable section

namespace Cert.ReferenceIdeal.RefValue

open Cert.ReferenceIdeal Cert.ReferenceIdeal.Gen Cert.Spec
open Idealize.ShloMosaic Idealize.ShloMosaic.TcCoe Idealize.ShloMosaic.ValueIdx Idealize.SL.Sem Idealize.ShloMosaic.StableHlo

theorem run (m : (ℓ : Loc nD τ sig) → Buf (Elt Ideal) ℓ) (ρ : Dev nD → PrngReg)
    (hr : ∀ c : Dev nD, InRange (m ((c.tc : Thread nD τ).loc main_arg1))) :
    θ_run defs (onTc (τ := τ) (main (F := Ideal))) ⟨m, fun _ => 0, ρ⟩ (fun r => ∀ c : Dev nD,
      r.2.mem ((c.tc : Thread nD τ).loc main_v34) = GArr 0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v58) = GArr 1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v82) = GArr 2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v106) = GArr 3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v108) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).1.trans ((Read.val_main_v34_eq _ _ _ _ _ _).trans (val_main_v34_eq _ _ _ _ _ _ (hr c))),
      (h c).2.1.trans ((Read.val_main_v58_eq _ _ _ _ _ _).trans (val_main_v58_eq _ _ _ _ _ _ (hr c))),
      (h c).2.2.1.trans ((Read.val_main_v82_eq _ _ _ _ _ _).trans (val_main_v82_eq _ _ _ _ _ _ (hr c))),
      (h c).2.2.2.1.trans ((Read.val_main_v106_eq _ _ _ _ _ _).trans (val_main_v106_eq _ _ _ _ _ _ (hr c))),
      (h c).2.2.2.2.1.trans ((Read.val_main_v108_eq _).trans (val_main_v108_eq _)),
      (h c).2.2.2.2.2⟩)
    (Cert.ReferenceIdeal.Value.run (F := Ideal) m ρ)

end Cert.ReferenceIdeal.RefValue

end
-- ==== Proof.lean ====
/-
  Per-scale superpixel mean pooling followed by a 1×1 convolution: the kernel against its reference, over the
  extended reals.

  For each of 8 images, 4 scales and 1024 superpixel ids the kernel accumulates, tile by tile over the image's
  64 tiles of 4096 pixels, the product of the image tile (128 channel rows, widened by 8 rows of ones) with the
  tile's one-hot id matrix: the channel rows accumulate the segment sums, the rows of ones the segment counts.
  At an image's last tile it divides the sums by the larger of the count and one, convolves the means with the
  192 × 128 weights, adds the bias and writes the image's block of the output; the host prepends the class row.
  The reference offsets image `b`'s ids by `1024 · b`, scatter-adds the pixels' channel rows and ones into
  8192 rows, divides, prepends the class row and convolves.  With every id in `[0, 1024)` — the precondition's
  range conjuncts — row `1024 · b + n` of the scatter collects exactly image `b`'s pixels of id `n`, and both
  programs compute the specification's token array (Proof/Spec.lean): a sum of products with an indicator is
  the sum over the indicated pixels, the order of a sum and of a product does not matter on the extended reals,
  and a change of float format is the identity there.  The ids come back unchanged from both programs.
  The finiteness conjuncts of the precondition are not used: no law used here fails at an infinity.
-/
import proofs.«428727_j37907381354596_3_alg».proof.Defs
import proofs.«428727_j37907381354596_3_alg».proof.Proof.Gen.Kernel
import proofs.«428727_j37907381354596_3_alg».proof.Proof.Gen.Kernel.Skeleton
import proofs.«428727_j37907381354596_3_alg».proof.Proof.Gen.Kernel.Launch
import proofs.«428727_j37907381354596_3_alg».proof.Proof.Gen.Kernel.Points
import proofs.«428727_j37907381354596_3_alg».proof.Proof.Gen.Kernel.Frame
import proofs.«428727_j37907381354596_3_alg».proof.Proof.Gen.KernelIdeal
import proofs.«428727_j37907381354596_3_alg».proof.Proof.Gen.KernelIdeal.Skeleton
import proofs.«428727_j37907381354596_3_alg».proof.Proof.Gen.KernelIdeal.Launch
import proofs.«428727_j37907381354596_3_alg».proof.Proof.Gen.KernelIdeal.Points
import proofs.«428727_j37907381354596_3_alg».proof.Proof.Gen.KernelIdeal.Frame
import proofs.«428727_j37907381354596_3_alg».proof.Proof.Gen.ReferenceIdeal
import proofs.«428727_j37907381354596_3_alg».proof.Proof.Gen.Pre_finite_inputs
import proofs.«428727_j37907381354596_3_alg».proof.Proof.Gen.ReferenceIdeal.Run
import proofs.«428727_j37907381354596_3_alg».proof.Proof.Gen.ReferenceIdeal.Read
import proofs.«428727_j37907381354596_3_alg».proof.Proof.Spec
import proofs.«428727_j37907381354596_3_alg».proof.Proof.PreRange
import proofs.«428727_j37907381354596_3_alg».proof.Proof.KRun
import proofs.«428727_j37907381354596_3_alg».proof.Proof.RefRun
import Idealize.ShloMosaic.Adequacy
import Idealize.ShloMosaic.Init

noncomputable section

namespace Cert.Proof

open Idealize.ShloMosaic Idealize.ShloMosaic.TcCoe Idealize.SL.Sem Cert.Spec

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its run, with the results dropped. -/
theorem frame_ri : Cert.frame_ReferenceIdeal := fun m ρ _ =>
  (θ_run Cert.ReferenceIdeal.defs _ _).mono (fun _ h c => (h c).2.2.2.2.2)
    (Cert.ReferenceIdeal.Value.run (F := Ideal) m ρ)

/-- The ideal pass rewrote nothing. -/
theorem preserves : Cert.preserves_Kernel_KernelIdeal := trivial

/-- Both idealized programs end with every scale's result at the specification's token array of the
    arguments and hand the ids back unchanged: the kernel always, the reference because the precondition puts
    every id in `[0, 1024)`. -/
theorem algebraic : Cert.algebraic_KernelIdeal_ReferenceIdeal := by
  intro m ρ m' ρ' hpre hagree
  have hr : ∀ c : Dev Cert.ReferenceIdeal.nD, InRange (m' ((c.tc : Thread Cert.ReferenceIdeal.nD Cert.ReferenceIdeal.τ).loc Cert.ReferenceIdeal.main_arg1)) := fun c => by
    rw [(hagree c).2.1]
    exact Cert.PreRange.inRange_of_pre _ _ _ _ _ _ (hpre c)
  refine ⟨fun c => GArr 0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => GArr 1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => GArr 2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => GArr 3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => (m ((c.tc : Thread Cert.KernelIdeal.nD Cert.KernelIdeal.τ).loc Cert.KernelIdeal.main_arg1)), Cert.KernelIdeal.KRun.run m ρ, ?_⟩
  refine (θ_run Cert.ReferenceIdeal.defs _ _).mono (fun _ h c => ?_) (Cert.ReferenceIdeal.RefValue.run m' ρ' hr)
  obtain ⟨a0, a1, a2, a3, a4, a5⟩ := hagree c
  obtain ⟨h0, h1, h2, h3, h4, hk⟩ := h c
  rw [a0, a1, a2, a3, a4, a5] at h0 h1 h2 h3
  rw [a1] at h4
  exact ⟨h0, h1, h2, h3, h4, hk⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
